-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x500000 : Shape := ⟨2, ![2, 500000]⟩
abbrev S3x128x64 : Shape := ⟨3, ![3, 128, 64]⟩
abbrev S3x64 : Shape := ⟨2, ![3, 64]⟩
abbrev S3x3x64x64 : Shape := ⟨4, ![3, 3, 64, 64]⟩
abbrev S3x3x64 : Shape := ⟨3, ![3, 3, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x3x64 : S_.BroadcastsInDim S3x3x64 (![] : Fin 0 → Fin S3x3x64.rank)
  reducesTo_S3x3x64_S_d0_1_2 : S3x3x64.ReducesTo [0, 1, 2] S_
  bcast_S_S2x500000 : S_.BroadcastsInDim S2x500000 (![] : Fin 0 → Fin S2x500000.rank)
  reducesTo_S2x500000_S_d0_1 : S2x500000.ReducesTo [0, 1] S_

variable [Facts]

def fn_part3 {F : FTy → Type} [FloatOps F] (main_arg5 : IVec S2x500000 32) (main_v49 : IVec S_ 1) (main_c_19 : IVec S_ 32) : IVec S_ 1 :=
  let main_v50 : IVec S2x500000 32 := broadcastInDim S2x500000 ![] bcast_S_S2x500000 main_c_19
  let main_v51 : IVec S2x500000 1 := cmpi .sge main_arg5 main_v50
  let main_c_20 : IVec S_ 32 := constantI S_ 32 200000#32
  let main_v52 : IVec S2x500000 32 := broadcastInDim S2x500000 ![] bcast_S_S2x500000 main_c_20
  let main_v53 : IVec S2x500000 1 := cmpi .slt main_arg5 main_v52
  let main_v54 : IVec S2x500000 1 := andi main_v51 main_v53
  let main_c_21 : IVec S_ 1 := constantI S_ 1 1#1
  let main_v55 : IVec S_ 1 := (fun x v => Host.reduce IntOp.andi x v reducesTo_S2x500000_S_d0_1 h_S_) main_v54 main_c_21
  let main_v56 : IVec S_ 1 := andi main_v49 main_v55
  main_v56

def fn_part2 {F : FTy → Type} [FloatOps F] (main_arg3 : IVec S2x500000 32) (main_arg4 : IVec S2x500000 32) (main_arg5 : IVec S2x500000 32) (main_v28 : IVec S_ 1) (main_v33 : IVec S2x500000 1) : IVec S_ 1 :=
  let main_c_12 : IVec S_ 1 := constantI S_ 1 1#1
  let main_v34 : IVec S_ 1 := (fun x v => Host.reduce IntOp.andi x v reducesTo_S2x500000_S_d0_1 h_S_) main_v33 main_c_12
  let main_v35 : IVec S_ 1 := andi main_v28 main_v34
  let main_c_13 : IVec S_ 32 := constantI S_ 32 0#32
  let main_v36 : IVec S2x500000 32 := broadcastInDim S2x500000 ![] bcast_S_S2x500000 main_c_13
  let main_v37 : IVec S2x500000 1 := cmpi .sge main_arg3 main_v36
  let main_c_14 : IVec S_ 32 := constantI S_ 32 200000#32
  let main_v38 : IVec S2x500000 32 := broadcastInDim S2x500000 ![] bcast_S_S2x500000 main_c_14
  let main_v39 : IVec S2x500000 1 := cmpi .slt main_arg3 main_v38
  let main_v40 : IVec S2x500000 1 := andi main_v37 main_v39
  let main_c_15 : IVec S_ 1 := constantI S_ 1 1#1
  let main_v41 : IVec S_ 1 := (fun x v => Host.reduce IntOp.andi x v reducesTo_S2x500000_S_d0_1 h_S_) main_v40 main_c_15
  let main_v42 : IVec S_ 1 := andi main_v35 main_v41
  let main_c_16 : IVec S_ 32 := constantI S_ 32 0#32
  let main_v43 : IVec S2x500000 32 := broadcastInDim S2x500000 ![] bcast_S_S2x500000 main_c_16
  let main_v44 : IVec S2x500000 1 := cmpi .sge main_arg4 main_v43
  let main_c_17 : IVec S_ 32 := constantI S_ 32 200000#32
  let main_v45 : IVec S2x500000 32 := broadcastInDim S2x500000 ![] bcast_S_S2x500000 main_c_17
  let main_v46 : IVec S2x500000 1 := cmpi .slt main_arg4 main_v45
  let main_v47 : IVec S2x500000 1 := andi main_v44 main_v46
  let main_c_18 : IVec S_ 1 := constantI S_ 1 1#1
  let main_v48 : IVec S_ 1 := (fun x v => Host.reduce IntOp.andi x v reducesTo_S2x500000_S_d0_1 h_S_) main_v47 main_c_18
  let main_v49 : IVec S_ 1 := andi main_v42 main_v48
  let main_c_19 : IVec S_ 32 := constantI S_ 32 0#32
  fn_part3 (F := F) main_arg5 main_v49 main_c_19

def fn_part1 {F : FTy → Type} [FloatOps F] (main_arg2 : IVec S2x500000 32) (main_arg3 : IVec S2x500000 32) (main_arg4 : IVec S2x500000 32) (main_arg5 : IVec S2x500000 32) (main_arg8 : FVec F S3x3x64x64 .f32) (main_arg9 : FVec F S3x3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x3x64x64 .f32 := Host.absf main_arg8
  let main_cst_6 : FVec F S_ .f32 := constant S_ .f32 0x7F800000#32
  let main_v20 : FVec F S3x3x64x64 .f32 := broadcastInDim S3x3x64x64 ![] bcast_S_S3x3x64x64 main_cst_6
  let main_v21 : IVec S3x3x64x64 1 := cmpf .olt main_v19 main_v20
  let main_c_7 : IVec S_ 1 := constantI S_ 1 1#1
  let main_v22 : IVec S_ 1 := (fun x v => Host.reduce IntOp.andi x v reducesTo_S3x3x64x64_S_d0_1_2_3 h_S_) main_v21 main_c_7
  let main_v23 : IVec S_ 1 := andi main_v18 main_v22
  let main_v24 : FVec F S3x3x64 .f32 := Host.absf main_arg9
  let main_cst_8 : FVec F S_ .f32 := constant S_ .f32 0x7F800000#32
  let main_v25 : FVec F S3x3x64 .f32 := broadcastInDim S3x3x64 ![] bcast_S_S3x3x64 main_cst_8
  let main_v26 : IVec S3x3x64 1 := cmpf .olt main_v24 main_v25
  let main_c_9 : IVec S_ 1 := constantI S_ 1 1#1
  let main_v27 : IVec S_ 1 := (fun x v => Host.reduce IntOp.andi x v reducesTo_S3x3x64_S_d0_1_2 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg2 main_v29
  let main_c_11 : IVec S_ 32 := constantI S_ 32 200000#32
  let main_v31 : IVec S2x500000 32 := broadcastInDim S2x500000 ![] bcast_S_S2x500000 main_c_11
  let main_v32 : IVec S2x500000 1 := cmpi .slt main_arg2 main_v31
  let main_v33 : IVec S2x500000 1 := andi main_v30 main_v32
  fn_part2 (F := F) main_arg3 main_arg4 main_arg5 main_v28 main_v33

def fn {F : FTy → Type} [FloatOps F] (main_arg0 : FVec F S200000x64 .f32) (main_arg1 : FVec F S200000x64 .f32) (main_arg2 : IVec S2x500000 32) (main_arg3 : IVec S2x500000 32) (main_arg4 : IVec S2x500000 32) (main_arg5 : IVec S2x500000 32) (main_arg6 : FVec F S3x128x64 .f32) (main_arg7 : FVec F S3x64 .f32) (main_arg8 : FVec F S3x3x64x64 .f32) (main_arg9 : FVec F S3x3x64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x128x64 .f32 := Host.absf main_arg6
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  let main_v14 : FVec F S3x64 .f32 := Host.absf main_arg7
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg2 main_arg3 main_arg4 main_arg5 main_arg8 main_arg9 main_v13 main_v16
-- ==== Kernel.lean ====
abbrev S200000x64 : Shape := ⟨2, ![200000, 64]⟩
abbrev S2x500000 : Shape := ⟨2, ![2, 500000]⟩
abbrev S3x128x64 : Shape := ⟨3, ![3, 128, 64]⟩
abbrev S3x64 : Shape := ⟨2, ![3, 64]⟩
abbrev S3x3x64x64 : Shape := ⟨4, ![3, 3, 64, 64]⟩
abbrev S3x3x64 : Shape := ⟨3, ![3, 3, 64]⟩
abbrev S4 : Shape := ⟨1, ![4]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x64 : Shape := ⟨2, ![500000, 64]⟩
abbrev S500000x128 : Shape := ⟨2, ![500000, 128]⟩
abbrev S1x500000x128 : Shape := ⟨3, ![1, 500000, 128]⟩
abbrev S4x500000x128 : Shape := ⟨3, ![4, 500000, 128]⟩
abbrev S4x1 : Shape := ⟨2, ![4, 1]⟩
abbrev S4x128x64 : Shape := ⟨3, ![4, 128, 64]⟩
abbrev S4x64 : Shape := ⟨2, ![4, 64]⟩
abbrev S4x1x64 : Shape := ⟨3, ![4, 1, 64]⟩
abbrev S4x3x64x64 : Shape := ⟨4, ![4, 3, 64, 64]⟩
abbrev S4x3x64 : Shape := ⟨3, ![4, 3, 64]⟩
abbrev S4x500000x64 : Shape := ⟨3, ![4, 500000, 64]⟩
abbrev S1x5000x128 : Shape := ⟨3, ![1, 5000, 128]⟩
abbrev S1x128x64 : Shape := ⟨3, ![1, 128, 64]⟩
abbrev S1x1x64 : Shape := ⟨3, ![1, 1, 64]⟩
abbrev S1x3x64x64 : Shape := ⟨4, ![1, 3, 64, 64]⟩
abbrev S1x3x64 : Shape := ⟨3, ![1, 3, 64]⟩
abbrev S1x5000x64 : Shape := ⟨3, ![1, 5000, 64]⟩
abbrev S5000x128 : Shape := ⟨2, ![5000, 128]⟩
abbrev S128x64 : Shape := ⟨2, ![128, 64]⟩
abbrev S5000x64 : Shape := ⟨2, ![5000, 64]⟩
abbrev S1x64 : Shape := ⟨2, ![1, 64]⟩
abbrev S1x1x64x64 : Shape := ⟨4, ![1, 1, 64, 64]⟩
abbrev S64x64 : Shape := ⟨2, ![64, 64]⟩
abbrev S64 : Shape := ⟨1, ![64]⟩

abbrev nBuf : Space → Nat
  | .hbm => 258
  | .vmem => 12
  | .smem => 0
  | _ => 0

abbrev hbmTy0_0 (i : Nat) : BufTy := match i % 128 with
  | 0 => ⟨S200000x64, .f32⟩
  | 1 => ⟨S200000x64, .f32⟩
  | 2 => ⟨S2x500000, .i32⟩
  | 3 => ⟨S2x500000, .i32⟩
  | 4 => ⟨S2x500000, .i32⟩
  | 5 => ⟨S2x500000, .i32⟩
  | 6 => ⟨S3x128x64, .f32⟩
  | 7 => ⟨S3x64, .f32⟩
  | 8 => ⟨S3x3x64x64, .f32⟩
  | 9 => ⟨S3x3x64, .f32⟩
  | 10 => ⟨S4, .i32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S1, .i32⟩
  | 22 => ⟨S_, .i32⟩
  | 23 => ⟨S500000x1, .i32⟩
  | 24 => ⟨S500000x1, .i1⟩
  | 25 => ⟨S1x1, .i32⟩
  | 26 => ⟨S500000x1, .i32⟩
  | 27 => ⟨S500000x1, .i1⟩
  | 28 => ⟨S500000x1, .i1⟩
  | 29 => ⟨S_, .i1⟩
  | 30 => ⟨S500000, .i1⟩
  | 31 => ⟨S500000x64, .f32⟩
  | 32 => ⟨S500000x64, .i1⟩
  | 33 => ⟨S_, .f32⟩
  | 34 => ⟨S500000x64, .f32⟩
  | 35 => ⟨S500000x64, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S500000x1, .i32⟩
  | 49 => ⟨S500000x1, .i1⟩
  | 50 => ⟨S1x1, .i32⟩
  | 51 => ⟨S500000x1, .i32⟩
  | 52 => ⟨S500000x1, .i1⟩
  | 53 => ⟨S500000x1, .i1⟩
  | 54 => ⟨S_, .i1⟩
  | 55 => ⟨S500000, .i1⟩
  | 56 => ⟨S500000x64, .f32⟩
  | 57 => ⟨S500000x64, .i1⟩
  | 58 => ⟨S_, .f32⟩
  | 59 => ⟨S500000x64, .f32⟩
  | 60 => ⟨S500000x64, .f32⟩
  | 61 => ⟨S500000x128, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S1, .i32⟩
  | 73 => ⟨S_, .i32⟩
  | 74 => ⟨S500000x1, .i32⟩
  | 75 => ⟨S500000x1, .i1⟩
  | 76 => ⟨S1x1, .i32⟩
  | 77 => ⟨S500000x1, .i32⟩
  | 78 => ⟨S500000x1, .i1⟩
  | 79 => ⟨S500000x1, .i1⟩
  | 80 => ⟨S_, .i1⟩
  | 81 => ⟨S500000, .i1⟩
  | 82 => ⟨S500000x64, .f32⟩
  | 83 => ⟨S500000x64, .i1⟩
  | 84 => ⟨S_, .f32⟩
  | 85 => ⟨S500000x64, .f32⟩
  | 86 => ⟨S500000x64, .f32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S1, .i32⟩
  | 98 => ⟨S_, .i32⟩
  | 99 => ⟨S500000x1, .i32⟩
  | 100 => ⟨S500000x1, .i1⟩
  | 101 => ⟨S1x1, .i32⟩
  | 102 => ⟨S500000x1, .i32⟩
  | 103 => ⟨S500000x1, .i1⟩
  | 104 => ⟨S500000x1, .i1⟩
  | 105 => ⟨S_, .i1⟩
  | 106 => ⟨S500000, .i1⟩
  | 107 => ⟨S500000x64, .f32⟩
  | 108 => ⟨S500000x64, .i1⟩
  | 109 => ⟨S_, .f32⟩
  | 110 => ⟨S500000x64, .f32⟩
  | 111 => ⟨S500000x64, .f32⟩
  | 112 => ⟨S500000x128, .f32⟩
  | 113 => ⟨S1x500000, .i32⟩
  | 114 => ⟨S500000, .i32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S1, .i32⟩
  | 124 => ⟨S_, .i32⟩
  | 125 => ⟨S500000x1, .i32⟩
  | 126 => ⟨S500000x1, .i1⟩
  | 127 => ⟨S1x1, .i32⟩
  | _ => ⟨S200000x64, .f32⟩

abbrev hbmTy0_1 (i : Nat) : BufTy := match i % 128 with
  | 0 => ⟨S500000x1, .i32⟩
  | 1 => ⟨S500000x1, .i1⟩
  | 2 => ⟨S500000x1, .i1⟩
  | 3 => ⟨S_, .i1⟩
  | 4 => ⟨S500000, .i1⟩
  | 5 => ⟨S500000x64, .f32⟩
  | 6 => ⟨S500000x64, .i1⟩
  | 7 => ⟨S_, .f32⟩
  | 8 => ⟨S500000x64, .f32⟩
  | 9 => ⟨S500000x64, .f32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S1, .i32⟩
  | 21 => ⟨S_, .i32⟩
  | 22 => ⟨S500000x1, .i32⟩
  | 23 => ⟨S500000x1, .i1⟩
  | 24 => ⟨S1x1, .i32⟩
  | 25 => ⟨S500000x1, .i32⟩
  | 26 => ⟨S500000x1, .i1⟩
  | 27 => ⟨S500000x1, .i1⟩
  | 28 => ⟨S_, .i1⟩
  | 29 => ⟨S500000, .i1⟩
  | 30 => ⟨S500000x64, .f32⟩
  | 31 => ⟨S500000x64, .i1⟩
  | 32 => ⟨S_, .f32⟩
  | 33 => ⟨S500000x64, .f32⟩
  | 34 => ⟨S500000x64, .f32⟩
  | 35 => ⟨S500000x128, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S500000x1, .i32⟩
  | 49 => ⟨S500000x1, .i1⟩
  | 50 => ⟨S1x1, .i32⟩
  | 51 => ⟨S500000x1, .i32⟩
  | 52 => ⟨S500000x1, .i1⟩
  | 53 => ⟨S500000x1, .i1⟩
  | 54 => ⟨S_, .i1⟩
  | 55 => ⟨S500000, .i1⟩
  | 56 => ⟨S500000x64, .f32⟩
  | 57 => ⟨S500000x64, .i1⟩
  | 58 => ⟨S_, .f32⟩
  | 59 => ⟨S500000x64, .f32⟩
  | 60 => ⟨S500000x64, .f32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S1, .i32⟩
  | 72 => ⟨S_, .i32⟩
  | 73 => ⟨S500000x1, .i32⟩
  | 74 => ⟨S500000x1, .i1⟩
  | 75 => ⟨S1x1, .i32⟩
  | 76 => ⟨S500000x1, .i32⟩
  | 77 => ⟨S500000x1, .i1⟩
  | 78 => ⟨S500000x1, .i1⟩
  | 79 => ⟨S_, .i1⟩
  | 80 => ⟨S500000, .i1⟩
  | 81 => ⟨S500000x64, .f32⟩
  | 82 => ⟨S500000x64, .i1⟩
  | 83 => ⟨S_, .f32⟩
  | 84 => ⟨S500000x64, .f32⟩
  | 85 => ⟨S500000x64, .f32⟩
  | 86 => ⟨S500000x128, .f32⟩
  | 87 => ⟨S1x500000x128, .f32⟩
  | 88 => ⟨S1x500000x128, .f32⟩
  | 89 => ⟨S1x500000x128, .f32⟩
  | 90 => ⟨S1x500000x128, .f32⟩
  | 91 => ⟨S4x500000x128, .f32⟩
  | 92 => ⟨S_, .i32⟩
  | 93 => ⟨S4, .i32⟩
  | 94 => ⟨S4, .i1⟩
  | 95 => ⟨S_, .i32⟩
  | 96 => ⟨S4, .i32⟩
  | 97 => ⟨S4, .i32⟩
  | 98 => ⟨S4, .i32⟩
  | 99 => ⟨S4x1, .i32⟩
  | 100 => ⟨S4x128x64, .f32⟩
  | 101 => ⟨S_, .i32⟩
  | 102 => ⟨S4, .i32⟩
  | 103 => ⟨S4, .i1⟩
  | 104 => ⟨S_, .i32⟩
  | 105 => ⟨S4, .i32⟩
  | 106 => ⟨S4, .i32⟩
  | 107 => ⟨S4, .i32⟩
  | 108 => ⟨S4x1, .i32⟩
  | 109 => ⟨S4x64, .f32⟩
  | 110 => ⟨S4x1x64, .f32⟩
  | 111 => ⟨S_, .i32⟩
  | 112 => ⟨S4, .i32⟩
  | 113 => ⟨S4, .i1⟩
  | 114 => ⟨S_, .i32⟩
  | 115 => ⟨S4, .i32⟩
  | 116 => ⟨S4, .i32⟩
  | 117 => ⟨S4, .i32⟩
  | 118 => ⟨S4x1, .i32⟩
  | 119 => ⟨S4x3x64x64, .f32⟩
  | 120 => ⟨S_, .i32⟩
  | 121 => ⟨S4, .i32⟩
  | 122 => ⟨S4, .i1⟩
  | 123 => ⟨S_, .i32⟩
  | 124 => ⟨S4, .i32⟩
  | 125 => ⟨S4, .i32⟩
  | 126 => ⟨S4, .i32⟩
  | 127 => ⟨S4x1, .i32⟩
  | _ => ⟨S200000x64, .f32⟩

abbrev hbmTy0_2 (i : Nat) : BufTy := match i % 128 with
  | 0 => ⟨S4x3x64, .f32⟩
  | 1 => ⟨S4x500000x64, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | .local _ .vmem, ⟨0, _⟩ => ⟨S1x5000x128, .f32⟩
  | .local _ .vmem, ⟨1, _⟩ => ⟨S1x5000x128, .f32⟩
  | .local _ .vmem, ⟨2, _⟩ => ⟨S1x128x64, .f32⟩
  | .local _ .vmem, ⟨3, _⟩ => ⟨S1x128x64, .f32⟩
  | .local _ .vmem, ⟨4, _⟩ => ⟨S1x1x64, .f32⟩
  | .local _ .vmem, ⟨5, _⟩ => ⟨S1x1x64, .f32⟩
  | .local _ .vmem, ⟨6, _⟩ => ⟨S1x3x64x64, .f32⟩
  | .local _ .vmem, ⟨7, _⟩ => ⟨S1x3x64x64, .f32⟩
  | .local _ .vmem, ⟨8, _⟩ => ⟨S1x3x64, .f32⟩
  | .local _ .vmem, ⟨9, _⟩ => ⟨S1x3x64, .f32⟩
  | .local _ .vmem, ⟨10, _⟩ => ⟨S1x5000x64, .f32⟩
  | .local _ .vmem, ⟨11, _⟩ => ⟨S1x5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v16 : Ref sig .tc := ⟨.hbm, 137, rfl⟩
abbrev main_v17 : Ref sig .tc := ⟨.hbm, 138, rfl⟩
abbrev main_v18 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v19 : Ref sig .tc := ⟨.hbm, 162, rfl⟩
abbrev main_v20 : Ref sig .tc := ⟨.hbm, 163, rfl⟩
abbrev main_v21 : Ref sig .tc := ⟨.hbm, 164, rfl⟩
abbrev main_v22 : Ref sig .tc := ⟨.hbm, 165, rfl⟩
abbrev main_call6_c : Ref sig .tc := ⟨.hbm, 166, rfl⟩
abbrev main_call6_v0 : Ref sig .tc := ⟨.hbm, 167, rfl⟩
abbrev main_call6_v1 : Ref sig .tc := ⟨.hbm, 168, rfl⟩
abbrev main_call6_c_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_c_1 : Ref sig .tc := ⟨.hbm, 174, rfl⟩
abbrev main_call6_c_2 : Ref sig .tc := ⟨.hbm, 175, rfl⟩
abbrev main_call6_v6 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_3 : Ref sig .tc := ⟨.hbm, 182, rfl⟩
abbrev main_call6_v12 : Ref sig .tc := ⟨.hbm, 183, rfl⟩
abbrev main_call6_v13 : Ref sig .tc := ⟨.hbm, 184, rfl⟩
abbrev main_call6_v14 : Ref sig .tc := ⟨.hbm, 185, rfl⟩
abbrev main_call6_cst : Ref sig .tc := ⟨.hbm, 186, rfl⟩
abbrev main_call6_v15 : Ref sig .tc := ⟨.hbm, 187, rfl⟩
abbrev main_v23 : Ref sig .tc := ⟨.hbm, 188, rfl⟩
abbrev main_v24 : Ref sig .tc := ⟨.hbm, 189, rfl⟩
abbrev main_v25 : Ref sig .tc := ⟨.hbm, 190, rfl⟩
abbrev main_call7_c : Ref sig .tc := ⟨.hbm, 191, rfl⟩
abbrev main_call7_v0 : Ref sig .tc := ⟨.hbm, 192, rfl⟩
abbrev main_call7_v1 : Ref sig .tc := ⟨.hbm, 193, rfl⟩
abbrev main_call7_c_0 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_c_1 : Ref sig .tc := ⟨.hbm, 199, rfl⟩
abbrev main_call7_c_2 : Ref sig .tc := ⟨.hbm, 200, rfl⟩
abbrev main_call7_v6 : Ref sig .tc := ⟨.hbm, 201, rfl⟩
abbrev main_call7_v7 : Ref sig .tc := ⟨.hbm, 202, rfl⟩
abbrev main_call7_v8 : Ref sig .tc := ⟨.hbm, 203, rfl⟩
abbrev main_call7_v9 : Ref sig .tc := ⟨.hbm, 204, rfl⟩
abbrev main_call7_v10 : Ref sig .tc := ⟨.hbm, 205, rfl⟩
abbrev main_call7_v11 : Ref sig .tc := ⟨.hbm, 206, rfl⟩
abbrev main_call7_c_3 : Ref sig .tc := ⟨.hbm, 207, rfl⟩
abbrev main_call7_v12 : Ref sig .tc := ⟨.hbm, 208, rfl⟩
abbrev main_call7_v13 : Ref sig .tc := ⟨.hbm, 209, rfl⟩
abbrev main_call7_v14 : Ref sig .tc := ⟨.hbm, 210, rfl⟩
abbrev main_call7_cst : Ref sig .tc := ⟨.hbm, 211, rfl⟩
abbrev main_call7_v15 : Ref sig .tc := ⟨.hbm, 212, rfl⟩
abbrev main_v26 : Ref sig .tc := ⟨.hbm, 213, rfl⟩
abbrev main_v27 : Ref sig .tc := ⟨.hbm, 214, rfl⟩
abbrev main_v28 : Ref sig .tc := ⟨.hbm, 215, rfl⟩
abbrev main_v29 : Ref sig .tc := ⟨.hbm, 216, rfl⟩
abbrev main_v30 : Ref sig .tc := ⟨.hbm, 217, rfl⟩
abbrev main_v31 : Ref sig .tc := ⟨.hbm, 218, rfl⟩
abbrev main_v32 : Ref sig .tc := ⟨.hbm, 219, rfl⟩
abbrev main_c_0 : Ref sig .tc := ⟨.hbm, 220, rfl⟩
abbrev main_v33 : Ref sig .tc := ⟨.hbm, 221, rfl⟩
abbrev main_v34 : Ref sig .tc := ⟨.hbm, 222, rfl⟩
abbrev main_c_1 : Ref sig .tc := ⟨.hbm, 223, rfl⟩
abbrev main_v35 : Ref sig .tc := ⟨.hbm, 224, rfl⟩
abbrev main_v36 : Ref sig .tc := ⟨.hbm, 225, rfl⟩
abbrev main_v37 : Ref sig .tc := ⟨.hbm, 226, rfl⟩
abbrev main_v38 : Ref sig .tc := ⟨.hbm, 227, rfl⟩
abbrev main_v39 : Ref sig .tc := ⟨.hbm, 228, rfl⟩
abbrev main_c_2 : Ref sig .tc := ⟨.hbm, 229, rfl⟩
abbrev main_v40 : Ref sig .tc := ⟨.hbm, 230, rfl⟩
abbrev main_v41 : Ref sig .tc := ⟨.hbm, 231, rfl⟩
abbrev main_c_3 : Ref sig .tc := ⟨.hbm, 232, rfl⟩
abbrev main_v42 : Ref sig .tc := ⟨.hbm, 233, rfl⟩
abbrev main_v43 : Ref sig .tc := ⟨.hbm, 234, rfl⟩
abbrev main_v44 : Ref sig .tc := ⟨.hbm, 235, rfl⟩
abbrev main_v45 : Ref sig .tc := ⟨.hbm, 236, rfl⟩
abbrev main_v46 : Ref sig .tc := ⟨.hbm, 237, rfl⟩
abbrev main_v47 : Ref sig .tc := ⟨.hbm, 238, rfl⟩
abbrev main_c_4 : Ref sig .tc := ⟨.hbm, 239, rfl⟩
abbrev main_v48 : Ref sig .tc := ⟨.hbm, 240, rfl⟩
abbrev main_v49 : Ref sig .tc := ⟨.hbm, 241, rfl⟩
abbrev main_c_5 : Ref sig .tc := ⟨.hbm, 242, rfl⟩
abbrev main_v50 : Ref sig .tc := ⟨.hbm, 243, rfl⟩
abbrev main_v51 : Ref sig .tc := ⟨.hbm, 244, rfl⟩
abbrev main_v52 : Ref sig .tc := ⟨.hbm, 245, rfl⟩
abbrev main_v53 : Ref sig .tc := ⟨.hbm, 246, rfl⟩
abbrev main_v54 : Ref sig .tc := ⟨.hbm, 247, rfl⟩
abbrev main_c_6 : Ref sig .tc := ⟨.hbm, 248, rfl⟩
abbrev main_v55 : Ref sig .tc := ⟨.hbm, 249, rfl⟩
abbrev main_v56 : Ref sig .tc := ⟨.hbm, 250, rfl⟩
abbrev main_c_7 : Ref sig .tc := ⟨.hbm, 251, rfl⟩
abbrev main_v57 : Ref sig .tc := ⟨.hbm, 252, rfl⟩
abbrev main_v58 : Ref sig .tc := ⟨.hbm, 253, rfl⟩
abbrev main_v59 : Ref sig .tc := ⟨.hbm, 254, rfl⟩
abbrev main_v60 : Ref sig .tc := ⟨.hbm, 255, rfl⟩
abbrev main_v61 : Ref sig .tc := ⟨.hbm, 256, rfl⟩
abbrev main_v62 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 100], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x64_0 : S500000.BroadcastsInDim S500000x64 (![0] : Fin 1 → Fin S500000x64.rank)
  bcast_S_S500000x64 : S_.BroadcastsInDim S500000x64 (![] : Fin 0 → Fin S500000x64.rank)
  slices_S2x500000_S1x500000_1_0 : S2x500000.Slices ![1, 0] S1x500000
  concatenates_S500000x64_S500000x64_S500000x128_d1 : Shape.Concatenates [S500000x64, S500000x64] S500000x128 1
  bcast_S500000x128_S1x500000x128_1_2 : S500000x128.BroadcastsInDim S1x500000x128 (![1, 2] : Fin 2 → Fin S1x500000x128.rank)
  concatenates_S1x500000x128_S1x500000x128_S1x500000x128_S1x500000x128_S4x500000x128_d0 : Shape.Concatenates [S1x500000x128, S1x500000x128, S1x500000x128, S1x500000x128] S4x500000x128 0
  bcast_S_S4 : S_.BroadcastsInDim S4 (![] : Fin 0 → Fin S4.rank)
  bcast_S4_S4x1_0 : S4.BroadcastsInDim S4x1 (![0] : Fin 1 → Fin S4x1.rank)
  bcast_S4x64_S4x1x64_0_2 : S4x64.BroadcastsInDim S4x1x64 (![0, 2] : Fin 2 → Fin S4x1x64.rank)
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S5000x64 : S1x64.Broadcasts S5000x64
  inb_S1x3x64x64_S1x1x64x64_0_0_0_0 : ∀ a, (![0, 0, 0, 0] : Fin 4 → Nat) a + S1x1x64x64.size a ≤ S1x3x64x64.size a
  h_S1x1x64x64 : 0 < S1x1x64x64.numel
  shapeCasts_S1x1x64x64_S64x64 : S1x1x64x64.ShapeCasts S64x64
  inb_S1x3x64_S1x1x64_0_0_0 : ∀ a, (![0, 0, 0] : Fin 3 → Nat) a + S1x1x64.size a ≤ S1x3x64.size a
  shapeCasts_S1x1x64_S64 : S1x1x64.ShapeCasts S64
  shapeCasts_S64_S1x64 : S64.ShapeCasts S1x64
  inb_S1x3x64x64_S1x1x64x64_0_1_0_0 : ∀ a, (![0, 1, 0, 0] : Fin 4 → Nat) a + S1x1x64x64.size a ≤ S1x3x64x64.size a
  inb_S1x3x64_S1x1x64_0_1_0 : ∀ a, (![0, 1, 0] : Fin 3 → Nat) a + S1x1x64.size a ≤ S1x3x64.size a
  inb_S1x3x64x64_S1x1x64x64_0_2_0_0 : ∀ a, (![0, 2, 0, 0] : Fin 4 → Nat) a + S1x1x64x64.size a ≤ S1x3x64x64.size a
  inb_S1x3x64_S1x1x64_0_2_0 : ∀ a, (![0, 2, 0] : Fin 3 → Nat) a + S1x1x64.size a ≤ S1x3x64.size a
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  gather_S200000x64_S500000x1_S500000x64_1_0_n_n_0_1_164_wf : GatherDims.WF S200000x64 S500000x1 S500000x64 [1] [0] [] [0] [] 1 ![1, 64]
  gather_S3x128x64_S4x1_S4x128x64_12_0_n_n_0_1_112864_wf : GatherDims.WF S3x128x64 S4x1 S4x128x64 [1, 2] [0] [] [0] [] 1 ![1, 128, 64]
  gather_S3x64_S4x1_S4x64_1_0_n_n_0_1_164_wf : GatherDims.WF S3x64 S4x1 S4x64 [1] [0] [] [0] [] 1 ![1, 64]
  gather_S3x3x64x64_S4x1_S4x3x64x64_123_0_n_n_0_1_136464_wf : GatherDims.WF S3x3x64x64 S4x1 S4x3x64x64 [1, 2, 3] [0] [] [0] [] 1 ![1, 3, 64, 64]
  gather_S3x3x64_S4x1_S4x3x64_12_0_n_n_0_1_1364_wf : GatherDims.WF S3x3x64 S4x1 S4x3x64 [1, 2] [0] [] [0] [] 1 ![1, 3, 64]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S4x500000x128.size a
  hwx0_0 : ∀ i : grid0.Coords, EltTy.bits .f32 = 32 ∨ (Rect.block (s := S4x500000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S4x128x64.size a
  hwx0_1 : ∀ i : grid0.Coords, EltTy.bits .f32 = 32 ∨ (Rect.block (s := S4x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S4x1x64.size a
  hwx0_2 : ∀ i : grid0.Coords, EltTy.bits .f32 = 32 ∨ (Rect.block (s := S4x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x64x64.size a ≤ S4x3x64x64.size a
  hwx0_3 : ∀ i : grid0.Coords, EltTy.bits .f32 = 32 ∨ (Rect.block (s := S4x3x64x64) S1x3x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x64.size a ≤ S4x3x64.size a
  hwx0_4 : ∀ i : grid0.Coords, EltTy.bits .f32 = 32 ∨ (Rect.block (s := S4x3x64) S1x3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5000x64.size a ≤ S4x500000x64.size a
  hwx0_5 : ∀ i : grid0.Coords, EltTy.bits .f32 = 32 ∨ (Rect.block (s := S4x500000x64) S1x5000x64.size (cc0_transform_5 i) (hinb0_5 i)).WholeWords (EltTy.packing .f32)

variable [Facts₀]

def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S3x128x64_S4x1_S4x128x64_12_0_n_n_0_1_112864 : GatherDims S3x128x64 S4x1 S4x128x64 where
  offsetDims := [1, 2]
  collapsedSliceDims := [0]
  operandBatchingDims := []
  startIndicesBatchingDims := []
  startIndexMap := [0]
  indexVectorDim := 1
  sliceSizes := ![1, 128, 64]
  wf := gather_S3x128x64_S4x1_S4x128x64_12_0_n_n_0_1_112864_wf
def gather_S3x64_S4x1_S4x64_1_0_n_n_0_1_164 : GatherDims S3x64 S4x1 S4x64 where
  offsetDims := [1]
  collapsedSliceDims := [0]
  operandBatchingDims := []
  startIndicesBatchingDims := []
  startIndexMap := [0]
  indexVectorDim := 1
  sliceSizes := ![1, 64]
  wf := gather_S3x64_S4x1_S4x64_1_0_n_n_0_1_164_wf
def gather_S3x3x64x64_S4x1_S4x3x64x64_123_0_n_n_0_1_136464 : GatherDims S3x3x64x64 S4x1 S4x3x64x64 where
  offsetDims := [1, 2, 3]
  collapsedSliceDims := [0]
  operandBatchingDims := []
  startIndicesBatchingDims := []
  startIndexMap := [0]
  indexVectorDim := 1
  sliceSizes := ![1, 3, 64, 64]
  wf := gather_S3x3x64x64_S4x1_S4x3x64x64_123_0_n_n_0_1_136464_wf
def gather_S3x3x64_S4x1_S4x3x64_12_0_n_n_0_1_1364 : GatherDims S3x3x64 S4x1 S4x3x64 where
  offsetDims := [1, 2]
  collapsedSliceDims := [0]
  operandBatchingDims := []
  startIndicesBatchingDims := []
  startIndexMap := [0]
  indexVectorDim := 1
  sliceSizes := ![1, 3, 64]
  wf := gather_S3x3x64_S4x1_S4x3x64_12_0_n_n_0_1_1364_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v32) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x3x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x3x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v62) S1x5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x64 : Shape := ⟨2, ![200000, 64]⟩
abbrev S2x500000 : Shape := ⟨2, ![2, 500000]⟩
abbrev S3x128x64 : Shape := ⟨3, ![3, 128, 64]⟩
abbrev S3x64 : Shape := ⟨2, ![3, 64]⟩
abbrev S3x3x64x64 : Shape := ⟨4, ![3, 3, 64, 64]⟩
abbrev S3x3x64 : Shape := ⟨3, ![3, 3, 64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x64 : Shape := ⟨2, ![500000, 64]⟩
abbrev S500000x128 : Shape := ⟨2, ![500000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x3x64x64 : Shape := ⟨4, ![1, 3, 64, 64]⟩
abbrev S3x64x64 : Shape := ⟨3, ![3, 64, 64]⟩
abbrev S1x3x64 : Shape := ⟨3, ![1, 3, 64]⟩
abbrev S1x64x64 : Shape := ⟨3, ![1, 64, 64]⟩
abbrev S64x64 : Shape := ⟨2, ![64, 64]⟩
abbrev S1x500000x64 : Shape := ⟨3, ![1, 500000, 64]⟩
abbrev S4x500000x64 : Shape := ⟨3, ![4, 500000, 64]⟩

abbrev nBuf : Space → Nat
  | .hbm => 287
  | .vmem => 0
  | .smem => 0
  | _ => 0

abbrev hbmTy0_0 (i : Nat) : BufTy := match i % 128 with
  | 0 => ⟨S200000x64, .f32⟩
  | 1 => ⟨S200000x64, .f32⟩
  | 2 => ⟨S2x500000, .i32⟩
  | 3 => ⟨S2x500000, .i32⟩
  | 4 => ⟨S2x500000, .i32⟩
  | 5 => ⟨S2x500000, .i32⟩
  | 6 => ⟨S3x128x64, .f32⟩
  | 7 => ⟨S3x64, .f32⟩
  | 8 => ⟨S3x3x64x64, .f32⟩
  | 9 => ⟨S3x3x64, .f32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .f32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x64, .f32⟩
  | 32 => ⟨S500000x128, .f32⟩
  | 33 => ⟨S1x128x64, .f32⟩
  | 34 => ⟨S128x64, .f32⟩
  | 35 => ⟨S1x64, .f32⟩
  | 36 => ⟨S64, .f32⟩
  | 37 => ⟨S1x3x64x64, .f32⟩
  | 38 => ⟨S3x64x64, .f32⟩
  | 39 => ⟨S1x3x64, .f32⟩
  | 40 => ⟨S3x64, .f32⟩
  | 41 => ⟨S500000x64, .f32⟩
  | 42 => ⟨S1x64, .f32⟩
  | 43 => ⟨S500000x64, .f32⟩
  | 44 => ⟨S500000x64, .f32⟩
  | 45 => ⟨S_, .f32⟩
  | 46 => ⟨S500000x64, .f32⟩
  | 47 => ⟨S500000x64, .f32⟩
  | 48 => ⟨S1x64x64, .f32⟩
  | 49 => ⟨S64x64, .f32⟩
  | 50 => ⟨S500000x64, .f32⟩
  | 51 => ⟨S1x64, .f32⟩
  | 52 => ⟨S64, .f32⟩
  | 53 => ⟨S1x64, .f32⟩
  | 54 => ⟨S500000x64, .f32⟩
  | 55 => ⟨S500000x64, .f32⟩
  | 56 => ⟨S_, .f32⟩
  | 57 => ⟨S500000x64, .f32⟩
  | 58 => ⟨S500000x64, .f32⟩
  | 59 => ⟨S1x64x64, .f32⟩
  | 60 => ⟨S64x64, .f32⟩
  | 61 => ⟨S500000x64, .f32⟩
  | 62 => ⟨S1x64, .f32⟩
  | 63 => ⟨S64, .f32⟩
  | 64 => ⟨S1x64, .f32⟩
  | 65 => ⟨S500000x64, .f32⟩
  | 66 => ⟨S500000x64, .f32⟩
  | 67 => ⟨S_, .f32⟩
  | 68 => ⟨S500000x64, .f32⟩
  | 69 => ⟨S500000x64, .f32⟩
  | 70 => ⟨S1x64x64, .f32⟩
  | 71 => ⟨S64x64, .f32⟩
  | 72 => ⟨S500000x64, .f32⟩
  | 73 => ⟨S1x64, .f32⟩
  | 74 => ⟨S64, .f32⟩
  | 75 => ⟨S1x64, .f32⟩
  | 76 => ⟨S500000x64, .f32⟩
  | 77 => ⟨S500000x64, .f32⟩
  | 78 => ⟨S1x500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x64, .f32⟩
  | 89 => ⟨S1x500000, .i32⟩
  | 90 => ⟨S500000, .i32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x64, .f32⟩
  | 100 => ⟨S500000x128, .f32⟩
  | 101 => ⟨S1x128x64, .f32⟩
  | 102 => ⟨S128x64, .f32⟩
  | 103 => ⟨S1x64, .f32⟩
  | 104 => ⟨S64, .f32⟩
  | 105 => ⟨S1x3x64x64, .f32⟩
  | 106 => ⟨S3x64x64, .f32⟩
  | 107 => ⟨S1x3x64, .f32⟩
  | 108 => ⟨S3x64, .f32⟩
  | 109 => ⟨S500000x64, .f32⟩
  | 110 => ⟨S1x64, .f32⟩
  | 111 => ⟨S500000x64, .f32⟩
  | 112 => ⟨S500000x64, .f32⟩
  | 113 => ⟨S_, .f32⟩
  | 114 => ⟨S500000x64, .f32⟩
  | 115 => ⟨S500000x64, .f32⟩
  | 116 => ⟨S1x64x64, .f32⟩
  | 117 => ⟨S64x64, .f32⟩
  | 118 => ⟨S500000x64, .f32⟩
  | 119 => ⟨S1x64, .f32⟩
  | 120 => ⟨S64, .f32⟩
  | 121 => ⟨S1x64, .f32⟩
  | 122 => ⟨S500000x64, .f32⟩
  | 123 => ⟨S500000x64, .f32⟩
  | 124 => ⟨S_, .f32⟩
  | 125 => ⟨S500000x64, .f32⟩
  | 126 => ⟨S500000x64, .f32⟩
  | 127 => ⟨S1x64x64, .f32⟩
  | _ => ⟨S200000x64, .f32⟩

abbrev hbmTy0_1 (i : Nat) : BufTy := match i % 128 with
  | 0 => ⟨S64x64, .f32⟩
  | 1 => ⟨S500000x64, .f32⟩
  | 2 => ⟨S1x64, .f32⟩
  | 3 => ⟨S64, .f32⟩
  | 4 => ⟨S1x64, .f32⟩
  | 5 => ⟨S500000x64, .f32⟩
  | 6 => ⟨S500000x64, .f32⟩
  | 7 => ⟨S_, .f32⟩
  | 8 => ⟨S500000x64, .f32⟩
  | 9 => ⟨S500000x64, .f32⟩
  | 10 => ⟨S1x64x64, .f32⟩
  | 11 => ⟨S64x64, .f32⟩
  | 12 => ⟨S500000x64, .f32⟩
  | 13 => ⟨S1x64, .f32⟩
  | 14 => ⟨S64, .f32⟩
  | 15 => ⟨S1x64, .f32⟩
  | 16 => ⟨S500000x64, .f32⟩
  | 17 => ⟨S500000x64, .f32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x64, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S500000x128, .f32⟩
  | 41 => ⟨S1x128x64, .f32⟩
  | 42 => ⟨S128x64, .f32⟩
  | 43 => ⟨S1x64, .f32⟩
  | 44 => ⟨S64, .f32⟩
  | 45 => ⟨S1x3x64x64, .f32⟩
  | 46 => ⟨S3x64x64, .f32⟩
  | 47 => ⟨S1x3x64, .f32⟩
  | 48 => ⟨S3x64, .f32⟩
  | 49 => ⟨S500000x64, .f32⟩
  | 50 => ⟨S1x64, .f32⟩
  | 51 => ⟨S500000x64, .f32⟩
  | 52 => ⟨S500000x64, .f32⟩
  | 53 => ⟨S_, .f32⟩
  | 54 => ⟨S500000x64, .f32⟩
  | 55 => ⟨S500000x64, .f32⟩
  | 56 => ⟨S1x64x64, .f32⟩
  | 57 => ⟨S64x64, .f32⟩
  | 58 => ⟨S500000x64, .f32⟩
  | 59 => ⟨S1x64, .f32⟩
  | 60 => ⟨S64, .f32⟩
  | 61 => ⟨S1x64, .f32⟩
  | 62 => ⟨S500000x64, .f32⟩
  | 63 => ⟨S500000x64, .f32⟩
  | 64 => ⟨S_, .f32⟩
  | 65 => ⟨S500000x64, .f32⟩
  | 66 => ⟨S500000x64, .f32⟩
  | 67 => ⟨S1x64x64, .f32⟩
  | 68 => ⟨S64x64, .f32⟩
  | 69 => ⟨S500000x64, .f32⟩
  | 70 => ⟨S1x64, .f32⟩
  | 71 => ⟨S64, .f32⟩
  | 72 => ⟨S1x64, .f32⟩
  | 73 => ⟨S500000x64, .f32⟩
  | 74 => ⟨S500000x64, .f32⟩
  | 75 => ⟨S_, .f32⟩
  | 76 => ⟨S500000x64, .f32⟩
  | 77 => ⟨S500000x64, .f32⟩
  | 78 => ⟨S1x64x64, .f32⟩
  | 79 => ⟨S64x64, .f32⟩
  | 80 => ⟨S500000x64, .f32⟩
  | 81 => ⟨S1x64, .f32⟩
  | 82 => ⟨S64, .f32⟩
  | 83 => ⟨S1x64, .f32⟩
  | 84 => ⟨S500000x64, .f32⟩
  | 85 => ⟨S500000x64, .f32⟩
  | 86 => ⟨S1x500000, .i32⟩
  | 87 => ⟨S500000, .i32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x64, .f32⟩
  | 97 => ⟨S1x500000, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x64, .f32⟩
  | 108 => ⟨S500000x128, .f32⟩
  | 109 => ⟨S1x128x64, .f32⟩
  | 110 => ⟨S128x64, .f32⟩
  | 111 => ⟨S1x64, .f32⟩
  | 112 => ⟨S64, .f32⟩
  | 113 => ⟨S1x3x64x64, .f32⟩
  | 114 => ⟨S3x64x64, .f32⟩
  | 115 => ⟨S1x3x64, .f32⟩
  | 116 => ⟨S3x64, .f32⟩
  | 117 => ⟨S500000x64, .f32⟩
  | 118 => ⟨S1x64, .f32⟩
  | 119 => ⟨S500000x64, .f32⟩
  | 120 => ⟨S500000x64, .f32⟩
  | 121 => ⟨S_, .f32⟩
  | 122 => ⟨S500000x64, .f32⟩
  | 123 => ⟨S500000x64, .f32⟩
  | 124 => ⟨S1x64x64, .f32⟩
  | 125 => ⟨S64x64, .f32⟩
  | 126 => ⟨S500000x64, .f32⟩
  | 127 => ⟨S1x64, .f32⟩
  | _ => ⟨S200000x64, .f32⟩

abbrev hbmTy0_2 (i : Nat) : BufTy := match i % 128 with
  | 0 => ⟨S64, .f32⟩
  | 1 => ⟨S1x64, .f32⟩
  | 2 => ⟨S500000x64, .f32⟩
  | 3 => ⟨S500000x64, .f32⟩
  | 4 => ⟨S_, .f32⟩
  | 5 => ⟨S500000x64, .f32⟩
  | 6 => ⟨S500000x64, .f32⟩
  | 7 => ⟨S1x64x64, .f32⟩
  | 8 => ⟨S64x64, .f32⟩
  | 9 => ⟨S500000x64, .f32⟩
  | 10 => ⟨S1x64, .f32⟩
  | 11 => ⟨S64, .f32⟩
  | 12 => ⟨S1x64, .f32⟩
  | 13 => ⟨S500000x64, .f32⟩
  | 14 => ⟨S500000x64, .f32⟩
  | 15 => ⟨S_, .f32⟩
  | 16 => ⟨S500000x64, .f32⟩
  | 17 => ⟨S500000x64, .f32⟩
  | 18 => ⟨S1x64x64, .f32⟩
  | 19 => ⟨S64x64, .f32⟩
  | 20 => ⟨S500000x64, .f32⟩
  | 21 => ⟨S1x64, .f32⟩
  | 22 => ⟨S64, .f32⟩
  | 23 => ⟨S1x64, .f32⟩
  | 24 => ⟨S500000x64, .f32⟩
  | 25 => ⟨S500000x64, .f32⟩
  | 26 => ⟨S1x500000x64, .f32⟩
  | 27 => ⟨S1x500000x64, .f32⟩
  | 28 => ⟨S1x500000x64, .f32⟩
  | 29 => ⟨S1x500000x64, .f32⟩
  | 30 => ⟨S4x500000x64, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_cst : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_3 : Ref sig .tc := ⟨.hbm, 80, rfl⟩
abbrev main_v60 : Ref sig .tc := ⟨.hbm, 81, rfl⟩
abbrev main_v61 : Ref sig .tc := ⟨.hbm, 82, rfl⟩
abbrev main_c_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_5 : Ref sig .tc := ⟨.hbm, 91, rfl⟩
abbrev main_v69 : Ref sig .tc := ⟨.hbm, 92, rfl⟩
abbrev main_v70 : Ref sig .tc := ⟨.hbm, 93, rfl⟩
abbrev main_c_6 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call3_cst : Ref sig .tc := ⟨.hbm, 113, rfl⟩
abbrev main_call3_v0 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_call4_cst : Ref sig .tc := ⟨.hbm, 124, rfl⟩
abbrev main_call4_v0 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call5_cst : Ref sig .tc := ⟨.hbm, 135, rfl⟩
abbrev main_call5_v0 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_c_7 : Ref sig .tc := ⟨.hbm, 148, rfl⟩
abbrev main_v118 : Ref sig .tc := ⟨.hbm, 149, rfl⟩
abbrev main_v119 : Ref sig .tc := ⟨.hbm, 150, rfl⟩
abbrev main_c_8 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_9 : Ref sig .tc := ⟨.hbm, 159, rfl⟩
abbrev main_v127 : Ref sig .tc := ⟨.hbm, 160, rfl⟩
abbrev main_v128 : Ref sig .tc := ⟨.hbm, 161, rfl⟩
abbrev main_c_10 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_call6_cst : Ref sig .tc := ⟨.hbm, 181, rfl⟩
abbrev main_call6_v0 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_call7_cst : Ref sig .tc := ⟨.hbm, 192, rfl⟩
abbrev main_call7_v0 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_call8_cst : Ref sig .tc := ⟨.hbm, 203, rfl⟩
abbrev main_call8_v0 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_c_11 : Ref sig .tc := ⟨.hbm, 216, rfl⟩
abbrev main_v176 : Ref sig .tc := ⟨.hbm, 217, rfl⟩
abbrev main_v177 : Ref sig .tc := ⟨.hbm, 218, rfl⟩
abbrev main_c_12 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_c_13 : Ref sig .tc := ⟨.hbm, 227, rfl⟩
abbrev main_v185 : Ref sig .tc := ⟨.hbm, 228, rfl⟩
abbrev main_v186 : Ref sig .tc := ⟨.hbm, 229, rfl⟩
abbrev main_c_14 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_call9_cst : Ref sig .tc := ⟨.hbm, 249, rfl⟩
abbrev main_call9_v0 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_call10_cst : Ref sig .tc := ⟨.hbm, 260, rfl⟩
abbrev main_call10_v0 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_call11_cst : Ref sig .tc := ⟨.hbm, 271, rfl⟩
abbrev main_call11_v0 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S3x3x64x64_S1x3x64x64_0_0_0_0 : S3x3x64x64.Slices ![0, 0, 0, 0] S1x3x64x64
  shapeCasts_S1x3x64x64_S3x64x64 : S1x3x64x64.ShapeCasts S3x64x64
  slices_S3x3x64_S1x3x64_0_0_0 : S3x3x64.Slices ![0, 0, 0] S1x3x64
  shapeCasts_S1x3x64_S3x64 : S1x3x64.ShapeCasts S3x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S3x128x64_S1x128x64_1_0_0 : S3x128x64.Slices ![1, 0, 0] S1x128x64
  slices_S3x3x64x64_S1x3x64x64_1_0_0_0 : S3x3x64x64.Slices ![1, 0, 0, 0] S1x3x64x64
  slices_S3x3x64_S1x3x64_1_0_0 : S3x3x64.Slices ![1, 0, 0] S1x3x64
  slices_S3x128x64_S1x128x64_2_0_0 : S3x128x64.Slices ![2, 0, 0] S1x128x64
  slices_S3x3x64x64_S1x3x64x64_2_0_0_0 : S3x3x64x64.Slices ![2, 0, 0, 0] S1x3x64x64
  slices_S3x3x64_S1x3x64_2_0_0 : S3x3x64.Slices ![2, 0, 0] S1x3x64
  bcast_S500000x64_S1x500000x64_1_2 : S500000x64.BroadcastsInDim S1x500000x64 (![1, 2] : Fin 2 → Fin S1x500000x64.rank)
  concatenates_S1x500000x64_S1x500000x64_S1x500000x64_S1x500000x64_S4x500000x64_d0 : Shape.Concatenates [S1x500000x64, S1x500000x64, S1x500000x64, S1x500000x64] S4x500000x64 0
  gather_S200000x64_S500000x1_S500000x64_1_0_n_n_0_1_164_wf : GatherDims.WF S200000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x64_S500000x64_1_0_0_1_n_n_wf : DotDims.WF S500000x64 S64x64 S500000x64 [1] [0] [0] [1] [] []

variable [Facts₀]

def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.Spec.lean ====
/-
  The mathematics both programs compute, stated once over literal shapes and the extended reals.

  An edge r of type e carries the 128-vector x(e,r) = (source node's 64 features, destination node's 64 features),
  the nodes named by the edge-index table of that type. Its 64 outputs are a four-layer map: three layers
  u ↦ max (u·W + b) 0 and a last layer u ↦ u·W + b, with the weights of encoder enc(e), enc = (0,1,1,2).
-/
import Idealize.ShloMosaic.PureOps.Ideal
import Idealize.ShloMosaic.Lib.ValueIdx

noncomputable section

open scoped BigOperators

namespace Cert.EdgeMlp

open Idealize.ShloMosaic Idealize.ShloMosaic.ValueIdx

/-! ## Shapes -/

abbrev SNode : Shape := ⟨2, ![200000, 64]⟩
abbrev SEdge : Shape := ⟨2, ![2, 500000]⟩
abbrev SWf : Shape := ⟨3, ![3, 128, 64]⟩
abbrev SBf : Shape := ⟨2, ![3, 64]⟩
abbrev SWr : Shape := ⟨4, ![3, 3, 64, 64]⟩
abbrev SBr : Shape := ⟨3, ![3, 3, 64]⟩
abbrev SOut : Shape := ⟨3, ![4, 500000, 64]⟩
/-- The five arrays the blocked region reads: per edge type the edge vectors and that type's weights. -/
abbrev SXc : Shape := ⟨3, ![4, 500000, 128]⟩
abbrev SWf4 : Shape := ⟨3, ![4, 128, 64]⟩
abbrev SBf4 : Shape := ⟨3, ![4, 1, 64]⟩
abbrev SWr4 : Shape := ⟨4, ![4, 3, 64, 64]⟩
abbrev SBr4 : Shape := ⟨3, ![4, 3, 64]⟩

/-! ## One row through the four layers -/

/-- One affine layer at output o: the sum over k of x k · W k o, plus the bias. -/
def layer {K : Nat} (x : Fin K → EReal) (W : Fin K → Fin 64 → EReal) (b : Fin 64 → EReal) (o : Fin 64) : EReal :=
  (∑ k : Fin K, x k * W k o) + b o

/-- The four layers on one 128-vector: max(·, 0) after each of the first three, none after the last. -/
def mlpRow (x : Fin 128 → EReal) (Wf : Fin 128 → Fin 64 → EReal) (bf : Fin 64 → EReal)
    (Wr : Fin 3 → Fin 64 → Fin 64 → EReal) (br : Fin 3 → Fin 64 → EReal) (o : Fin 64) : EReal :=
  layer (fun k2 => max (layer (fun k1 => max (layer (fun k0 => max (layer x Wf bf k0) 0) (Wr 0) (br 0) k1) 0)
    (Wr 1) (br 1) k2) 0) (Wr 2) (br 2) o

/-! ## The blocked region's result from its five operand arrays -/

/-- Row r of edge type e through the layers, every operand read at type e. -/
def regionAt (xc : SXc.Idx → EReal) (wf : SWf4.Idx → EReal) (bf : SBf4.Idx → EReal) (wr : SWr4.Idx → EReal)
    (br : SBr4.Idx → EReal) (e : Fin 4) (r : Fin 500000) (o : Fin 64) : EReal :=
  mlpRow (fun k => xc (ix3 e r k)) (fun k o' => wf (ix3 e k o')) (fun o' => bf (ix3 e 0 o'))
    (fun l k o' => wr (ix4 e l k o')) (fun l o' => br (ix3 e l o')) o

def regionOut (xc : SXc.Idx → EReal) (wf : SWf4.Idx → EReal) (bf : SBf4.Idx → EReal) (wr : SWr4.Idx → EReal)
    (br : SBr4.Idx → EReal) : SOut.Idx → EReal :=
  fun j => regionAt xc wf bf wr br (j 0) (j 1) (j 2)

/-! ## The edge vector and the whole result from the arguments -/

/-- Every entry of an edge-index table names a node: as an unsigned word it is below 200000 (so it is also
    non-negative read signed). -/
def InRange (ei : SEdge.Idx → BitVec 32) : Prop := ∀ i, (ei i).toNat < 200000

/-- The table row a start word names: the word read signed, clamped into the table. -/
def rowOf (w : BitVec 32) : Fin 200000 := ⟨min w.toInt.toNat (200000 - 1), by omega⟩

/-- The edge vector: features 0..63 from the source node's row, 64..127 from the destination node's. -/
def xin (xs xd : SNode.Idx → EReal) (ei : SEdge.Idx → BitVec 32) (r : Fin 500000) (k : Fin 128) : EReal :=
  if h : k.val < 64 then xs (ix2 (rowOf (ei (ix2 0 r))) ⟨k.val, h⟩)
  else xd (ix2 (rowOf (ei (ix2 1 r))) ⟨k.val - 64, by omega⟩)

/-- Which encoder an edge type uses. -/
def encOf : Fin 4 → Fin 3 := ![0, 1, 1, 2]
/-- Which node table an edge type's sources, and its destinations, live in (b = barrel, e = endcap). -/
def srcOf (xb xe : SNode.Idx → EReal) : Fin 4 → SNode.Idx → EReal := ![xb, xb, xe, xe]
def dstOf (xb xe : SNode.Idx → EReal) : Fin 4 → SNode.Idx → EReal := ![xb, xe, xb, xe]

def GAt (xb xe : SNode.Idx → EReal) (ei : Fin 4 → SEdge.Idx → BitVec 32) (Wf : SWf.Idx → EReal) (bf : SBf.Idx → EReal)
    (Wr : SWr.Idx → EReal) (br : SBr.Idx → EReal) (e : Fin 4) (r : Fin 500000) (o : Fin 64) : EReal :=
  mlpRow (fun k => xin (srcOf xb xe e) (dstOf xb xe e) (ei e) r k) (fun k o' => Wf (ix3 (encOf e) k o'))
    (fun o' => bf (ix2 (encOf e) o')) (fun l k o' => Wr (ix4 (encOf e) l k o')) (fun l o' => br (ix3 (encOf e) l o')) o

/-- The whole result: entry (e, r, o). -/
def G (xb xe : SNode.Idx → EReal) (ei : Fin 4 → SEdge.Idx → BitVec 32) (Wf : SWf.Idx → EReal) (bf : SBf.Idx → EReal)
    (Wr : SWr.Idx → EReal) (br : SBr.Idx → EReal) : SOut.Idx → EReal :=
  fun j => GAt xb xe ei Wf bf Wr br (j 0) (j 1) (j 2)

/-- The region's result is the whole result once each operand array is read as its gathered argument. -/
theorem regionOut_eq_G {xc : SXc.Idx → EReal} {wf : SWf4.Idx → EReal} {bf4 : SBf4.Idx → EReal} {wr : SWr4.Idx → EReal}
    {br4 : SBr4.Idx → EReal} {xb xe : SNode.Idx → EReal} {ei : Fin 4 → SEdge.Idx → BitVec 32} {Wf : SWf.Idx → EReal}
    {bf : SBf.Idx → EReal} {Wr : SWr.Idx → EReal} {br : SBr.Idx → EReal}
    (hx : ∀ e r k, xc (ix3 e r k) = xin (srcOf xb xe e) (dstOf xb xe e) (ei e) r k)
    (hwf : ∀ e k o, wf (ix3 e k o) = Wf (ix3 (encOf e) k o))
    (hbf : ∀ e o, bf4 (ix3 e 0 o) = bf (ix2 (encOf e) o))
    (hwr : ∀ e l k o, wr (ix4 e l k o) = Wr (ix4 (encOf e) l k o))
    (hbr : ∀ e l o, br4 (ix3 e l o) = br (ix3 (encOf e) l o)) :
    regionOut xc wf bf4 wr br4 = G xb xe ei Wf bf Wr br := by
  have key : ∀ (e : Fin 4) (r : Fin 500000) (o : Fin 64),
      regionAt xc wf bf4 wr br4 e r o = GAt xb xe ei Wf bf Wr br e r o := by
    intro e r o
    unfold regionAt GAt
    simp only [hx, hwf, hbf, hwr, hbr]
  funext j
  exact key (j 0) (j 1) (j 2)

end Cert.EdgeMlp

end
-- ==== Proof.KFrame.lean ====
/-
  The blocked region's run: every weakly fair execution of the program ends, faults nowhere, leaves the ten argument
  arrays as launched, and leaves the result array at what the library computes from "what each grid point writes back".

  The program gathers and stacks its operands on the host (seventeen stretches of host operations, none of which
  writes an argument), then runs one region over the 4 × 100 grid: point (e, t) reads rows 5000·t … 5000·t + 4999 of
  edge type e and that type's four weight arrays, and stores one [1, 5000, 64] block — a pure function of the five
  blocks it read (its one whole-block store) — which is written back at every point.
-/
import proofs.«421665_j70712341562148_1_alg».proof.Proof.Gen.KernelIdeal.Launch
import proofs.«421665_j70712341562148_1_alg».proof.Proof.Gen.KernelIdeal.Skeleton
import proofs.«421665_j70712341562148_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch contents after the seventeen host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- The program is its host stretches followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: where it is not
    fetched the block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: whole blocks, and the three slabs of the stacked 64 × 64 weights and of the stacked biases -/

abbrev rX : Rect S1x5000x128 := Rect.unit (s := S1x5000x128) ![0, 0, 0] S1x5000x128.size inb_S1x5000x128_S1x5000x128_0_0_0
abbrev rWf : Rect S1x128x64 := Rect.unit (s := S1x128x64) ![0, 0, 0] S1x128x64.size inb_S1x128x64_S1x128x64_0_0_0
abbrev rBf : Rect S1x1x64 := Rect.unit (s := S1x1x64) ![0, 0, 0] S1x1x64.size inb_S1x1x64_S1x1x64_0_0_0
abbrev rWr0 : Rect S1x3x64x64 := Rect.unit (s := S1x3x64x64) ![0, 0, 0, 0] S1x1x64x64.size inb_S1x3x64x64_S1x1x64x64_0_0_0_0
abbrev rWr1 : Rect S1x3x64x64 := Rect.unit (s := S1x3x64x64) ![0, 1, 0, 0] S1x1x64x64.size inb_S1x3x64x64_S1x1x64x64_0_1_0_0
abbrev rWr2 : Rect S1x3x64x64 := Rect.unit (s := S1x3x64x64) ![0, 2, 0, 0] S1x1x64x64.size inb_S1x3x64x64_S1x1x64x64_0_2_0_0
abbrev rBr0 : Rect S1x3x64 := Rect.unit (s := S1x3x64) ![0, 0, 0] S1x1x64.size inb_S1x3x64_S1x1x64_0_0_0
abbrev rBr1 : Rect S1x3x64 := Rect.unit (s := S1x3x64) ![0, 1, 0] S1x1x64.size inb_S1x3x64_S1x1x64_0_1_0
abbrev rBr2 : Rect S1x3x64 := Rect.unit (s := S1x3x64) ![0, 2, 0] S1x1x64.size inb_S1x3x64_S1x1x64_0_2_0
abbrev rO : Rect S1x5000x64 := Rect.unit (s := S1x5000x64) ![0, 0, 0] S1x5000x64.size inb_S1x5000x64_S1x5000x64_0_0_0

/-- The block a point stores, from the five blocks it read: the last layer applied to the third layer's output,
    itself from the first two layers (the payload names are the skeleton's). -/
def outVal (x0 : Vec F S1x5000x128 .f32) (x1 : Vec F S1x128x64 .f32) (x2 : Vec F S1x1x64 .f32) (x3 : Vec F S1x3x64x64 .f32)
    (x4 : Vec F S1x3x64 .f32) : Vec F S1x5000x64 .f32 :=
  k0_pay1 (k0_pay2 (View.ld x3 rWr1)) (k0_pay3 (View.ld x4 rBr1))
    (k0_pay4 (View.ld x0 rX) (View.ld x1 rWf) (View.ld x2 rBf) (View.ld x3 rWr0) (View.ld x4 rBr0))
    (View.ld x3 rWr2) (View.ld x4 rBr2)

/-- The output window's staging buffer after the body: its one store, which covers it. -/
def out0_5 (x0 : Vec F S1x5000x128 .f32) (x1 : Vec F S1x128x64 .f32) (x2 : Vec F S1x1x64 .f32) (x3 : Vec F S1x3x64x64 .f32)
    (x4 : Vec F S1x3x64 .f32) : Vec F S1x5000x64 .f32 :=
  View.canon [⟨rO, outVal x0 x1 x2 x3 x4⟩]

theorem cover0_5 (p0 : Vec F S1x5000x64 .f32) (y : S1x5000x64.Idx) :
    ∃ pc ∈ ([⟨rO, p0⟩] : List (View.Piece (Elt F) S1x5000x64 .f32)), y ∈ pc.1.set :=
  View.cover_of_tiled [⟨rO, p0⟩] S1x5000x64.size (by rfl) y

/-! ## The body's triple -/

set_option maxHeartbeats 4000000 in
/-- On whole staging memrefs, the five inputs' at read contents and the output's at anything, the body runs to the
    continuation with the inputs' as they were and the output's at `out0_5` of the inputs'. -/
theorem sound_kernel (c : Dev nD) (E : Set ℕ) (i : grid0.Coords)
    (arg2 : Memref sig .tc .vmem S1x5000x128 .f32) (harg2 : arg2.IsWhole) (arg3 : Memref sig .tc .vmem S1x128x64 .f32) (harg3 : arg3.IsWhole)
    (arg4 : Memref sig .tc .vmem S1x1x64 .f32) (harg4 : arg4.IsWhole) (arg5 : Memref sig .tc .vmem S1x3x64x64 .f32) (harg5 : arg5.IsWhole)
    (arg6 : Memref sig .tc .vmem S1x3x64 .f32) (harg6 : arg6.IsWhole) (arg7 : Memref sig .tc .vmem S1x5000x64 .f32) (harg7 : arg7.IsWhole)
    (x0 : Vec F S1x5000x128 .f32) (x1 : Vec F S1x128x64 .f32) (x2 : Vec F S1x1x64 .f32) (x3 : Vec F S1x3x64x64 .f32) (x4 : Vec F S1x3x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__edge_mlp_kernel i arg2 harg2 arg3 harg3 arg4 harg4 arg5 harg5 arg6 harg6 arg7 harg7) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point t each input's buffer at its block and the output's
    at `out0_5` of the input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t =
    out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution ends with every window's array at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.KFrameBits.lean ====
/-
  The blocked region's run: every weakly fair execution of the program ends, faults nowhere, leaves the ten argument
  arrays as launched, and leaves the result array at what the library computes from "what each grid point writes back".

  The program gathers and stacks its operands on the host (seventeen stretches of host operations, none of which
  writes an argument), then runs one region over the 4 × 100 grid: point (e, t) reads rows 5000·t … 5000·t + 4999 of
  edge type e and that type's four weight arrays, and stores one [1, 5000, 64] block — a pure function of the five
  blocks it read (its one whole-block store) — which is written back at every point.
-/
import proofs.«421665_j70712341562148_1_alg».proof.Proof.Gen.Kernel.Launch
import proofs.«421665_j70712341562148_1_alg».proof.Proof.Gen.Kernel.Skeleton
import proofs.«421665_j70712341562148_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch contents after the seventeen host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- The program is its host stretches followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not: where it is not
    fetched the block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses: whole blocks, and the three slabs of the stacked 64 × 64 weights and of the stacked biases -/

abbrev rX : Rect S1x5000x128 := Rect.unit (s := S1x5000x128) ![0, 0, 0] S1x5000x128.size inb_S1x5000x128_S1x5000x128_0_0_0
abbrev rWf : Rect S1x128x64 := Rect.unit (s := S1x128x64) ![0, 0, 0] S1x128x64.size inb_S1x128x64_S1x128x64_0_0_0
abbrev rBf : Rect S1x1x64 := Rect.unit (s := S1x1x64) ![0, 0, 0] S1x1x64.size inb_S1x1x64_S1x1x64_0_0_0
abbrev rWr0 : Rect S1x3x64x64 := Rect.unit (s := S1x3x64x64) ![0, 0, 0, 0] S1x1x64x64.size inb_S1x3x64x64_S1x1x64x64_0_0_0_0
abbrev rWr1 : Rect S1x3x64x64 := Rect.unit (s := S1x3x64x64) ![0, 1, 0, 0] S1x1x64x64.size inb_S1x3x64x64_S1x1x64x64_0_1_0_0
abbrev rWr2 : Rect S1x3x64x64 := Rect.unit (s := S1x3x64x64) ![0, 2, 0, 0] S1x1x64x64.size inb_S1x3x64x64_S1x1x64x64_0_2_0_0
abbrev rBr0 : Rect S1x3x64 := Rect.unit (s := S1x3x64) ![0, 0, 0] S1x1x64.size inb_S1x3x64_S1x1x64_0_0_0
abbrev rBr1 : Rect S1x3x64 := Rect.unit (s := S1x3x64) ![0, 1, 0] S1x1x64.size inb_S1x3x64_S1x1x64_0_1_0
abbrev rBr2 : Rect S1x3x64 := Rect.unit (s := S1x3x64) ![0, 2, 0] S1x1x64.size inb_S1x3x64_S1x1x64_0_2_0
abbrev rO : Rect S1x5000x64 := Rect.unit (s := S1x5000x64) ![0, 0, 0] S1x5000x64.size inb_S1x5000x64_S1x5000x64_0_0_0

/-- The block a point stores, from the five blocks it read: the last layer applied to the third layer's output,
    itself from the first two layers (the payload names are the skeleton's). -/
def outVal (x0 : Vec F S1x5000x128 .f32) (x1 : Vec F S1x128x64 .f32) (x2 : Vec F S1x1x64 .f32) (x3 : Vec F S1x3x64x64 .f32)
    (x4 : Vec F S1x3x64 .f32) : Vec F S1x5000x64 .f32 :=
  k0_pay1 (k0_pay2 (View.ld x3 rWr1)) (k0_pay3 (View.ld x4 rBr1))
    (k0_pay4 (View.ld x0 rX) (View.ld x1 rWf) (View.ld x2 rBf) (View.ld x3 rWr0) (View.ld x4 rBr0))
    (View.ld x3 rWr2) (View.ld x4 rBr2)

/-- The output window's staging buffer after the body: its one store, which covers it. -/
def out0_5 (x0 : Vec F S1x5000x128 .f32) (x1 : Vec F S1x128x64 .f32) (x2 : Vec F S1x1x64 .f32) (x3 : Vec F S1x3x64x64 .f32)
    (x4 : Vec F S1x3x64 .f32) : Vec F S1x5000x64 .f32 :=
  View.canon [⟨rO, outVal x0 x1 x2 x3 x4⟩]

theorem cover0_5 (p0 : Vec F S1x5000x64 .f32) (y : S1x5000x64.Idx) :
    ∃ pc ∈ ([⟨rO, p0⟩] : List (View.Piece (Elt F) S1x5000x64 .f32)), y ∈ pc.1.set :=
  View.cover_of_tiled [⟨rO, p0⟩] S1x5000x64.size (by rfl) y

/-! ## The body's triple -/

set_option maxHeartbeats 4000000 in
/-- On whole staging memrefs, the five inputs' at read contents and the output's at anything, the body runs to the
    continuation with the inputs' as they were and the output's at `out0_5` of the inputs'. -/
theorem sound_kernel (c : Dev nD) (E : Set ℕ) (i : grid0.Coords)
    (arg2 : Memref sig .tc .vmem S1x5000x128 .f32) (harg2 : arg2.IsWhole) (arg3 : Memref sig .tc .vmem S1x128x64 .f32) (harg3 : arg3.IsWhole)
    (arg4 : Memref sig .tc .vmem S1x1x64 .f32) (harg4 : arg4.IsWhole) (arg5 : Memref sig .tc .vmem S1x3x64x64 .f32) (harg5 : arg5.IsWhole)
    (arg6 : Memref sig .tc .vmem S1x3x64 .f32) (harg6 : arg6.IsWhole) (arg7 : Memref sig .tc .vmem S1x5000x64 .f32) (harg7 : arg7.IsWhole)
    (x0 : Vec F S1x5000x128 .f32) (x1 : Vec F S1x128x64 .f32) (x2 : Vec F S1x1x64 .f32) (x3 : Vec F S1x3x64x64 .f32) (x4 : Vec F S1x3x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__edge_mlp_kernel i arg2 harg2 arg3 harg3 arg4 harg4 arg5 harg5 arg6 harg6 arg7 harg7) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point t each input's buffer at its block and the output's
    at `out0_5` of the input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t =
    out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution ends with every window's array at what the library computes from the proof data and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KPayload.lean ====
/-
  The one block the kernel body stores, read over the extended reals at row rr and output o, is the four-layer map of
  row rr of the loaded edge block under the loaded weights.

  Over the extended reals a narrowing of format is the identity, a matrix product into the zero block is the plain sum
  over the contracted coordinate, the maximum with the zero block is max(·, 0), and every reshape or row broadcast only
  renames coordinates. So each of the four stages, read at (row, output), is one affine layer, the first three under
  max(·, 0), and the stages compose as the specification composes them.
-/
import proofs.«421665_j70712341562148_1_alg».proof.Proof.Gen.KernelIdeal.Skeleton
import proofs.«421665_j70712341562148_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen Cert.EdgeMlp Idealize.ShloMosaic Idealize.ShloMosaic.ValueIdx

/-! ## The two contractions read at an index

Both contract the left operand's axis 1 with the right operand's axis 0; the output's row is the left operand's row and
the output's column the right operand's column. -/

theorem lhs128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The product of a [5000,128] block and a [128,64] block into the zero block, read at (p, o), is the sum over the
    contracted coordinate k of the products of the entries (p, k) and (k, o). -/
theorem matmul128_apply (lhs : FVec Ideal S5000x128 .bf16) (rhs : FVec Ideal S128x64 .bf16) (p : Fin 5000) (o : Fin 64) :
    matmul dot_S5000x128_S128x64_S5000x64_1_0_0_1_n_n none lhs rhs (constant (F := Ideal) S5000x64 .f32 0x00000000#32) (ix2 p o)
      = ∑ k : Fin 128, lhs (ix2 p k) * rhs (ix2 k o) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p o) ((contrEquiv1 dot_S5000x128_S128x64_S5000x64_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S5000x128_S128x64_S5000x64_1_0_0_1_n_n.rhsIdx (ix2 p o) ((contrEquiv1 dot_S5000x128_S128x64_S5000x64_1_0_0_1_n_n 128 rfl rfl).symm k) = ix2 k o :=
    funext fun a => Fin.ext (by
      match a with
      | ⟨0, _⟩ => exact (rhs128_0 _ _).trans hk
      | ⟨1, _⟩ => exact rhs128_1 _ _)
  rw [el, er]

theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product of a [5000,64] block and a [64,64] block into the zero block, read at (p, o), is the sum over the
    contracted coordinate k of the products of the entries (p, k) and (k, o). -/
theorem matmul64_apply (lhs : FVec Ideal S5000x64 .bf16) (rhs : FVec Ideal S64x64 .bf16) (p : Fin 5000) (o : Fin 64) :
    matmul dot_S5000x64_S64x64_S5000x64_1_0_0_1_n_n none lhs rhs (constant (F := Ideal) S5000x64 .f32 0x00000000#32) (ix2 p o)
      = ∑ k : Fin 64, lhs (ix2 p k) * rhs (ix2 k o) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p o) ((contrEquiv1 dot_S5000x64_S64x64_S5000x64_1_0_0_1_n_n 64 rfl rfl).symm k) = ix2 p k :=
    funext fun a => Fin.ext (by
      match a with
      | ⟨0, _⟩ => exact lhs64_0 _ _
      | ⟨1, _⟩ => exact (lhs64_1 _ _).trans hk)
  have er : dot_S5000x64_S64x64_S5000x64_1_0_0_1_n_n.rhsIdx (ix2 p o) ((contrEquiv1 dot_S5000x64_S64x64_S5000x64_1_0_0_1_n_n 64 rfl rfl).symm k) = ix2 k o :=
    funext fun a => Fin.ext (by
      match a with
      | ⟨0, _⟩ => exact (rhs64_0 _ _).trans hk
      | ⟨1, _⟩ => exact rhs64_1 _ _)
  rw [el, er]

/-! ## Two leading unit axes dropped by a reshape -/

section Layout
variable {α : Type}

/-- A [1, 1, a, b] array viewed [a, b] reads, at (i, j), the operand at (0, 0, i, j): same row-major position. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A [1, 1, a] array viewed [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Layout

/-! ## The carried values at an index -/

/-- The second hidden layer's weights as carried: the loaded [1,1,64,64] block at (0, 0, k, o). -/
theorem pay2_apply (w1 : Vec Ideal S1x1x64x64 .f32) (k o : Fin 64) :
    k0_pay2 (F := Ideal) w1 (ix2 k o) = w1 (ix4 0 0 k o) := by
  unfold k0_pay2
  simp only [truncf_apply, shapeCast_11ab_ab_apply]

/-- The activations as carried: row p through the first two layers, max(·, 0) after each. -/
theorem pay4_apply (x : Vec Ideal S1x5000x128 .f32) (wf : Vec Ideal S1x128x64 .f32) (bf : Vec Ideal S1x1x64 .f32)
    (w0 : Vec Ideal S1x1x64x64 .f32) (b0 : Vec Ideal S1x1x64 .f32) (p : Fin 5000) (o : Fin 64) :
    k0_pay4 (F := Ideal) x wf bf w0 b0 (ix2 p o)
      = max (layer (fun k0 => max (layer (fun k => x (ix3 0 p k)) (fun k o' => wf (ix3 0 k o'))
          (fun o' => bf (ix3 0 0 o')) k0) 0) (fun k o' => w0 (ix4 0 0 k o')) (fun o' => b0 (ix3 0 0 o')) o) 0 := by
  unfold k0_pay4
  simp only [truncf_apply, maximumf_apply, addf_apply, broadcast_apply, matmul64_apply, matmul128_apply,
    broadcastTo_1b_ab_apply, shapeCast_a_1a_apply, shapeCast_11a_a_apply, shapeCast_1ab_ab_apply, shapeCast_ab_1ab_apply,
    shapeCast_11ab_ab_apply, Ideal.ofBits_def, Ideal.ofBits_zero_f32]
  rfl

/-- The second hidden layer's bias as carried: the loaded [1,1,64] block at (0, 0, o). -/
theorem pay3_apply (b1 : Vec Ideal S1x1x64 .f32) (o : Fin 64) :
    k0_pay3 (F := Ideal) b1 (ix1 o) = b1 (ix3 0 0 o) := by
  unfold k0_pay3
  exact shapeCast_11a_a_apply _ _ _

/-! ## The stored block at an index -/

/-- The stored block from the carried values: the second hidden layer over the carried activations, weights and bias,
    under max(·, 0), then the last layer with the third loaded weights, with no maximum after it. -/
theorem pay1_apply (v27 : FVec Ideal S64x64 .bf16) (v29 : FVec Ideal S64 .f32) (v30 : FVec Ideal S5000x64 .bf16)
    (w2 : Vec Ideal S1x1x64x64 .f32) (b2 : Vec Ideal S1x1x64 .f32) (p : Fin 5000) (o : Fin 64) :
    k0_pay1 (F := Ideal) v27 v29 v30 w2 b2 (ix3 0 p o)
      = layer (fun k2 => max (layer (fun k => v30 (ix2 p k)) (fun k o' => v27 (ix2 k o')) (fun o' => v29 (ix1 o')) k2) 0)
          (fun k o' => w2 (ix4 0 0 k o')) (fun o' => b2 (ix3 0 0 o')) o := by
  unfold k0_pay1
  simp only [truncf_apply, maximumf_apply, addf_apply, broadcast_apply, matmul64_apply, matmul128_apply,
    broadcastTo_1b_ab_apply, shapeCast_a_1a_apply, shapeCast_11a_a_apply, shapeCast_1ab_ab_apply, shapeCast_ab_1ab_apply,
    shapeCast_11ab_ab_apply, Ideal.ofBits_def, Ideal.ofBits_zero_f32]
  rfl

/-- The stored block at row rr and output o is the four-layer map of row rr: the carried activations are the first two
    layers under max(·, 0), the carried weights and bias are the second hidden layer's, and the body applies that layer
    under max(·, 0) and then the last one. -/
theorem payload_apply (x : Vec Ideal S1x5000x128 .f32) (wf : Vec Ideal S1x128x64 .f32) (bf : Vec Ideal S1x1x64 .f32)
    (w : Fin 3 → Vec Ideal S1x1x64x64 .f32) (b : Fin 3 → Vec Ideal S1x1x64 .f32) (rr : Fin 5000) (o : Fin 64) :
    k0_pay1 (F := Ideal) (k0_pay2 (w 1)) (k0_pay3 (b 1)) (k0_pay4 x wf bf (w 0) (b 0)) (w 2) (b 2) (ix3 0 rr o)
      = mlpRow (fun k => x (ix3 0 rr k)) (fun k o' => wf (ix3 0 k o')) (fun o' => bf (ix3 0 0 o'))
          (fun l k o' => w l (ix4 0 0 k o')) (fun l o' => b l (ix3 0 0 o')) o := by
  rw [pay1_apply]
  unfold mlpRow
  simp only [pay2_apply, pay3_apply, pay4_apply]

end Cert.KernelIdeal.HandValue

end
-- ==== Proof.KValue.lean ====
/-
  The blocked region's result array as ONE function of its five operand arrays.

  Grid point t = (e, tl) of the 4 × 100 grid reads rows 5000·tl … 5000·tl + 4999 of edge type e of the edge
  vectors and type e's four weight arrays, and writes back rows 5000·tl … of type e of the result: the four
  layers applied to each of its 5000 rows. The 400 blocks tile the result array, so the array ends holding,
  at (e, r, o), the four layers on row r of type e with type e's weights — `Cert.EdgeMlp.regionOut`.
-/
import proofs.«421665_j70712341562148_1_alg».proof.Proof.KFrame
import proofs.«421665_j70712341562148_1_alg».proof.Proof.KPayload
import proofs.«421665_j70712341562148_1_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand Cert.EdgeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What a point stores, at one row and one output -/

theorem hz3 : (![0, 0, 0] : Fin 3 → Nat) = fun _ => 0 := funext fun a => by fin_cases a <;> rfl

/-- A load of one 64 × 64 slab of the stacked weights reads the stack at that slab. -/
theorem ld_slabW (x3 : Vec Ideal S1x3x64x64 .f32) (l : Fin 3) (off : Fin 4 → Nat) (inb)
    (h0 : off 0 = 0) (h1 : off 1 = l.val) (h2 : off 2 = 0) (h3 : off 3 = 0) (k o : Fin 64) :
    (View.ld x3 (Rect.unit (s := S1x3x64x64) off S1x1x64x64.size inb) : Vec Ideal S1x1x64x64 .f32) (ix4 0 0 k o)
      = x3 (ix4 0 l k o) := by
  refine congrArg x3 (funext fun a => Fin.ext ?_)
  match a with
  | ⟨0, _⟩ => show off 0 + 1 * 0 = 0; omega
  | ⟨1, _⟩ => show off 1 + 1 * 0 = l.val; omega
  | ⟨2, _⟩ => show off 2 + 1 * k.val = k.val; omega
  | ⟨3, _⟩ => show off 3 + 1 * o.val = o.val; omega

/-- A load of one row of the stacked biases reads the stack at that row. -/
theorem ld_slabB (x4 : Vec Ideal S1x3x64 .f32) (l : Fin 3) (off : Fin 3 → Nat) (inb)
    (h0 : off 0 = 0) (h1 : off 1 = l.val) (h2 : off 2 = 0) (o : Fin 64) :
    (View.ld x4 (Rect.unit (s := S1x3x64) off S1x1x64.size inb) : Vec Ideal S1x1x64 .f32) (ix3 0 0 o)
      = x4 (ix3 0 l o) := by
  refine congrArg x4 (funext fun a => Fin.ext ?_)
  match a with
  | ⟨0, _⟩ => show off 0 + 1 * 0 = 0; omega
  | ⟨1, _⟩ => show off 1 + 1 * 0 = l.val; omega
  | ⟨2, _⟩ => show off 2 + 1 * o.val = o.val; omega

/-- What a point stores at row rr, output o: the four layers on row rr of its edge block with its weight blocks,
    the three later layers' weights read off the stacked blocks. -/
theorem out0_5_apply (x0 : Vec Ideal S1x5000x128 .f32) (x1 : Vec Ideal S1x128x64 .f32) (x2 : Vec Ideal S1x1x64 .f32)
    (x3 : Vec Ideal S1x3x64x64 .f32) (x4 : Vec Ideal S1x3x64 .f32) (rr : Fin 5000) (o : Fin 64) :
    out0_5 x0 x1 x2 x3 x4 (ix3 0 rr o)
      = mlpRow (fun k => x0 (ix3 0 rr k)) (fun k o' => x1 (ix3 0 k o')) (fun o' => x2 (ix3 0 0 o'))
          (fun l k o' => x3 (ix4 0 l k o')) (fun l o' => x4 (ix3 0 l o')) o := by
  unfold out0_5
  rw [View.canon_unit_zero hz3]
  unfold outVal
  simp only [View.ld_unit_zero (S := S1x5000x128) hz3, View.ld_unit_zero (S := S1x128x64) hz3,
    View.ld_unit_zero (S := S1x1x64) hz3]
  refine (payload_apply x0 x1 x2 ![View.ld x3 rWr0, View.ld x3 rWr1, View.ld x3 rWr2]
    ![View.ld x4 rBr0, View.ld x4 rBr1, View.ld x4 rBr2] rr o).trans ?_
  have hW : (fun (l : Fin 3) (k o' : Fin 64) =>
      (![View.ld x3 rWr0, View.ld x3 rWr1, View.ld x3 rWr2] : Fin 3 → Vec Ideal S1x1x64x64 .f32) l (ix4 0 0 k o'))
      = fun l k o' => x3 (ix4 0 l k o') := by
    funext l k o'
    match l with
    | ⟨0, _⟩ => exact ld_slabW x3 0 ![0, 0, 0, 0] inb_S1x3x64x64_S1x1x64x64_0_0_0_0 rfl rfl rfl rfl k o'
    | ⟨1, _⟩ => exact ld_slabW x3 1 ![0, 1, 0, 0] inb_S1x3x64x64_S1x1x64x64_0_1_0_0 rfl rfl rfl rfl k o'
    | ⟨2, _⟩ => exact ld_slabW x3 2 ![0, 2, 0, 0] inb_S1x3x64x64_S1x1x64x64_0_2_0_0 rfl rfl rfl rfl k o'
  have hB : (fun (l : Fin 3) (o' : Fin 64) =>
      (![View.ld x4 rBr0, View.ld x4 rBr1, View.ld x4 rBr2] : Fin 3 → Vec Ideal S1x1x64 .f32) l (ix3 0 0 o'))
      = fun l o' => x4 (ix3 0 l o') := by
    funext l o'
    match l with
    | ⟨0, _⟩ => exact ld_slabB x4 0 ![0, 0, 0] inb_S1x3x64_S1x1x64_0_0_0 rfl rfl rfl o'
    | ⟨1, _⟩ => exact ld_slabB x4 1 ![0, 1, 0] inb_S1x3x64_S1x1x64_0_1_0 rfl rfl rfl o'
    | ⟨2, _⟩ => exact ld_slabB x4 2 ![0, 2, 0] inb_S1x3x64_S1x1x64_0_2_0 rfl rfl rfl o'
  rw [hW, hB]

/-! ## The index maps over the grid -/

/-- Point t is (t / 100, t % 100): the edge window and the result window sit at block (t / 100, t % 100, 0), and
    every weight window at block t / 100 of its leading axis. -/
theorem idx_facts : ∀ t : Fin cfg0.N,
    win0_5.index t (0 : Fin 3) = t.val / 100 ∧ win0_5.index t (1 : Fin 3) = t.val % 100 ∧ win0_5.index t (2 : Fin 3) = 0
    ∧ win0_0.index t (0 : Fin 3) = t.val / 100 ∧ win0_0.index t (1 : Fin 3) = t.val % 100 ∧ win0_0.index t (2 : Fin 3) = 0
    ∧ win0_1.index t (0 : Fin 3) = t.val / 100 ∧ win0_1.index t (1 : Fin 3) = 0 ∧ win0_1.index t (2 : Fin 3) = 0
    ∧ win0_2.index t (0 : Fin 3) = t.val / 100 ∧ win0_2.index t (1 : Fin 3) = 0 ∧ win0_2.index t (2 : Fin 3) = 0
    ∧ win0_3.index t (0 : Fin 4) = t.val / 100 ∧ win0_3.index t (1 : Fin 4) = 0 ∧ win0_3.index t (2 : Fin 4) = 0
      ∧ win0_3.index t (3 : Fin 4) = 0
    ∧ win0_4.index t (0 : Fin 3) = t.val / 100 ∧ win0_4.index t (1 : Fin 3) = 0 ∧ win0_4.index t (2 : Fin 3) = 0 :=
  (by decide +kernel : ∀ t : Fin grid0.N, _)

theorem point_lt (t : Fin cfg0.N) : t.val < 400 := by
  have h : t.val < grid0.N := t.isLt
  rw [N_0] at h
  exact h

/-! ## Each window's block at a point, read at explicit coordinates: a block's coordinate on an axis is the block
    index times the block's size plus the coordinate inside the block -/

/-- Row rr of the edge block at point t is row (t % 100)·5000 + rr of edge type t / 100. -/
theorem read_blk0 (A : S4x500000x128.Idx → Elt Ideal .f32) (t : Fin cfg0.N) (rr : Fin 5000) (k : Fin 128)
    (e : Fin 4) (r : Fin 500000) (he : e.val = t.val / 100) (hr : r.val = t.val % 100 * 5000 + rr.val) :
    (((cfg0.win 0).blk t).view.read (Elt Ideal) A : Vec Ideal S1x5000x128 .f32) (ix3 0 rr k) = A (ix3 e r k) := by
  obtain ⟨-, -, -, f0, f1, f2, -⟩ := idx_facts t
  rw [View.read_apply]
  show A _ = A _
  refine congrArg A (funext fun a => Fin.ext ?_)
  match a with
  | ⟨0, _⟩ => show win0_0.index t (0 : Fin 3) * 1 + 1 * 0 = e.val; omega
  | ⟨1, _⟩ => show win0_0.index t (1 : Fin 3) * 5000 + 1 * rr.val = r.val; omega
  | ⟨2, _⟩ => show win0_0.index t (2 : Fin 3) * 128 + 1 * k.val = k.val; omega

/-- The first layer's weight block at point t is edge type t / 100's. -/
theorem read_blk1 (A : S4x128x64.Idx → Elt Ideal .f32) (t : Fin cfg0.N) (k : Fin 128) (o : Fin 64)
    (e : Fin 4) (he : e.val = t.val / 100) :
    (((cfg0.win 1).blk t).view.read (Elt Ideal) A : Vec Ideal S1x128x64 .f32) (ix3 0 k o) = A (ix3 e k o) := by
  obtain ⟨-, -, -, -, -, -, f0, f1, f2, -⟩ := idx_facts t
  rw [View.read_apply]
  show A _ = A _
  refine congrArg A (funext fun a => Fin.ext ?_)
  match a with
  | ⟨0, _⟩ => show win0_1.index t (0 : Fin 3) * 1 + 1 * 0 = e.val; omega
  | ⟨1, _⟩ => show win0_1.index t (1 : Fin 3) * 128 + 1 * k.val = k.val; omega
  | ⟨2, _⟩ => show win0_1.index t (2 : Fin 3) * 64 + 1 * o.val = o.val; omega

/-- The first layer's bias block at point t is edge type t / 100's. -/
theorem read_blk2 (A : S4x1x64.Idx → Elt Ideal .f32) (t : Fin cfg0.N) (o : Fin 64)
    (e : Fin 4) (he : e.val = t.val / 100) :
    (((cfg0.win 2).blk t).view.read (Elt Ideal) A : Vec Ideal S1x1x64 .f32) (ix3 0 0 o) = A (ix3 e 0 o) := by
  obtain ⟨-, -, -, -, -, -, -, -, -, f0, f1, f2, -⟩ := idx_facts t
  rw [View.read_apply]
  show A _ = A _
  refine congrArg A (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 64 + 1 * o.val = o.val; omega

/-- The stacked later weights' block at point t is edge type t / 100's. -/
theorem read_blk3 (A : S4x3x64x64.Idx → Elt Ideal .f32) (t : Fin cfg0.N) (l : Fin 3) (k o : Fin 64)
    (e : Fin 4) (he : e.val = t.val / 100) :
    (((cfg0.win 3).blk t).view.read (Elt Ideal) A : Vec Ideal S1x3x64x64 .f32) (ix4 0 l k o) = A (ix4 e l k o) := by
  obtain ⟨-, -, -, -, -, -, -, -, -, -, -, -, f0, f1, f2, f3, -⟩ := idx_facts t
  rw [View.read_apply]
  show A _ = A _
  refine congrArg A (funext fun a => Fin.ext ?_)
  match a with
  | ⟨0, _⟩ => show win0_3.index t (0 : Fin 4) * 1 + 1 * 0 = e.val; omega
  | ⟨1, _⟩ => show win0_3.index t (1 : Fin 4) * 3 + 1 * l.val = l.val; omega
  | ⟨2, _⟩ => show win0_3.index t (2 : Fin 4) * 64 + 1 * k.val = k.val; omega
  | ⟨3, _⟩ => show win0_3.index t (3 : Fin 4) * 64 + 1 * o.val = o.val; omega

/-- The stacked later biases' block at point t is edge type t / 100's. -/
theorem read_blk4 (A : S4x3x64.Idx → Elt Ideal .f32) (t : Fin cfg0.N) (l : Fin 3) (o : Fin 64)
    (e : Fin 4) (he : e.val = t.val / 100) :
    (((cfg0.win 4).blk t).view.read (Elt Ideal) A : Vec Ideal S1x3x64 .f32) (ix3 0 l o) = A (ix3 e l o) := by
  obtain ⟨-, -, -, -, -, -, -, -, -, -, -, -, -, -, -, -, f0, f1, f2⟩ := idx_facts t
  rw [View.read_apply]
  show A _ = A _
  refine congrArg A (funext fun a => Fin.ext ?_)
  match a with
  | ⟨0, _⟩ => show win0_4.index t (0 : Fin 3) * 1 + 1 * 0 = e.val; omega
  | ⟨1, _⟩ => show win0_4.index t (1 : Fin 3) * 3 + 1 * l.val = l.val; omega
  | ⟨2, _⟩ => show win0_4.index t (2 : Fin 3) * 64 + 1 * o.val = o.val; omega

/-- Row rr of the result block at point t is row (t % 100)·5000 + rr of edge type t / 100. -/
theorem read_blk5 (A : S4x500000x64.Idx → Elt Ideal .f32) (t : Fin cfg0.N) (rr : Fin 5000) (o : Fin 64)
    (e : Fin 4) (r : Fin 500000) (he : e.val = t.val / 100) (hr : r.val = t.val % 100 * 5000 + rr.val) :
    (((cfg0.win 5).blk t).view.read (Elt Ideal) A : Vec Ideal S1x5000x64 .f32) (ix3 0 rr o) = A (ix3 e r o) := by
  obtain ⟨f0, f1, f2, -⟩ := idx_facts t
  rw [View.read_apply]
  show A _ = A _
  refine congrArg A (funext fun a => Fin.ext ?_)
  match a with
  | ⟨0, _⟩ => show win0_5.index t (0 : Fin 3) * 1 + 1 * 0 = e.val; omega
  | ⟨1, _⟩ => show win0_5.index t (1 : Fin 3) * 5000 + 1 * rr.val = r.val; omega
  | ⟨2, _⟩ => show win0_5.index t (2 : Fin 3) * 64 + 1 * o.val = o.val; omega

/-! ## What a point writes back is its block of the whole-array function -/

/-- At row rr and output o of point t's block: the point stores the four layers on that row with the point's weight
    blocks, which is `regionOut` of the five arrays at row (t % 100)·5000 + rr of edge type t / 100. -/
theorem block_at (A0 : S4x500000x128.Idx → Elt Ideal .f32) (A1 : S4x128x64.Idx → Elt Ideal .f32)
    (A2 : S4x1x64.Idx → Elt Ideal .f32) (A3 : S4x3x64x64.Idx → Elt Ideal .f32) (A4 : S4x3x64.Idx → Elt Ideal .f32)
    (t : Fin cfg0.N) (rr : Fin 5000) (o : Fin 64) :
    out0_5 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (ix3 0 rr o)
      = (((cfg0.win 5).blk t).view.read (Elt Ideal) (regionOut A0 A1 A2 A3 A4) : Vec Ideal S1x5000x64 .f32) (ix3 0 rr o) := by
  have hN := point_lt t
  obtain ⟨e, he⟩ : ∃ e : Fin 4, e.val = t.val / 100 := ⟨⟨t.val / 100, by omega⟩, rfl⟩
  obtain ⟨r, hr⟩ : ∃ r : Fin 500000, r.val = t.val % 100 * 5000 + rr.val :=
    ⟨⟨t.val % 100 * 5000 + rr.val, by have := rr.isLt; omega⟩, rfl⟩
  refine (out0_5_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) rr o).trans ?_
  rw [read_blk5 (regionOut A0 A1 A2 A3 A4) t rr o e r he hr]
  show _ = regionAt A0 A1 A2 A3 A4 e r o
  unfold regionAt
  have h0 : (fun k : Fin 128 => (((cfg0.win 0).blk t).view.read (Elt Ideal) A0 : Vec Ideal S1x5000x128 .f32) (ix3 0 rr k))
      = fun k => A0 (ix3 e r k) := funext fun k => read_blk0 A0 t rr k e r he hr
  have h1 : (fun (k : Fin 128) (o' : Fin 64) => (((cfg0.win 1).blk t).view.read (Elt Ideal) A1 : Vec Ideal S1x128x64 .f32) (ix3 0 k o'))
      = fun k o' => A1 (ix3 e k o') := funext fun k => funext fun o' => read_blk1 A1 t k o' e he
  have h2 : (fun o' : Fin 64 => (((cfg0.win 2).blk t).view.read (Elt Ideal) A2 : Vec Ideal S1x1x64 .f32) (ix3 0 0 o'))
      = fun o' => A2 (ix3 e 0 o') := funext fun o' => read_blk2 A2 t o' e he
  have h3 : (fun (l : Fin 3) (k o' : Fin 64) => (((cfg0.win 3).blk t).view.read (Elt Ideal) A3 : Vec Ideal S1x3x64x64 .f32) (ix4 0 l k o'))
      = fun l k o' => A3 (ix4 e l k o') := funext fun l => funext fun k => funext fun o' => read_blk3 A3 t l k o' e he
  have h4 : (fun (l : Fin 3) (o' : Fin 64) => (((cfg0.win 4).blk t).view.read (Elt Ideal) A4 : Vec Ideal S1x3x64 .f32) (ix3 0 l o'))
      = fun l o' => A4 (ix3 e l o') := funext fun l => funext fun o' => read_blk4 A4 t l o' e he
  rw [h0, h1, h2, h3, h4]

/-- Point t's stored block, cut to what is written back (all of it: the blocks tile the array), is block t of
    `regionOut` of the five arrays. -/
theorem block_eq (A0 : S4x500000x128.Idx → Elt Ideal .f32) (A1 : S4x128x64.Idx → Elt Ideal .f32)
    (A2 : S4x1x64.Idx → Elt Ideal .f32) (A3 : S4x3x64x64.Idx → Elt Ideal .f32) (A4 : S4x3x64.Idx → Elt Ideal .f32)
    (t : Fin cfg0.N) :
    (cfg0.win 5).cut (grid0.coords t)
        (out0_5 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (regionOut A0 A1 A2 A3 A4) := by
  funext j
  have h0 : (j 0).val < 1 := (j 0).isLt
  have h1 : (j 1).val < 5000 := (j 1).isLt
  have h2 : (j 2).val < 64 := (j 2).isLt
  have hj : j = ix3 0 ⟨(j 1).val, h1⟩ ⟨(j 2).val, h2⟩ := funext fun a => Fin.ext (by
    match a with
    | ⟨0, _⟩ => show (j 0).val = 0; omega
    | ⟨1, _⟩ => rfl
    | ⟨2, _⟩ => rfl)
  have hx : (cfg0.win 5).xinj (grid0.coords t) j = ix3 0 ⟨(j 1).val, h1⟩ ⟨(j 2).val, h2⟩ := funext fun a => Fin.ext (by
    match a with
    | ⟨0, _⟩ => show (j 0).val = 0; omega
    | ⟨1, _⟩ => rfl
    | ⟨2, _⟩ => rfl)
  show out0_5 _ _ _ _ _ ((cfg0.win 5).xinj (grid0.coords t) j) = _
  rw [hx]
  refine (block_at A0 A1 A2 A3 A4 t ⟨(j 1).val, h1⟩ ⟨(j 2).val, h2⟩).trans ?_
  exact congrArg _ hj.symm

/-- WHAT POINT t WRITES BACK is block t of `regionOut` of the five operand arrays as the region finds them. -/
theorem flushed_eq (c : Dev nD) (t : Fin cfg0.N) :
    (dats m 0 c).flushed 5 t = ((cfg0.win 5).blk t).view.read (Elt Ideal)
      (regionOut (V m c main_v32) (V m c main_v39) (V m c main_v47) (V m c main_v54) (V m c main_v61)) := by
  show (cfg0.win 5).cut (grid0.coords t) ((dats m 0 c).after 5 t) = _
  rw [after0_5]
  exact block_eq (V m c main_v32) (V m c main_v39) (V m c main_v47) (V m c main_v54) (V m c main_v61) t

/-! ## The blocks tile the result array -/

/-- An index of the result array is in point t's block iff each coordinate is in the block's range on its axis. -/
theorem mem_blk (t : Fin cfg0.N) (i : S4x500000x64.Idx) :
    i ∈ ((cfg0.win 5).blk t).view.set ↔ ∀ a : Fin 3, win0_5.index t a * S1x5000x64.size a ≤ (i a).val
      ∧ (i a).val < win0_5.index t a * S1x5000x64.size a + S1x5000x64.size a := by
  show i ∈ ((View.whole main_v62).slice (win0_5.rect t)).set ↔ _
  rw [View.set_slice_whole, Rect.mem_set_unit]
  exact Iff.rfl

/-- Row r of edge type e is in the block of point 100·e + r / 5000, which writes back. -/
theorem cover (i : S4x500000x64.Idx) :
    ∃ t : Fin cfg0.N, (cfg0.win 5).flush t = true ∧ i ∈ ((cfg0.win 5).blk t).view.set := by
  have hi0 : (i 0).val < 4 := (i 0).isLt
  have hi1 : (i 1).val < 500000 := (i 1).isLt
  have hi2 : (i 2).val < 64 := (i 2).isLt
  have hlt : 100 * (i 0).val + (i 1).val / 5000 < cfg0.N := by
    show _ < grid0.N
    rw [N_0]; omega
  obtain ⟨t, ht⟩ : ∃ t : Fin cfg0.N, t.val = 100 * (i 0).val + (i 1).val / 5000 := ⟨⟨_, hlt⟩, rfl⟩
  obtain ⟨f0, f1, f2, -⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 5000 ≤ (i 1).val ∧ (i 1).val < win0_5.index t (1 : Fin 3) * 5000 + 5000
    omega
  | ⟨2, _⟩ =>
    show win0_5.index t (2 : Fin 3) * 64 ≤ (i 2).val ∧ (i 2).val < win0_5.index t (2 : Fin 3) * 64 + 64
    omega

/-! ## The result array after the run -/

/-- THE RESULT ARRAY after the run is `regionOut` of the five operand arrays as the region finds them. -/
theorem final5 (c : Dev nD) : (dats m 0 c).arrAt 5 cfg0.N
    = regionOut (V m c main_v32) (V m c main_v39) (V m c main_v47) (V m c main_v54) (V m c main_v61) :=
  (dats m 0 c).arrAt_eq_of_cover 5
    (regionOut (V m c main_v32) (V m c main_v39) (V m c main_v47) (V m c main_v54) (V m c main_v61))
    (fun t _ => flushed_eq m c t) cover

end Cert.KernelIdeal.HandValue

end
-- ==== Proof.LibScatterGather.lean ====
/-
  StableHLO's gather and scatter-add READ AT AN INDEX, for the two layouts an embedding-style program prints:
  a table of rows [N × C] (or a vector [N]) addressed by an [n × 1] column of positions.

  * the row gather: result row e is the table's row at the position read signed and clamped into the table;
  * the scatter's landing index decoded: update row e lands in table row p exactly when its position, read signed,
    is p (an update whose position is outside the table lands nowhere), the column kept;
  * the scatter-add at the exact instance: the operand's element plus the sum of the update rows whose position
    is that element's row.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Idealize.ShloMosaic.ScatterGather

open Idealize.ShloMosaic Idealize.ShloMosaic.ValueIdx

/-- Axes 0 and 1 of a shape differ (stated through the underlying naturals, so it holds at any rank written
    with variables in it). -/
theorem fin_zero_ne_one {r : Nat} (h0 : 0 < r) (h1 : 1 < r) : (⟨0, h0⟩ : Fin r) ≠ ⟨1, h1⟩ :=
  fun h => Nat.zero_ne_one (congrArg Fin.val h)

/-! ## The row gather -/

/-- THE ROW GATHER. `table[pos]` over a table of rows [N × C] at an [n × 1] column of positions: operand axis 0
    collapsed and start-indexed, axis 1 the one offset axis (a whole row is the slice), no batching axes, the index
    vector on axis 1 of the positions. Result element (e, f) is the table at row `pos e` — read SIGNED and CLAMPED
    into [0, N − 1] — and column f. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) (hN : 0 < N) :
    Host.gather d x idx (ix2 e f) = x (ix2 ⟨min (idx (ix2 e 0)).toInt.toNat (N - 1), by omega⟩ f) := by
  unfold Host.gather
  congr 1
  funext a
  apply Fin.ext
  have hb : ∀ a, a ∉ d.operandBatchingDims := by intro a; rw [hob]; exact List.not_mem_nil
  -- the result's one batch axis is axis 0, its one offset axis is axis 1
  have hbd : ∀ y ∈ d.batchDims, y = 0 := by
    show ∀ y ∈ Shape.kept _ d.offsetDims, y = 0
    rw [hoff]; intro y hy; exact List.mem_singleton.1 hy
  have hod : ∀ y ∈ d.offsetDims, y = 1 := by rw [hoff]; intro y hy; exact List.mem_singleton.1 hy
  -- the operand's one kept axis is axis 1
  have hsk : d.sKept = [1] := by
    show Shape.kept _ (d.collapsedSliceDims ++ d.operandBatchingDims) = _; rw [hcoll, hob]; rfl
  match a with
  | ⟨0, _⟩ =>
    -- axis 0: the clamped start, nothing added
    have hk : (0 : Fin 2) ∉ d.sKept := by
      rw [hsk, List.mem_singleton]; exact fin_zero_ne_one _ _
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- the start index of result row e is read at (e, 0)
    have hsi : ∀ c : Fin d.startIndexMap.length, d.siIdx (ix2 e f) c = ix2 e 0 := by
      intro c
      funext b
      match b with
      | ⟨0, _⟩ =>
        unfold GatherDims.siIdx
        rw [dif_neg (by rw [hivd]; exact Nat.zero_ne_one)]
        unfold GatherDims.siCoord
        apply Fin.ext
        simp only [Fin.val_cast]
        rw [hbd _ (List.getElem_mem _)]
        rfl
      | ⟨1, _⟩ =>
        unfold GatherDims.siIdx
        rw [dif_pos (by rw [hivd])]
        apply Fin.ext
        show c.val = 0
        have := c.isLt; omega
    show d.start (ix2 e f) idx 0 + d.batchCoord (ix2 e f) 0 + d.offCoord (ix2 e f) 0
      = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- axis 1: no start, the offset coordinate is the result's column
    have hk : (1 : Fin 2) ∈ d.sKept := by rw [hsk]; exact List.mem_singleton.mpr rfl
    have hm : (1 : Fin 2) ∉ d.startIndexMap := by
      rw [hsim, List.mem_singleton]; exact (fin_zero_ne_one _ _).symm
    show d.start (ix2 e f) idx 1 + d.batchCoord (ix2 e f) 1 + d.offCoord (ix2 e f) 1 = f.val
    rw [GatherDims.batchCoord_eq_zero _ _ _ (hb 1), Nat.add_zero]
    unfold GatherDims.start
    rw [dif_neg hm, Nat.zero_add]
    unfold GatherDims.offCoord
    rw [dif_pos hk, hod _ (List.getElem_mem _)]
    rfl

/-! ## Where an update lands -/

/-- THE ROW SCATTER'S LANDING INDEX. Updates [n × C] scattered into a table of rows [N × C] at an [n × 1] column of
    positions: the updates' axis 1 is the window axis and goes to operand axis 1, operand axis 0 is inserted and is the
    one the positions address, the index vector on axis 1 of the positions. Update element (e, f) lands at table
    element (p, q) exactly when row e's position, read SIGNED (not clamped), is p, and the column is kept; a position
    outside the table lands nowhere. -/
theorem scatter_rows_resultIdx {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f : Fin C) (p : Fin N) (q : Fin C) :
    d.resultIdx? (ix2 e f) idx = some (ix2 p q) ↔ (idx (ix2 e 0)).toInt = (p.val : ℤ) ∧ f = q := by
  have hus : ∀ y ∈ d.uScatter, y = 0 := by
    show ∀ y ∈ Shape.kept _ d.updateWindowDims, y = 0
    rw [huw]; intro y hy; exact List.mem_singleton.1 hy
  have huwm : ∀ y ∈ d.updateWindowDims, y = 1 := by rw [huw]; intro y hy; exact List.mem_singleton.1 hy
  have hsk : d.sKept = [1] := by
    show Shape.kept _ d.insertedWindowDims = _; rw [hiw]; rfl
  have hlen : d.scatterDimsToOperandDims.length = 1 := by rw [hsd]; rfl
  have hsi : ∀ c : Fin d.scatterDimsToOperandDims.length, d.siIdx (ix2 e f) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show c.val = 0
      have := c.isLt; omega
  have hs0 : d.start (ix2 e f) idx 0 = (idx (ix2 e 0)).toInt := by
    unfold ScatterDims.start
    rw [dif_pos (by rw [hsd]; exact List.mem_singleton.mpr rfl), hsi]
  have hs1 : d.start (ix2 e f) idx 1 = 0 := by
    unfold ScatterDims.start
    rw [dif_neg (by rw [hsd, List.mem_singleton]; exact (fin_zero_ne_one _ _).symm)]
  have hw0 : d.window (ix2 e f) 0 = 0 := by
    unfold ScatterDims.window
    rw [dif_neg (by rw [hsk, List.mem_singleton]; exact fin_zero_ne_one _ _)]
  have hw1 : d.window (ix2 e f) 1 = f.val := by
    unfold ScatterDims.window
    rw [dif_pos (by rw [hsk]; exact List.mem_singleton.mpr rfl), huwm _ (List.getElem_mem _)]
    rfl
  unfold ScatterDims.resultIdx?
  split
  · rename_i h
    rw [Option.some.injEq]
    constructor
    · intro hg
      have h0 := congrArg Fin.val (congrFun hg 0)
      have h1 := congrArg Fin.val (congrFun hg 1)
      have g0 := (h 0).1
      simp only [hs0, hs1, hw0, hw1] at h0 h1 g0
      change (_ : ℤ).toNat = p.val at h0
      change (_ : ℤ).toNat = q.val at h1
      refine ⟨by omega, Fin.ext (by omega)⟩
    · rintro ⟨hi, hf⟩
      funext a
      apply Fin.ext
      match a with
      | ⟨0, _⟩ =>
        show (d.start (ix2 e f) idx 0 + (d.window (ix2 e f) 0 : ℤ)).toNat = p.val
        rw [hs0, hw0, hi]; simp
      | ⟨1, _⟩ =>
        show (d.start (ix2 e f) idx 1 + (d.window (ix2 e f) 1 : ℤ)).toNat = q.val
        rw [hs1, hw1, hf]; simp
  · rename_i h
    constructor
    · intro hg; exact absurd hg (by simp)
    · rintro ⟨hi, hf⟩
      exfalso; apply h
      intro a
      match a with
      | ⟨0, _⟩ =>
        show 0 ≤ d.start (ix2 e f) idx 0 + (d.window (ix2 e f) 0 : ℤ) ∧ d.start (ix2 e f) idx 0 + (d.window (ix2 e f) 0 : ℤ) < (N : ℤ)
        rw [hs0, hw0, hi]
        have := p.isLt
        constructor <;> omega
      | ⟨1, _⟩ =>
        show 0 ≤ d.start (ix2 e f) idx 1 + (d.window (ix2 e f) 1 : ℤ) ∧ d.start (ix2 e f) idx 1 + (d.window (ix2 e f) 1 : ℤ) < (C : ℤ)
        rw [hs1, hw1]
        have := f.isLt
        constructor <;> omega

/-- THE VECTOR SCATTER'S LANDING INDEX. Updates [n] scattered into a vector [N] at an [n × 1] column of positions (no window
    axes, the operand's one axis inserted and addressed by the positions): update e lands at element p exactly when
    its position, read SIGNED, is p. -/
theorem scatter_vec_resultIdx {N n w : Nat} (d : ScatterDims ⟨1, ![N]⟩ ⟨2, ![n, 1]⟩ ⟨1, ![n]⟩)
    (hiw : d.insertedWindowDims = [0])
    (hsd : d.scatterDimsToOperandDims = [0]) (hivd : d.indexVectorDim = 1)
    (idx : IVec ⟨2, ![n, 1]⟩ w) (e : Fin n) (p : Fin N) :
    d.resultIdx? (ix1 e) idx = some (ix1 p) ↔ (idx (ix2 e 0)).toInt = (p.val : ℤ) := by
  have hsk : d.sKept = [] := by
    show Shape.kept _ d.insertedWindowDims = _; rw [hiw]; rfl
  have hlen : d.scatterDimsToOperandDims.length = 1 := by rw [hsd]; rfl
  have hsi : ∀ c : Fin d.scatterDimsToOperandDims.length, d.siIdx (ix1 e) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      have hX : ∀ X : Fin 1, ((ix1 e : (⟨1, ![n]⟩ : Shape).Idx) X).val = e.val := fun X => by
        have hX : X = 0 := Subsingleton.elim _ _
        subst hX; rfl
      exact hX _
    | ⟨1, _⟩ =>
      unfold ScatterDims.siIdx
      rw [dif_pos (by rw [hivd])]
      apply Fin.ext
      show c.val = 0
      have := c.isLt; omega
  have hs0 : d.start (ix1 e) idx 0 = (idx (ix2 e 0)).toInt := by
    unfold ScatterDims.start
    rw [dif_pos (by rw [hsd]; exact List.mem_singleton.mpr rfl), hsi]
  have hw0 : d.window (ix1 e) 0 = 0 := by
    unfold ScatterDims.window
    rw [dif_neg (by rw [hsk]; exact List.not_mem_nil)]
  unfold ScatterDims.resultIdx?
  split
  · rename_i h
    rw [Option.some.injEq]
    constructor
    · intro hg
      have h0 := congrArg Fin.val (congrFun hg 0)
      have g0 := (h 0).1
      simp only [hs0, hw0] at h0 g0
      change (_ : ℤ).toNat = p.val at h0
      omega
    · intro hi
      funext a
      obtain rfl : a = 0 := Subsingleton.elim _ _
      apply Fin.ext
      show (d.start (ix1 e) idx 0 + (d.window (ix1 e) 0 : ℤ)).toNat = p.val
      rw [hs0, hw0, hi]; simp
  · rename_i h
    constructor
    · intro hg; exact absurd hg (by simp)
    · intro hi
      exfalso; apply h
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi]
      have := p.isLt
      constructor <;> omega

/-! ## The scatter-add at the exact instance -/

/-- THE SCATTER-ADD READ AT AN INDEX, at the exact instance: the operand's element plus the sum of the update
    elements that land on it. -/
theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- THE ROW SCATTER-ADD: table element (p, q) is the operand's plus the sum, over the update ROWS whose position read
    signed is p, of the update's element in column q. (The update elements landing at (p, q) are those with column q in
    such a row: the sum over them is re-indexed by the row.) -/
theorem scatterAdd_rows {N C n w : Nat} {φ : FTy} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (p : Fin N) (q : Fin C) :
    Host.scatterAdd (F := Ideal) d x idx upd (ix2 p q)
      = x (ix2 p q) + ∑ e ∈ Finset.univ.filter (fun e : Fin n => (idx (ix2 e 0)).toInt = (p.val : ℤ)), upd (ix2 e q) := by
  rw [scatterAdd_apply]
  congr 1
  have key : ∀ (a : Fin n) (b : Fin C),
      d.resultIdx? (ix2 a b) idx = some (ix2 p q) ↔ (idx (ix2 a 0)).toInt = (p.val : ℤ) ∧ b = q :=
    fun a b => scatter_rows_resultIdx d huw hiw hsd hivd idx a b p q
  refine Finset.sum_bij' (fun j _ => (j 0 : Fin n)) (fun e _ => ix2 e q) ?_ ?_ ?_ ?_ ?_
  · intro j hj
    obtain ⟨a, b, rfl⟩ : ∃ (a : Fin n) (b : Fin C), j = ix2 a b := ⟨j 0, j 1, eq_ix2 j⟩
    exact Finset.mem_filter.2 ⟨Finset.mem_univ _, ((key a b).1 (Finset.mem_filter.1 hj).2).1⟩
  · intro e he
    exact Finset.mem_filter.2 ⟨Finset.mem_univ _, (key e q).2 ⟨(Finset.mem_filter.1 he).2, rfl⟩⟩
  · intro j hj
    obtain ⟨a, b, rfl⟩ : ∃ (a : Fin n) (b : Fin C), j = ix2 a b := ⟨j 0, j 1, eq_ix2 j⟩
    have hq : b = q := ((key a b).1 (Finset.mem_filter.1 hj).2).2
    show ix2 a q = ix2 a b
    rw [hq]
  · intro e he; rfl
  · intro j hj
    obtain ⟨a, b, rfl⟩ : ∃ (a : Fin n) (b : Fin C), j = ix2 a b := ⟨j 0, j 1, eq_ix2 j⟩
    have hq : b = q := ((key a b).1 (Finset.mem_filter.1 hj).2).2
    show upd (ix2 a b) = upd (ix2 a q)
    rw [hq]

/-- THE VECTOR SCATTER-ADD: element p is the operand's plus the sum of the updates whose position read signed is p. -/
theorem scatterAdd_vec {N n w : Nat} {φ : FTy} (d : ScatterDims ⟨1, ![N]⟩ ⟨2, ![n, 1]⟩ ⟨1, ![n]⟩)
    (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (p : Fin N) :
    Host.scatterAdd (F := Ideal) d x idx upd (ix1 p)
      = x (ix1 p) + ∑ e ∈ Finset.univ.filter (fun e : Fin n => (idx (ix2 e 0)).toInt = (p.val : ℤ)), upd (ix1 e) := by
  rw [scatterAdd_apply]
  congr 1
  have key : ∀ a : Fin n, d.resultIdx? (ix1 a) idx = some (ix1 p) ↔ (idx (ix2 a 0)).toInt = (p.val : ℤ) :=
    fun a => scatter_vec_resultIdx d hiw hsd hivd idx a p
  refine Finset.sum_bij' (fun j _ => (j 0 : Fin n)) (fun e _ => ix1 e) ?_ ?_ ?_ ?_ ?_
  · intro j hj
    obtain ⟨a, rfl⟩ : ∃ a : Fin n, j = ix1 a := ⟨j 0, eq_ix1 j⟩
    exact Finset.mem_filter.2 ⟨Finset.mem_univ _, (key a).1 (Finset.mem_filter.1 hj).2⟩
  · intro e he
    exact Finset.mem_filter.2 ⟨Finset.mem_univ _, (key e).2 (Finset.mem_filter.1 he).2⟩
  · intro j hj
    obtain ⟨a, rfl⟩ : ∃ a : Fin n, j = ix1 a := ⟨j 0, eq_ix1 j⟩
    rfl
  · intro e he; rfl
  · intro j hj
    obtain ⟨a, rfl⟩ : ∃ a : Fin n, j = ix1 a := ⟨j 0, eq_ix1 j⟩
    rfl

end Idealize.ShloMosaic.ScatterGather
-- ==== Proof.KHostX.lean ====
/-
  The array the region's first window reads, at an index.

  Before its region the program gathers, for each of the four edge types, the source node's and the destination
  node's 64 features of every edge (two takes of rows from a node table, at the two rows of that type's
  edge-index table), lays the two side by side as a [500000, 128] array, and stacks the four arrays along a new
  leading axis. A take moves a negative index up by the table's height, gathers the table's rows at the indices
  read signed and clamped into the table, and replaces a row whose moved index lies outside the table by a
  constant. When every entry of an edge-index table names a node (as an unsigned word it is below 200000) nothing
  is moved, nothing is replaced and the clamp is the identity: element (e, r, k) of the stack is feature k of the
  edge vector of edge r of type e, as the specification defines it.

  The seventeen stretches of host operations are read one at a time, each from arbitrary contents: the buffers
  after a stretch are its operations' fold over the buffers before it, a buffer the stretch does not write is
  unchanged, and the stretches compose.
-/
import proofs.«421665_j70712341562148_1_alg».proof.Proof.KFrame
import proofs.«421665_j70712341562148_1_alg».proof.Proof.Spec
import proofs.«421665_j70712341562148_1_alg».proof.Proof.LibScatterGather
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.HandHost

open Cert.KernelIdeal Cert.KernelIdeal.Gen Cert.KernelIdeal.Hand Cert.EdgeMlp
open Idealize.ShloMosaic Idealize.ShloMosaic.TcCoe Idealize.ShloMosaic.ValueIdx

namespace XCat

/-! ## One take, over its table and its index vector -/

/-- The index vector with each negative entry moved up by the table's height. -/
def wrapIdx (idx : IVec S500000 32) : IVec S500000 32 :=
  select (cmpi .slt idx (broadcastInDim S500000 ![] bcast_S_S500000 (constantI S_ 32 0#32)))
    (addi idx (broadcastInDim S500000 ![] bcast_S_S500000 (constantI S_ 32 200000#32))) idx

/-- The wrapped indices as a column of start positions. -/
def colIdx (idx : IVec S500000 32) : IVec S500000x1 32 :=
  broadcastInDim S500000x1 ![0] bcast_S500000_S500000x1_0 (wrapIdx idx)

/-- Row by row: does the wrapped index lie in the table, 0 ≤ · ≤ 199999? -/
def inTable (idx : IVec S500000 32) : IVec S500000 1 :=
  Host.reduce IntOp.andi
    (andi (cmpi .sge (colIdx idx) (broadcastInDim S500000x1 ![] bcast_S_S500000x1 (constantI S_ 32 0#32)))
      (cmpi .sle (colIdx idx) (broadcastInDim S500000x1 ![0, 1] bcast_S1x1_S500000x1_0_1
        (broadcastInDim S1x1 ![1] bcast_S1_S1x1_1 (constantI S1 32 199999#32)))))
    (constantI S_ 1 1#1) reducesTo_S500000x1_S500000_d1 h_S_

/-- The take: the gathered rows, a row whose wrapped index falls outside the table replaced by a constant. -/
def takeFn (xs : FVec Ideal S200000x64 .f32) (idx : IVec S500000 32) : FVec Ideal S500000x64 .f32 :=
  select (broadcastInDim S500000x64 ![0] bcast_S500000_S500000x64_0 (inTable idx))
    (Host.gather gather_S200000x64_S500000x1_S500000x64_1_0_n_n_0_1_164 xs (colIdx idx))
    (broadcastInDim S500000x64 ![] bcast_S_S500000x64 (constant (F := Ideal) S_ .f32 0x7FC00000#32))

/-- An index below the table's height is not negative, so it is not wrapped. -/
theorem wrapIdx_apply (idx : IVec S500000 32) (r : Fin 500000) (h : (idx (ix1 r)).toNat < 200000) :
    wrapIdx idx (ix1 r) = idx (ix1 r) := by
  have h0 : IntOp.cmpi .slt (idx (ix1 r)) 0#32 = 0#1 :=
    eq_zero_of_ne_one fun e => by
      have := (StableHlo.Predicate.slt_iff_toNat (a := idx (ix1 r)) (b := 0#32) (by omega) (by decide)).mp e
      exact absurd this (by simp)
  show Scalar.select (IntOp.cmpi .slt (idx (ix1 r)) 0#32) _ (idx (ix1 r)) = idx (ix1 r)
  rw [h0, select_zero]

/-- The column of start positions at row r is the wrapped index of r. -/
theorem colIdx_apply (idx : IVec S500000 32) (r : Fin 500000) (q : Fin 1) :
    colIdx idx (ix2 r q) = wrapIdx idx (ix1 r) :=
  broadcastInDim_apply _ _ _ (ix2 r q) (ix1 r) (fun a => match a with | ⟨0, _⟩ => rfl)

/-- An and-reduction of a mask of ones from the bit one is one. -/
theorem reduce_andi_ones {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-- With every index below the table's height, every row passes the range test. -/
theorem inTable_apply (idx : IVec S500000 32) (h : ∀ r : Fin 500000, (idx (ix1 r)).toNat < 200000) (r : Fin 500000) :
    inTable idx (ix1 r) = 1#1 := by
  refine reduce_andi_ones _ _ _ _ (fun i => ?_) rfl _
  obtain ⟨p, q, rfl⟩ : ∃ (p : Fin 500000) (q : Fin 1), i = ix2 p q := ⟨i 0, i 1, eq_ix2 i⟩
  show IntOp.andi (IntOp.cmpi .sge (colIdx idx (ix2 p q)) 0#32) (IntOp.cmpi .sle (colIdx idx (ix2 p q)) 199999#32) = 1#1
  rw [colIdx_apply, wrapIdx_apply idx p (h p)]
  have hp := h p
  have h1 : IntOp.cmpi .sge (idx (ix1 p)) 0#32 = 1#1 :=
    (StableHlo.Predicate.sge_iff_toNat (a := idx (ix1 p)) (b := 0#32) (by omega) (by decide)).mpr (by simp)
  have h2 : IntOp.cmpi .sle (idx (ix1 p)) 199999#32 = 1#1 :=
    (StableHlo.Predicate.sle_iff_toNat (a := idx (ix1 p)) (b := 199999#32) (by omega) (by decide)).mpr
      (by show _ ≤ 199999; omega)
  rw [h1, h2]; rfl

/-- The rows gather at an index: the table's row at the start position read signed and clamped into the table. -/
theorem gather_row (xs : FVec Ideal S200000x64 .f32) (cidx : IVec S500000x1 32) (r : Fin 500000) (f : Fin 64) :
    Host.gather gather_S200000x64_S500000x1_S500000x64_1_0_n_n_0_1_164 xs cidx (ix2 r f)
      = xs (ix2 ⟨min (cidx (ix2 r 0)).toInt.toNat (200000 - 1), by omega⟩ f) :=
  ScatterGather.gather_rows (N := 200000) (C := 64) (n := 500000) (w := 32)
    gather_S200000x64_S500000x1_S500000x64_1_0_n_n_0_1_164 rfl rfl rfl rfl rfl xs cidx r f (by omega)

/-- THE TAKE AT AN INDEX: with every index below the table's height, row r of the result is the table's row at
    the index read signed and clamped (which is the index itself). -/
theorem takeFn_apply (xs : FVec Ideal S200000x64 .f32) (idx : IVec S500000 32)
    (h : ∀ r : Fin 500000, (idx (ix1 r)).toNat < 200000) (r : Fin 500000) (f : Fin 64) :
    takeFn xs idx (ix2 r f) = xs (ix2 (rowOf (idx (ix1 r))) f) := by
  have hm : broadcastInDim S500000x64 ![0] bcast_S500000_S500000x64_0 (inTable idx) (ix2 r f) = 1#1 :=
    (broadcastInDim_apply _ _ _ (ix2 r f) (ix1 r) (fun a => match a with | ⟨0, _⟩ => rfl)).trans
      (inTable_apply idx h r)
  unfold takeFn
  rw [select_apply, hm, select_one]
  refine (gather_row xs (colIdx idx) r f).trans ?_
  have e : (⟨min (colIdx idx (ix2 r 0)).toInt.toNat (200000 - 1), by omega⟩ : Fin 200000) = rowOf (idx (ix1 r)) :=
    Fin.ext (by show min _ _ = min _ _; rw [colIdx_apply, wrapIdx_apply idx r (h r)])
  rw [e]

/-! ## One edge type's array: source rows beside destination rows -/

/-- Row 0 of an edge-index table as a vector: the source nodes. -/
def rowVec0 (ei : IVec S2x500000 32) : IVec S500000 32 :=
  shapeCast S500000 (extractStridedSlice S1x500000 ![0, 0] ei slices_S2x500000_S1x500000_0_0) shapeCasts_S1x500000_S500000

/-- Row 1 of an edge-index table as a vector: the destination nodes. -/
def rowVec1 (ei : IVec S2x500000 32) : IVec S500000 32 :=
  shapeCast S500000 (extractStridedSlice S1x500000 ![1, 0] ei slices_S2x500000_S1x500000_1_0) shapeCasts_S1x500000_S500000

theorem rowVec0_apply (ei : IVec S2x500000 32) (r : Fin 500000) : rowVec0 ei (ix1 r) = ei (ix2 0 r) := by
  unfold rowVec0
  refine (shapeCast_apply _ _ (ix1 r) (ix2 (0 : Fin 1) r) ?_).trans ?_
  · rw [Shape.rowMajor_val_two, Shape.rowMajor_val_one]
    show (0 : Nat) * 500000 + r.val = r.val
    omega
  · exact extractStridedSlice_apply _ _ _ (ix2 (0 : Fin 1) r) (ix2 (0 : Fin 2) r)
      (fun a => match a with
        | ⟨0, _⟩ => rfl
        | ⟨1, _⟩ => by show r.val = 0 + r.val; omega)

theorem rowVec1_apply (ei : IVec S2x500000 32) (r : Fin 500000) : rowVec1 ei (ix1 r) = ei (ix2 1 r) := by
  unfold rowVec1
  refine (shapeCast_apply _ _ (ix1 r) (ix2 (0 : Fin 1) r) ?_).trans ?_
  · rw [Shape.rowMajor_val_two, Shape.rowMajor_val_one]
    show (0 : Nat) * 500000 + r.val = r.val
    omega
  · exact extractStridedSlice_apply _ _ _ (ix2 (0 : Fin 1) r) (ix2 (1 : Fin 2) r)
      (fun a => match a with
        | ⟨0, _⟩ => rfl
        | ⟨1, _⟩ => by show r.val = 0 + r.val; omega)

/-- Two [500000, 64] arrays side by side. -/
def catX (a b : FVec Ideal S500000x64 .f32) : FVec Ideal S500000x128 .f32 :=
  concatenate S500000x128 1 [⟨S500000x64, a⟩, ⟨S500000x64, b⟩] concatenates_S500000x64_S500000x64_S500000x128_d1

theorem catX_apply_left (a b : FVec Ideal S500000x64 .f32) (r : Fin 500000) (k : Fin 128) (hk : k.val < 64) :
    catX a b (ix2 r k) = a (ix2 r ⟨k.val, hk⟩) := by
  unfold catX
  exact concatenate_pair_apply_left (1 : Fin S500000x128.rank) a b _ (ix2 r k) rfl (ix2 r ⟨k.val, hk⟩)
    (fun b' => match b' with
      | ⟨0, _⟩ => rfl
      | ⟨1, _⟩ => rfl)

theorem catX_apply_right (a b : FVec Ideal S500000x64 .f32) (r : Fin 500000) (k : Fin 128) (hk : ¬ k.val < 64) :
    catX a b (ix2 r k) = b (ix2 r ⟨k.val - 64, by have := k.isLt; omega⟩) := by
  unfold catX
  exact concatenate_pair_apply_right (1 : Fin S500000x128.rank) a b _ (ix2 r k) rfl rfl
    (ix2 r ⟨k.val - 64, by have := k.isLt; omega⟩)
    (fun b' hb => match b', hb with
      | ⟨0, _⟩, _ => rfl
      | ⟨1, _⟩, hb => absurd rfl hb)
    (by show k.val - 64 + 64 = k.val; omega)

/-- One edge type's edge vectors from its two node tables and its edge-index table. -/
def edgeX (xs xd : FVec Ideal S200000x64 .f32) (ei : IVec S2x500000 32) : FVec Ideal S500000x128 .f32 :=
  catX (takeFn xs (rowVec0 ei)) (takeFn xd (rowVec1 ei))

/-- With every entry of the edge-index table a node, that array is the edge vector of the specification. -/
theorem edgeX_apply (xs xd : FVec Ideal S200000x64 .f32) (ei : IVec S2x500000 32) (h : InRange ei)
    (r : Fin 500000) (k : Fin 128) : edgeX xs xd ei (ix2 r k) = xin xs xd ei r k := by
  unfold edgeX xin
  by_cases hk : k.val < 64
  · rw [dif_pos hk, catX_apply_left _ _ r k hk,
      takeFn_apply _ _ (fun r' => by rw [rowVec0_apply]; exact h _), rowVec0_apply]
  · rw [dif_neg hk, catX_apply_right _ _ r k hk,
      takeFn_apply _ _ (fun r' => by rw [rowVec1_apply]; exact h _), rowVec1_apply]

/-! ## The four edge types stacked -/

/-- Four [500000, 128] arrays stacked along a new leading axis. -/
def stack4 (x0 x1 x2 x3 : FVec Ideal S500000x128 .f32) : FVec Ideal S4x500000x128 .f32 :=
  concatenate S4x500000x128 0
    [⟨S1x500000x128, broadcastInDim S1x500000x128 ![1, 2] bcast_S500000x128_S1x500000x128_1_2 x0⟩,
     ⟨S1x500000x128, broadcastInDim S1x500000x128 ![1, 2] bcast_S500000x128_S1x500000x128_1_2 x1⟩,
     ⟨S1x500000x128, broadcastInDim S1x500000x128 ![1, 2] bcast_S500000x128_S1x500000x128_1_2 x2⟩,
     ⟨S1x500000x128, broadcastInDim S1x500000x128 ![1, 2] bcast_S500000x128_S1x500000x128_1_2 x3⟩]
    concatenates_S1x500000x128_S1x500000x128_S1x500000x128_S1x500000x128_S4x500000x128_d0

/-- An array under a new leading axis of extent one reads as itself. -/
theorem unit_apply (x : FVec Ideal S500000x128 .f32) (r : Fin 500000) (k : Fin 128) :
    broadcastInDim S1x500000x128 ![1, 2] bcast_S500000x128_S1x500000x128_1_2 x (ix3 (0 : Fin 1) r k) = x (ix2 r k) :=
  broadcastInDim_apply _ _ _ (ix3 (0 : Fin 1) r k) (ix2 r k)
    (fun a => match a with
      | ⟨0, _⟩ => rfl
      | ⟨1, _⟩ => rfl)

/-- Slab e of the stack is the e-th array. -/
theorem stack4_apply (x0 x1 x2 x3 : FVec Ideal S500000x128 .f32) (e : Fin 4) (r : Fin 500000) (k : Fin 128) :
    stack4 x0 x1 x2 x3 (ix3 e r k) = ![x0, x1, x2, x3] e (ix2 r k) := by
  unfold stack4
  match e with
  | ⟨0, _⟩ =>
    exact (concatenate_apply_piece (0 : Fin S4x500000x128.rank) _ _ (ix3 (⟨0, by omega⟩ : Fin 4) r k) 0 (by show (0 : Nat) < 4; omega)
      S1x500000x128 _ rfl rfl 0 (by rfl) (ix3 (0 : Fin 1) r k)
      (fun b hb => match b, hb with
        | ⟨0, _⟩, hb => absurd rfl hb
        | ⟨1, _⟩, _ => rfl
        | ⟨2, _⟩, _ => rfl) (by rfl)).trans (unit_apply x0 r k)
  | ⟨1, _⟩ =>
    exact (concatenate_apply_piece (0 : Fin S4x500000x128.rank) _ _ (ix3 (⟨1, by omega⟩ : Fin 4) r k) 1 (by show (1 : Nat) < 4; omega)
      S1x500000x128 _ rfl rfl 1 (by rfl) (ix3 (0 : Fin 1) r k)
      (fun b hb => match b, hb with
        | ⟨0, _⟩, hb => absurd rfl hb
        | ⟨1, _⟩, _ => rfl
        | ⟨2, _⟩, _ => rfl) (by rfl)).trans (unit_apply x1 r k)
  | ⟨2, _⟩ =>
    exact (concatenate_apply_piece (0 : Fin S4x500000x128.rank) _ _ (ix3 (⟨2, by omega⟩ : Fin 4) r k) 2 (by show (2 : Nat) < 4; omega)
      S1x500000x128 _ rfl rfl 2 (by rfl) (ix3 (0 : Fin 1) r k)
      (fun b hb => match b, hb with
        | ⟨0, _⟩, hb => absurd rfl hb
        | ⟨1, _⟩, _ => rfl
        | ⟨2, _⟩, _ => rfl) (by rfl)).trans (unit_apply x2 r k)
  | ⟨3, _⟩ =>
    exact (concatenate_apply_piece (0 : Fin S4x500000x128.rank) _ _ (ix3 (⟨3, by omega⟩ : Fin 4) r k) 3 (by show (3 : Nat) < 4; omega)
      S1x500000x128 _ rfl rfl 3 (by rfl) (ix3 (0 : Fin 1) r k)
      (fun b hb => match b, hb with
        | ⟨0, _⟩, hb => absurd rfl hb
        | ⟨1, _⟩, _ => rfl
        | ⟨2, _⟩, _ => rfl) (by rfl)).trans (unit_apply x3 r k)

/-! ## Each stretch of host operations, from any contents -/

/-- A transport along an equation between a type and itself is the identity. -/
theorem cast_id {α : Sort _} (h : α = α) (a : α) : cast h a = a := eq_of_heq (cast_heq h a)

/-- A take's stretch, its operations read in order and the transports between a buffer's type and its value's type
    dropped, is the take's definition word for word. -/
local macro "take_stretch" : tactic =>
  `(tactic| (after_results_simp
             simp only [StableHlo.TRef.ofBuf, StableHlo.TRef.toBuf, cast_id]
             unfold takeFn inTable colIdx wrapIdx
             with_reducible rfl))

/-- The slice and reshape of row 0 of the first edge-index table. -/
theorem idx0_of (F : Valuation τ sig (Elt Ideal)) :
    (StableHlo.after (hostOps0 (F := Ideal)) F (Proc.devRef .tc main_v1) : IVec S500000 32)
      = rowVec0 (F (Proc.devRef .tc main_arg2)) := by
  dsimp only [hostOps0]
  after_results
  unfold rowVec0
  rfl

set_option maxHeartbeats 4000000 in
theorem take_call0 (F : Valuation τ sig (Elt Ideal)) :
    (StableHlo.after (hostOps0_1 (F := Ideal)) F (Proc.devRef .tc main_v2) : FVec Ideal S500000x64 .f32)
      = takeFn (F (Proc.devRef .tc main_arg0)) (F (Proc.devRef .tc main_v1)) := by
  dsimp only [hostOps0_1]
  take_stretch

theorem idx1_of (F : Valuation τ sig (Elt Ideal)) :
    (StableHlo.after (hostOps0_2 (F := Ideal)) F (Proc.devRef .tc main_v4) : IVec S500000 32)
      = rowVec1 (F (Proc.devRef .tc main_arg2)) := by
  dsimp only [hostOps0_2]
  after_results
  unfold rowVec1
  rfl

set_option maxHeartbeats 4000000 in
theorem take_call1 (F : Valuation τ sig (Elt Ideal)) :
    (StableHlo.after (hostOps0_3 (F := Ideal)) F (Proc.devRef .tc main_v5) : FVec Ideal S500000x64 .f32)
      = takeFn (F (Proc.devRef .tc main_arg0)) (F (Proc.devRef .tc main_v4)) := by
  dsimp only [hostOps0_3]
  take_stretch

theorem cat0_of (F : Valuation τ sig (Elt Ideal)) :
    (StableHlo.after (hostOps0_4 (F := Ideal)) F (Proc.devRef .tc main_v6) : FVec Ideal S500000x128 .f32)
      = catX (F (Proc.devRef .tc main_v2)) (F (Proc.devRef .tc main_v5)) := by
  dsimp only [hostOps0_4]
  after_results
  unfold catX
  rfl

theorem idx2_of (F : Valuation τ sig (Elt Ideal)) :
    (StableHlo.after (hostOps0_4 (F := Ideal)) F (Proc.devRef .tc main_v8) : IVec S500000 32)
      = rowVec0 (F (Proc.devRef .tc main_arg3)) := by
  dsimp only [hostOps0_4]
  after_results
  unfold rowVec0
  rfl

set_option maxHeartbeats 4000000 in
theorem take_call2 (F : Valuation τ sig (Elt Ideal)) :
    (StableHlo.after (hostOps0_5 (F := Ideal)) F (Proc.devRef .tc main_v9) : FVec Ideal S500000x64 .f32)
      = takeFn (F (Proc.devRef .tc main_arg0)) (F (Proc.devRef .tc main_v8)) := by
  dsimp only [hostOps0_5]
  take_stretch

theorem idx3_of (F : Valuation τ sig (Elt Ideal)) :
    (StableHlo.after (hostOps0_6 (F := Ideal)) F (Proc.devRef .tc main_v11) : IVec S500000 32)
      = rowVec1 (F (Proc.devRef .tc main_arg3)) := by
  dsimp only [hostOps0_6]
  after_results
  unfold rowVec1
  rfl

set_option maxHeartbeats 4000000 in
theorem take_call3 (F : Valuation τ sig (Elt Ideal)) :
    (StableHlo.after (hostOps0_7 (F := Ideal)) F (Proc.devRef .tc main_v12) : FVec Ideal S500000x64 .f32)
      = takeFn (F (Proc.devRef .tc main_arg1)) (F (Proc.devRef .tc main_v11)) := by
  dsimp only [hostOps0_7]
  take_stretch

theorem cat1_of (F : Valuation τ sig (Elt Ideal)) :
    (StableHlo.after (hostOps0_8 (F := Ideal)) F (Proc.devRef .tc main_v13) : FVec Ideal S500000x128 .f32)
      = catX (F (Proc.devRef .tc main_v9)) (F (Proc.devRef .tc main_v12)) := by
  dsimp only [hostOps0_8]
  after_results
  unfold catX
  rfl

theorem idx4_of (F : Valuation τ sig (Elt Ideal)) :
    (StableHlo.after (hostOps0_8 (F := Ideal)) F (Proc.devRef .tc main_v15) : IVec S500000 32)
      = rowVec0 (F (Proc.devRef .tc main_arg4)) := by
  dsimp only [hostOps0_8]
  after_results
  unfold rowVec0
  rfl

set_option maxHeartbeats 4000000 in
theorem take_call4 (F : Valuation τ sig (Elt Ideal)) :
    (StableHlo.after (hostOps0_9 (F := Ideal)) F (Proc.devRef .tc main_v16) : FVec Ideal S500000x64 .f32)
      = takeFn (F (Proc.devRef .tc main_arg1)) (F (Proc.devRef .tc main_v15)) := by
  dsimp only [hostOps0_9]
  take_stretch

theorem idx5_of (F : Valuation τ sig (Elt Ideal)) :
    (StableHlo.after (hostOps0_10 (F := Ideal)) F (Proc.devRef .tc main_v18) : IVec S500000 32)
      = rowVec1 (F (Proc.devRef .tc main_arg4)) := by
  dsimp only [hostOps0_10]
  after_results
  unfold rowVec1
  rfl

set_option maxHeartbeats 4000000 in
theorem take_call5 (F : Valuation τ sig (Elt Ideal)) :
    (StableHlo.after (hostOps0_11 (F := Ideal)) F (Proc.devRef .tc main_v19) : FVec Ideal S500000x64 .f32)
      = takeFn (F (Proc.devRef .tc main_arg0)) (F (Proc.devRef .tc main_v18)) := by
  dsimp only [hostOps0_11]
  take_stretch

theorem cat2_of (F : Valuation τ sig (Elt Ideal)) :
    (StableHlo.after (hostOps0_12 (F := Ideal)) F (Proc.devRef .tc main_v20) : FVec Ideal S500000x128 .f32)
      = catX (F (Proc.devRef .tc main_v16)) (F (Proc.devRef .tc main_v19)) := by
  dsimp only [hostOps0_12]
  after_results
  unfold catX
  rfl

theorem idx6_of (F : Valuation τ sig (Elt Ideal)) :
    (StableHlo.after (hostOps0_12 (F := Ideal)) F (Proc.devRef .tc main_v22) : IVec S500000 32)
      = rowVec0 (F (Proc.devRef .tc main_arg5)) := by
  dsimp only [hostOps0_12]
  after_results
  unfold rowVec0
  rfl

set_option maxHeartbeats 4000000 in
theorem take_call6 (F : Valuation τ sig (Elt Ideal)) :
    (StableHlo.after (hostOps0_13 (F := Ideal)) F (Proc.devRef .tc main_v23) : FVec Ideal S500000x64 .f32)
      = takeFn (F (Proc.devRef .tc main_arg1)) (F (Proc.devRef .tc main_v22)) := by
  dsimp only [hostOps0_13]
  take_stretch

theorem idx7_of (F : Valuation τ sig (Elt Ideal)) :
    (StableHlo.after (hostOps0_14 (F := Ideal)) F (Proc.devRef .tc main_v25) : IVec S500000 32)
      = rowVec1 (F (Proc.devRef .tc main_arg5)) := by
  dsimp only [hostOps0_14]
  after_results
  unfold rowVec1
  rfl

set_option maxHeartbeats 4000000 in
theorem take_call7 (F : Valuation τ sig (Elt Ideal)) :
    (StableHlo.after (hostOps0_15 (F := Ideal)) F (Proc.devRef .tc main_v26) : FVec Ideal S500000x64 .f32)
      = takeFn (F (Proc.devRef .tc main_arg1)) (F (Proc.devRef .tc main_v25)) := by
  dsimp only [hostOps0_15]
  take_stretch

set_option maxHeartbeats 4000000 in
/-- The last stretch stacks the first three edge types' arrays with the fourth's, which it builds from that type's
    two takes. -/
theorem stack_of (F : Valuation τ sig (Elt Ideal)) :
    (StableHlo.after (hostOps0_16 (F := Ideal)) F (Proc.devRef .tc main_v32) : FVec Ideal S4x500000x128 .f32)
      = stack4 (F (Proc.devRef .tc main_v6)) (F (Proc.devRef .tc main_v13)) (F (Proc.devRef .tc main_v20))
          (catX (F (Proc.devRef .tc main_v23)) (F (Proc.devRef .tc main_v26))) := by
  dsimp only [hostOps0_16]
  after_results
  unfold stack4 catX
  rfl

/-! ## What each stretch writes -/

abbrev W0 : List (Ref sig .tc) := [main_c, main_v0, main_v1]
abbrev W1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v2]
abbrev W2 : List (Ref sig .tc) := [main_v3, main_v4]
abbrev W3 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v5]
abbrev W4 : List (Ref sig .tc) := [main_v6, main_v7, main_v8]
abbrev W5 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v9]
abbrev W6 : List (Ref sig .tc) := [main_v10, main_v11]
abbrev W7 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v12]
abbrev W8 : List (Ref sig .tc) := [main_v13, main_v14, main_v15]
abbrev W9 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v16]
abbrev W10 : List (Ref sig .tc) := [main_v17, main_v18]
abbrev W11 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v19]
abbrev W12 : List (Ref sig .tc) := [main_v20, main_v21, main_v22]
abbrev W13 : List (Ref sig .tc) :=
  [main_call6_c, main_call6_v0, main_call6_v1, main_call6_c_0, main_call6_v2, main_call6_v3, main_call6_v4, main_call6_v5,
   main_call6_c_1, main_call6_c_2, main_call6_v6, main_call6_v7, main_call6_v8, main_call6_v9, main_call6_v10, main_call6_v11,
   main_call6_c_3, main_call6_v12, main_call6_v13, main_call6_v14, main_call6_cst, main_call6_v15, main_v23]
abbrev W14 : List (Ref sig .tc) := [main_v24, main_v25]
abbrev W15 : List (Ref sig .tc) :=
  [main_call7_c, main_call7_v0, main_call7_v1, main_call7_c_0, main_call7_v2, main_call7_v3, main_call7_v4, main_call7_v5,
   main_call7_c_1, main_call7_c_2, main_call7_v6, main_call7_v7, main_call7_v8, main_call7_v9, main_call7_v10, main_call7_v11,
   main_call7_c_3, main_call7_v12, main_call7_v13, main_call7_v14, main_call7_cst, main_call7_v15, main_v26]

/-- Every operation of a stretch writes a buffer of the stretch's list. -/
local macro "writes_listed" : tactic =>
  `(tactic| (simp only [List.Forall, StableHlo.nullary_writes, StableHlo.unary_writes, StableHlo.binary_writes,
               StableHlo.ternary_writes, StableHlo.reshape_writes, Finset.singleton_subset_iff, List.mem_toFinset]
             repeat' apply And.intro
             all_goals exact List.mem_map_of_mem (by decide)))

theorem writes0 : (hostOps0 : List (HloOp τ sig (Elt Ideal))).Forall fun op =>
    op.writes ⊆ (W0.map (Proc.devRef (τ := τ) .tc)).toFinset := by
  dsimp only [hostOps0]
  writes_listed
theorem writes1 : (hostOps0_1 : List (HloOp τ sig (Elt Ideal))).Forall fun op =>
    op.writes ⊆ (W1.map (Proc.devRef (τ := τ) .tc)).toFinset := by
  dsimp only [hostOps0_1]
  writes_listed
theorem writes2 : (hostOps0_2 : List (HloOp τ sig (Elt Ideal))).Forall fun op =>
    op.writes ⊆ (W2.map (Proc.devRef (τ := τ) .tc)).toFinset := by
  dsimp only [hostOps0_2]
  writes_listed
theorem writes3 : (hostOps0_3 : List (HloOp τ sig (Elt Ideal))).Forall fun op =>
    op.writes ⊆ (W3.map (Proc.devRef (τ := τ) .tc)).toFinset := by
  dsimp only [hostOps0_3]
  writes_listed
theorem writes4 : (hostOps0_4 : List (HloOp τ sig (Elt Ideal))).Forall fun op =>
    op.writes ⊆ (W4.map (Proc.devRef (τ := τ) .tc)).toFinset := by
  dsimp only [hostOps0_4]
  writes_listed
theorem writes5 : (hostOps0_5 : List (HloOp τ sig (Elt Ideal))).Forall fun op =>
    op.writes ⊆ (W5.map (Proc.devRef (τ := τ) .tc)).toFinset := by
  dsimp only [hostOps0_5]
  writes_listed
theorem writes6 : (hostOps0_6 : List (HloOp τ sig (Elt Ideal))).Forall fun op =>
    op.writes ⊆ (W6.map (Proc.devRef (τ := τ) .tc)).toFinset := by
  dsimp only [hostOps0_6]
  writes_listed
theorem writes7 : (hostOps0_7 : List (HloOp τ sig (Elt Ideal))).Forall fun op =>
    op.writes ⊆ (W7.map (Proc.devRef (τ := τ) .tc)).toFinset := by
  dsimp only [hostOps0_7]
  writes_listed
theorem writes8 : (hostOps0_8 : List (HloOp τ sig (Elt Ideal))).Forall fun op =>
    op.writes ⊆ (W8.map (Proc.devRef (τ := τ) .tc)).toFinset := by
  dsimp only [hostOps0_8]
  writes_listed
theorem writes9 : (hostOps0_9 : List (HloOp τ sig (Elt Ideal))).Forall fun op =>
    op.writes ⊆ (W9.map (Proc.devRef (τ := τ) .tc)).toFinset := by
  dsimp only [hostOps0_9]
  writes_listed
theorem writes10 : (hostOps0_10 : List (HloOp τ sig (Elt Ideal))).Forall fun op =>
    op.writes ⊆ (W10.map (Proc.devRef (τ := τ) .tc)).toFinset := by
  dsimp only [hostOps0_10]
  writes_listed
theorem writes11 : (hostOps0_11 : List (HloOp τ sig (Elt Ideal))).Forall fun op =>
    op.writes ⊆ (W11.map (Proc.devRef (τ := τ) .tc)).toFinset := by
  dsimp only [hostOps0_11]
  writes_listed
theorem writes12 : (hostOps0_12 : List (HloOp τ sig (Elt Ideal))).Forall fun op =>
    op.writes ⊆ (W12.map (Proc.devRef (τ := τ) .tc)).toFinset := by
  dsimp only [hostOps0_12]
  writes_listed
theorem writes13 : (hostOps0_13 : List (HloOp τ sig (Elt Ideal))).Forall fun op =>
    op.writes ⊆ (W13.map (Proc.devRef (τ := τ) .tc)).toFinset := by
  dsimp only [hostOps0_13]
  writes_listed
theorem writes14 : (hostOps0_14 : List (HloOp τ sig (Elt Ideal))).Forall fun op =>
    op.writes ⊆ (W14.map (Proc.devRef (τ := τ) .tc)).toFinset := by
  dsimp only [hostOps0_14]
  writes_listed
theorem writes15 : (hostOps0_15 : List (HloOp τ sig (Elt Ideal))).Forall fun op =>
    op.writes ⊆ (W15.map (Proc.devRef (τ := τ) .tc)).toFinset := by
  dsimp only [hostOps0_15]
  writes_listed

/-! ## The buffers after each stretch -/

variable (m : (ℓ : Loc nD τ sig) → Buf (Elt Ideal) ℓ)

/-- Core c's buffers as launched. -/
def L (c : Dev nD) : Valuation τ sig (Elt Ideal) := fun b => m (c, b)
/-- Core c's buffers when stretch k has run. -/
def P0 (c : Dev nD) : Valuation τ sig (Elt Ideal) := StableHlo.after hostOps0 (L m c)
def P1 (c : Dev nD) : Valuation τ sig (Elt Ideal) := StableHlo.after hostOps0_1 (P0 m c)
def P2 (c : Dev nD) : Valuation τ sig (Elt Ideal) := StableHlo.after hostOps0_2 (P1 m c)
def P3 (c : Dev nD) : Valuation τ sig (Elt Ideal) := StableHlo.after hostOps0_3 (P2 m c)
def P4 (c : Dev nD) : Valuation τ sig (Elt Ideal) := StableHlo.after hostOps0_4 (P3 m c)
def P5 (c : Dev nD) : Valuation τ sig (Elt Ideal) := StableHlo.after hostOps0_5 (P4 m c)
def P6 (c : Dev nD) : Valuation τ sig (Elt Ideal) := StableHlo.after hostOps0_6 (P5 m c)
def P7 (c : Dev nD) : Valuation τ sig (Elt Ideal) := StableHlo.after hostOps0_7 (P6 m c)
def P8 (c : Dev nD) : Valuation τ sig (Elt Ideal) := StableHlo.after hostOps0_8 (P7 m c)
def P9 (c : Dev nD) : Valuation τ sig (Elt Ideal) := StableHlo.after hostOps0_9 (P8 m c)
def P10 (c : Dev nD) : Valuation τ sig (Elt Ideal) := StableHlo.after hostOps0_10 (P9 m c)
def P11 (c : Dev nD) : Valuation τ sig (Elt Ideal) := StableHlo.after hostOps0_11 (P10 m c)
def P12 (c : Dev nD) : Valuation τ sig (Elt Ideal) := StableHlo.after hostOps0_12 (P11 m c)
def P13 (c : Dev nD) : Valuation τ sig (Elt Ideal) := StableHlo.after hostOps0_13 (P12 m c)
def P14 (c : Dev nD) : Valuation τ sig (Elt Ideal) := StableHlo.after hostOps0_14 (P13 m c)
def P15 (c : Dev nD) : Valuation τ sig (Elt Ideal) := StableHlo.after hostOps0_15 (P14 m c)
def P16 (c : Dev nD) : Valuation τ sig (Elt Ideal) := StableHlo.after hostOps0_16 (P15 m c)

/-- The region finds the buffers as the last stretch leaves them. -/
theorem V_eq_P16 (c : Dev nD) (b : Ref sig .tc) : V m c b = P16 m c (Proc.devRef .tc b) := by
  unfold P16 P15 P14 P13 P12 P11 P10 P9 P8 P7 P6 P5 P4 P3 P2 P1 P0 L
  dsimp only [Hand.V]
  simp only [List.flatten_cons, List.flatten_nil, List.append_nil, StableHlo.after_append]

/-- A buffer a stretch does not write is as the stretch found it. -/
theorem P0_of (c : Dev nD) (r : Ref sig .tc) (h : r ∉ W0) : P0 m c (Proc.devRef .tc r) = L m c (Proc.devRef .tc r) :=
  StableHlo.after_of_writes_sub hostOps0 _ writes0 h
theorem P1_of (c : Dev nD) (r : Ref sig .tc) (h : r ∉ W1) : P1 m c (Proc.devRef .tc r) = P0 m c (Proc.devRef .tc r) :=
  StableHlo.after_of_writes_sub hostOps0_1 _ writes1 h
theorem P2_of (c : Dev nD) (r : Ref sig .tc) (h : r ∉ W2) : P2 m c (Proc.devRef .tc r) = P1 m c (Proc.devRef .tc r) :=
  StableHlo.after_of_writes_sub hostOps0_2 _ writes2 h
theorem P3_of (c : Dev nD) (r : Ref sig .tc) (h : r ∉ W3) : P3 m c (Proc.devRef .tc r) = P2 m c (Proc.devRef .tc r) :=
  StableHlo.after_of_writes_sub hostOps0_3 _ writes3 h
theorem P4_of (c : Dev nD) (r : Ref sig .tc) (h : r ∉ W4) : P4 m c (Proc.devRef .tc r) = P3 m c (Proc.devRef .tc r) :=
  StableHlo.after_of_writes_sub hostOps0_4 _ writes4 h
theorem P5_of (c : Dev nD) (r : Ref sig .tc) (h : r ∉ W5) : P5 m c (Proc.devRef .tc r) = P4 m c (Proc.devRef .tc r) :=
  StableHlo.after_of_writes_sub hostOps0_5 _ writes5 h
theorem P6_of (c : Dev nD) (r : Ref sig .tc) (h : r ∉ W6) : P6 m c (Proc.devRef .tc r) = P5 m c (Proc.devRef .tc r) :=
  StableHlo.after_of_writes_sub hostOps0_6 _ writes6 h
theorem P7_of (c : Dev nD) (r : Ref sig .tc) (h : r ∉ W7) : P7 m c (Proc.devRef .tc r) = P6 m c (Proc.devRef .tc r) :=
  StableHlo.after_of_writes_sub hostOps0_7 _ writes7 h
theorem P8_of (c : Dev nD) (r : Ref sig .tc) (h : r ∉ W8) : P8 m c (Proc.devRef .tc r) = P7 m c (Proc.devRef .tc r) :=
  StableHlo.after_of_writes_sub hostOps0_8 _ writes8 h
theorem P9_of (c : Dev nD) (r : Ref sig .tc) (h : r ∉ W9) : P9 m c (Proc.devRef .tc r) = P8 m c (Proc.devRef .tc r) :=
  StableHlo.after_of_writes_sub hostOps0_9 _ writes9 h
theorem P10_of (c : Dev nD) (r : Ref sig .tc) (h : r ∉ W10) : P10 m c (Proc.devRef .tc r) = P9 m c (Proc.devRef .tc r) :=
  StableHlo.after_of_writes_sub hostOps0_10 _ writes10 h
theorem P11_of (c : Dev nD) (r : Ref sig .tc) (h : r ∉ W11) : P11 m c (Proc.devRef .tc r) = P10 m c (Proc.devRef .tc r) :=
  StableHlo.after_of_writes_sub hostOps0_11 _ writes11 h
theorem P12_of (c : Dev nD) (r : Ref sig .tc) (h : r ∉ W12) : P12 m c (Proc.devRef .tc r) = P11 m c (Proc.devRef .tc r) :=
  StableHlo.after_of_writes_sub hostOps0_12 _ writes12 h
theorem P13_of (c : Dev nD) (r : Ref sig .tc) (h : r ∉ W13) : P13 m c (Proc.devRef .tc r) = P12 m c (Proc.devRef .tc r) :=
  StableHlo.after_of_writes_sub hostOps0_13 _ writes13 h
theorem P14_of (c : Dev nD) (r : Ref sig .tc) (h : r ∉ W14) : P14 m c (Proc.devRef .tc r) = P13 m c (Proc.devRef .tc r) :=
  StableHlo.after_of_writes_sub hostOps0_14 _ writes14 h
theorem P15_of (c : Dev nD) (r : Ref sig .tc) (h : r ∉ W15) : P15 m c (Proc.devRef .tc r) = P14 m c (Proc.devRef .tc r) :=
  StableHlo.after_of_writes_sub hostOps0_15 _ writes15 h

/-! ## The argument arrays are never written -/

abbrev argRefs : List (Ref sig .tc) := [main_arg0, main_arg1, main_arg2, main_arg3, main_arg4, main_arg5]

theorem P0_arg (c : Dev nD) (r : Ref sig .tc) (hr : r ∈ argRefs) :
    P0 m c (Proc.devRef .tc r) = m ((c.tc : Thread nD τ).loc r) :=
  P0_of m c r ((by decide : ∀ r ∈ argRefs, r ∉ W0) r hr)
theorem P1_arg (c : Dev nD) (r : Ref sig .tc) (hr : r ∈ argRefs) :
    P1 m c (Proc.devRef .tc r) = m ((c.tc : Thread nD τ).loc r) :=
  (P1_of m c r ((by decide : ∀ r ∈ argRefs, r ∉ W1) r hr)).trans (P0_arg m c r hr)
theorem P2_arg (c : Dev nD) (r : Ref sig .tc) (hr : r ∈ argRefs) :
    P2 m c (Proc.devRef .tc r) = m ((c.tc : Thread nD τ).loc r) :=
  (P2_of m c r ((by decide : ∀ r ∈ argRefs, r ∉ W2) r hr)).trans (P1_arg m c r hr)
theorem P3_arg (c : Dev nD) (r : Ref sig .tc) (hr : r ∈ argRefs) :
    P3 m c (Proc.devRef .tc r) = m ((c.tc : Thread nD τ).loc r) :=
  (P3_of m c r ((by decide : ∀ r ∈ argRefs, r ∉ W3) r hr)).trans (P2_arg m c r hr)
theorem P4_arg (c : Dev nD) (r : Ref sig .tc) (hr : r ∈ argRefs) :
    P4 m c (Proc.devRef .tc r) = m ((c.tc : Thread nD τ).loc r) :=
  (P4_of m c r ((by decide : ∀ r ∈ argRefs, r ∉ W4) r hr)).trans (P3_arg m c r hr)
theorem P5_arg (c : Dev nD) (r : Ref sig .tc) (hr : r ∈ argRefs) :
    P5 m c (Proc.devRef .tc r) = m ((c.tc : Thread nD τ).loc r) :=
  (P5_of m c r ((by decide : ∀ r ∈ argRefs, r ∉ W5) r hr)).trans (P4_arg m c r hr)
theorem P6_arg (c : Dev nD) (r : Ref sig .tc) (hr : r ∈ argRefs) :
    P6 m c (Proc.devRef .tc r) = m ((c.tc : Thread nD τ).loc r) :=
  (P6_of m c r ((by decide : ∀ r ∈ argRefs, r ∉ W6) r hr)).trans (P5_arg m c r hr)
theorem P7_arg (c : Dev nD) (r : Ref sig .tc) (hr : r ∈ argRefs) :
    P7 m c (Proc.devRef .tc r) = m ((c.tc : Thread nD τ).loc r) :=
  (P7_of m c r ((by decide : ∀ r ∈ argRefs, r ∉ W7) r hr)).trans (P6_arg m c r hr)
theorem P8_arg (c : Dev nD) (r : Ref sig .tc) (hr : r ∈ argRefs) :
    P8 m c (Proc.devRef .tc r) = m ((c.tc : Thread nD τ).loc r) :=
  (P8_of m c r ((by decide : ∀ r ∈ argRefs, r ∉ W8) r hr)).trans (P7_arg m c r hr)
theorem P9_arg (c : Dev nD) (r : Ref sig .tc) (hr : r ∈ argRefs) :
    P9 m c (Proc.devRef .tc r) = m ((c.tc : Thread nD τ).loc r) :=
  (P9_of m c r ((by decide : ∀ r ∈ argRefs, r ∉ W9) r hr)).trans (P8_arg m c r hr)
theorem P10_arg (c : Dev nD) (r : Ref sig .tc) (hr : r ∈ argRefs) :
    P10 m c (Proc.devRef .tc r) = m ((c.tc : Thread nD τ).loc r) :=
  (P10_of m c r ((by decide : ∀ r ∈ argRefs, r ∉ W10) r hr)).trans (P9_arg m c r hr)
theorem P11_arg (c : Dev nD) (r : Ref sig .tc) (hr : r ∈ argRefs) :
    P11 m c (Proc.devRef .tc r) = m ((c.tc : Thread nD τ).loc r) :=
  (P11_of m c r ((by decide : ∀ r ∈ argRefs, r ∉ W11) r hr)).trans (P10_arg m c r hr)
theorem P12_arg (c : Dev nD) (r : Ref sig .tc) (hr : r ∈ argRefs) :
    P12 m c (Proc.devRef .tc r) = m ((c.tc : Thread nD τ).loc r) :=
  (P12_of m c r ((by decide : ∀ r ∈ argRefs, r ∉ W12) r hr)).trans (P11_arg m c r hr)
theorem P13_arg (c : Dev nD) (r : Ref sig .tc) (hr : r ∈ argRefs) :
    P13 m c (Proc.devRef .tc r) = m ((c.tc : Thread nD τ).loc r) :=
  (P13_of m c r ((by decide : ∀ r ∈ argRefs, r ∉ W13) r hr)).trans (P12_arg m c r hr)
theorem P14_arg (c : Dev nD) (r : Ref sig .tc) (hr : r ∈ argRefs) :
    P14 m c (Proc.devRef .tc r) = m ((c.tc : Thread nD τ).loc r) :=
  (P14_of m c r ((by decide : ∀ r ∈ argRefs, r ∉ W14) r hr)).trans (P13_arg m c r hr)

/-! ## The four edge types' arrays, each where its concatenate leaves it -/

/-- Edge type 0: sources and destinations in table 0, the nodes named by argument 2. -/
theorem P4_v6 (c : Dev nD) :
    (P4 m c (Proc.devRef .tc main_v6) : FVec Ideal S500000x128 .f32)
      = edgeX (m ((c.tc : Thread nD τ).loc main_arg0)) (m ((c.tc : Thread nD τ).loc main_arg0))
          (m ((c.tc : Thread nD τ).loc main_arg2)) := by
  have e1 : (P0 m c (Proc.devRef .tc main_v1) : IVec S500000 32) = rowVec0 (m ((c.tc : Thread nD τ).loc main_arg2)) :=
    idx0_of (L m c)
  have e2 : (P1 m c (Proc.devRef .tc main_v2) : FVec Ideal S500000x64 .f32)
      = takeFn (m ((c.tc : Thread nD τ).loc main_arg0)) (rowVec0 (m ((c.tc : Thread nD τ).loc main_arg2))) := by
    refine (take_call0 (P0 m c)).trans ?_
    rw [P0_arg m c main_arg0 (by decide), e1]
  have e4 : (P2 m c (Proc.devRef .tc main_v4) : IVec S500000 32) = rowVec1 (m ((c.tc : Thread nD τ).loc main_arg2)) := by
    refine (idx1_of (P1 m c)).trans ?_
    rw [P1_arg m c main_arg2 (by decide)]
  have e5 : (P3 m c (Proc.devRef .tc main_v5) : FVec Ideal S500000x64 .f32)
      = takeFn (m ((c.tc : Thread nD τ).loc main_arg0)) (rowVec1 (m ((c.tc : Thread nD τ).loc main_arg2))) := by
    refine (take_call1 (P2 m c)).trans ?_
    rw [P2_arg m c main_arg0 (by decide), e4]
  refine (cat0_of (P3 m c)).trans ?_
  rw [P3_of m c main_v2 (by decide), P2_of m c main_v2 (by decide), e2, e5]
  rfl

/-- Edge type 1: sources in table 0, destinations in table 1, the nodes named by argument 3. -/
theorem P8_v13 (c : Dev nD) :
    (P8 m c (Proc.devRef .tc main_v13) : FVec Ideal S500000x128 .f32)
      = edgeX (m ((c.tc : Thread nD τ).loc main_arg0)) (m ((c.tc : Thread nD τ).loc main_arg1))
          (m ((c.tc : Thread nD τ).loc main_arg3)) := by
  have e8 : (P4 m c (Proc.devRef .tc main_v8) : IVec S500000 32) = rowVec0 (m ((c.tc : Thread nD τ).loc main_arg3)) := by
    refine (idx2_of (P3 m c)).trans ?_
    rw [P3_arg m c main_arg3 (by decide)]
  have e9 : (P5 m c (Proc.devRef .tc main_v9) : FVec Ideal S500000x64 .f32)
      = takeFn (m ((c.tc : Thread nD τ).loc main_arg0)) (rowVec0 (m ((c.tc : Thread nD τ).loc main_arg3))) := by
    refine (take_call2 (P4 m c)).trans ?_
    rw [P4_arg m c main_arg0 (by decide), e8]
  have e11 : (P6 m c (Proc.devRef .tc main_v11) : IVec S500000 32) = rowVec1 (m ((c.tc : Thread nD τ).loc main_arg3)) := by
    refine (idx3_of (P5 m c)).trans ?_
    rw [P5_arg m c main_arg3 (by decide)]
  have e12 : (P7 m c (Proc.devRef .tc main_v12) : FVec Ideal S500000x64 .f32)
      = takeFn (m ((c.tc : Thread nD τ).loc main_arg1)) (rowVec1 (m ((c.tc : Thread nD τ).loc main_arg3))) := by
    refine (take_call3 (P6 m c)).trans ?_
    rw [P6_arg m c main_arg1 (by decide), e11]
  refine (cat1_of (P7 m c)).trans ?_
  rw [P7_of m c main_v9 (by decide), P6_of m c main_v9 (by decide), e9, e12]
  rfl

/-- Edge type 2: sources in table 1, destinations in table 0, the nodes named by argument 4. -/
theorem P12_v20 (c : Dev nD) :
    (P12 m c (Proc.devRef .tc main_v20) : FVec Ideal S500000x128 .f32)
      = edgeX (m ((c.tc : Thread nD τ).loc main_arg1)) (m ((c.tc : Thread nD τ).loc main_arg0))
          (m ((c.tc : Thread nD τ).loc main_arg4)) := by
  have e15 : (P8 m c (Proc.devRef .tc main_v15) : IVec S500000 32) = rowVec0 (m ((c.tc : Thread nD τ).loc main_arg4)) := by
    refine (idx4_of (P7 m c)).trans ?_
    rw [P7_arg m c main_arg4 (by decide)]
  have e16 : (P9 m c (Proc.devRef .tc main_v16) : FVec Ideal S500000x64 .f32)
      = takeFn (m ((c.tc : Thread nD τ).loc main_arg1)) (rowVec0 (m ((c.tc : Thread nD τ).loc main_arg4))) := by
    refine (take_call4 (P8 m c)).trans ?_
    rw [P8_arg m c main_arg1 (by decide), e15]
  have e18 : (P10 m c (Proc.devRef .tc main_v18) : IVec S500000 32) = rowVec1 (m ((c.tc : Thread nD τ).loc main_arg4)) := by
    refine (idx5_of (P9 m c)).trans ?_
    rw [P9_arg m c main_arg4 (by decide)]
  have e19 : (P11 m c (Proc.devRef .tc main_v19) : FVec Ideal S500000x64 .f32)
      = takeFn (m ((c.tc : Thread nD τ).loc main_arg0)) (rowVec1 (m ((c.tc : Thread nD τ).loc main_arg4))) := by
    refine (take_call5 (P10 m c)).trans ?_
    rw [P10_arg m c main_arg0 (by decide), e18]
  refine (cat2_of (P11 m c)).trans ?_
  rw [P11_of m c main_v16 (by decide), P10_of m c main_v16 (by decide), e16, e19]
  rfl

/-- Edge type 3's two takes: sources and destinations in table 1, the nodes named by argument 5. -/
theorem P13_v23 (c : Dev nD) :
    (P13 m c (Proc.devRef .tc main_v23) : FVec Ideal S500000x64 .f32)
      = takeFn (m ((c.tc : Thread nD τ).loc main_arg1)) (rowVec0 (m ((c.tc : Thread nD τ).loc main_arg5))) := by
  have e22 : (P12 m c (Proc.devRef .tc main_v22) : IVec S500000 32) = rowVec0 (m ((c.tc : Thread nD τ).loc main_arg5)) := by
    refine (idx6_of (P11 m c)).trans ?_
    rw [P11_arg m c main_arg5 (by decide)]
  refine (take_call6 (P12 m c)).trans ?_
  rw [P12_arg m c main_arg1 (by decide), e22]

theorem P15_v26 (c : Dev nD) :
    (P15 m c (Proc.devRef .tc main_v26) : FVec Ideal S500000x64 .f32)
      = takeFn (m ((c.tc : Thread nD τ).loc main_arg1)) (rowVec1 (m ((c.tc : Thread nD τ).loc main_arg5))) := by
  have e25 : (P14 m c (Proc.devRef .tc main_v25) : IVec S500000 32) = rowVec1 (m ((c.tc : Thread nD τ).loc main_arg5)) := by
    refine (idx7_of (P13 m c)).trans ?_
    rw [P13_arg m c main_arg5 (by decide)]
  refine (take_call7 (P14 m c)).trans ?_
  rw [P14_arg m c main_arg1 (by decide), e25]

/-! ## The stacked array -/

/-- The array the region's first window reads: the four edge types' edge vectors, stacked. -/
theorem V_main_v32 (c : Dev nD) :
    (V m c main_v32 : FVec Ideal S4x500000x128 .f32)
      = stack4
          (edgeX (m ((c.tc : Thread nD τ).loc main_arg0)) (m ((c.tc : Thread nD τ).loc main_arg0)) (m ((c.tc : Thread nD τ).loc main_arg2)))
          (edgeX (m ((c.tc : Thread nD τ).loc main_arg0)) (m ((c.tc : Thread nD τ).loc main_arg1)) (m ((c.tc : Thread nD τ).loc main_arg3)))
          (edgeX (m ((c.tc : Thread nD τ).loc main_arg1)) (m ((c.tc : Thread nD τ).loc main_arg0)) (m ((c.tc : Thread nD τ).loc main_arg4)))
          (edgeX (m ((c.tc : Thread nD τ).loc main_arg1)) (m ((c.tc : Thread nD τ).loc main_arg1)) (m ((c.tc : Thread nD τ).loc main_arg5))) := by
  refine (V_eq_P16 m c main_v32).trans ?_
  refine (stack_of (P15 m c)).trans ?_
  rw [P15_of m c main_v6 (by decide), P14_of m c main_v6 (by decide), P13_of m c main_v6 (by decide), P12_of m c main_v6 (by decide),
    P11_of m c main_v6 (by decide), P10_of m c main_v6 (by decide), P9_of m c main_v6 (by decide), P8_of m c main_v6 (by decide),
    P7_of m c main_v6 (by decide), P6_of m c main_v6 (by decide), P5_of m c main_v6 (by decide), P4_v6 m c,
    P15_of m c main_v13 (by decide), P14_of m c main_v13 (by decide), P13_of m c main_v13 (by decide), P12_of m c main_v13 (by decide),
    P11_of m c main_v13 (by decide), P10_of m c main_v13 (by decide), P9_of m c main_v13 (by decide), P8_v13 m c,
    P15_of m c main_v20 (by decide), P14_of m c main_v20 (by decide), P13_of m c main_v20 (by decide), P12_v20 m c,
    P15_of m c main_v23 (by decide), P14_of m c main_v23 (by decide), P13_v23 m c, P15_v26 m c]
  rfl

end XCat

open XCat

variable (m : (ℓ : Loc nD τ sig) → Buf (Elt Ideal) ℓ)

/-- THE FIRST WINDOW'S ARRAY AT AN INDEX: with every edge-index entry a node, element (e, r, k) is feature k of the
    edge vector of edge r of type e. -/
theorem xcat_apply (c : Dev nD) (h2 : InRange (m ((c.tc : Thread nD τ).loc main_arg2)))
    (h3 : InRange (m ((c.tc : Thread nD τ).loc main_arg3))) (h4 : InRange (m ((c.tc : Thread nD τ).loc main_arg4)))
    (h5 : InRange (m ((c.tc : Thread nD τ).loc main_arg5))) (e : Fin 4) (r : Fin 500000) (k : Fin 128) :
    V m c main_v32 (ix3 e r k)
      = xin (srcOf (m ((c.tc : Thread nD τ).loc main_arg0)) (m ((c.tc : Thread nD τ).loc main_arg1)) e)
          (dstOf (m ((c.tc : Thread nD τ).loc main_arg0)) (m ((c.tc : Thread nD τ).loc main_arg1)) e)
          (![m ((c.tc : Thread nD τ).loc main_arg2), m ((c.tc : Thread nD τ).loc main_arg3),
             m ((c.tc : Thread nD τ).loc main_arg4), m ((c.tc : Thread nD τ).loc main_arg5)] e) r k := by
  show (V m c main_v32 : FVec Ideal S4x500000x128 .f32) (ix3 e r k) = _
  rw [V_main_v32 m c, stack4_apply]
  match e with
  | ⟨0, _⟩ => exact edgeX_apply _ _ _ h2 r k
  | ⟨1, _⟩ => exact edgeX_apply _ _ _ h3 r k
  | ⟨2, _⟩ => exact edgeX_apply _ _ _ h4 r k
  | ⟨3, _⟩ => exact edgeX_apply _ _ _ h5 r k

end Cert.KernelIdeal.HandHost

end
-- ==== Proof.LibGatherSlab.lean ====
/-
  StableHLO's gather of LEADING-AXIS SLABS, read at an index: a table [N × A × B] (or [N × A × B × C]) addressed by an
  [n × 1] column of positions, the whole trailing block the slice. Result slab e is the table's slab at the position
  read signed and clamped into the table; the trailing coordinates are kept.

  The rank-2 case (a table of rows) is the row gather of the scatter/gather lemma file; the facts here that do not depend
  on the rank (where a slice starts on a collapsed start-indexed axis, which offset coordinate a kept axis reads) are
  stated once over any shapes and used by both ranks.
-/
import proofs.«421665_j70712341562148_1_alg».proof.Proof.LibScatterGather

noncomputable section

namespace Idealize.ShloMosaic.ScatterGather

open Idealize.ShloMosaic Idealize.ShloMosaic.ValueIdx

/-! ## Facts about one operand axis, at any shapes -/

/-- An axis whose number is not among a list's numbers is not in the list. -/
theorem not_mem_of_val {r : Nat} {a : Fin r} {l : List (Fin r)} (h : a.val ∉ l.map Fin.val) : a ∉ l :=
  fun hm => h (List.mem_map_of_mem hm)

/-- On an operand axis the start index map does not name, the slice starts at 0. -/
theorem start_eq_zero {s si t : Shape} {w : Nat} (d : GatherDims s si t) (j : t.Idx) (idx : IVec si w) (a : Fin s.rank)
    (ha : a ∉ d.startIndexMap) : d.start j idx a = 0 := by
  unfold GatherDims.start
  rw [dif_neg ha]

/-- The offset coordinate on a kept operand axis: the result's coordinate on the offset axis in that axis's position
    among the kept axes, the position and the offset axis there given. -/
theorem offCoord_eq {s si t : Shape} (d : GatherDims s si t) (j : t.Idx) (a : Fin s.rank) (k : Nat) (od : Fin t.rank)
    (hk : a ∈ d.sKept) (hidx : d.sKept.idxOf a = k) (hget : ∀ h, d.offsetDims[k]'h = od) :
    d.offCoord j a = (j od).val := by
  subst hidx
  unfold GatherDims.offCoord
  rw [dif_pos hk, hget]

/-- WHERE THE SLICE STARTS on the one collapsed, start-indexed operand axis, for an [n × 1] column of positions with the
    index vector on its axis 1 and the result's batch axes all the one axis b0: at the position of the result's
    coordinate on b0, read SIGNED and CLAMPED into the axis. -/
theorem start_leading {s t : Shape} {n w : Nat} (d : GatherDims s ⟨2, ![n, 1]⟩ t) (a0 : Fin s.rank) (b0 : Fin t.rank)
    (hcoll : a0 ∈ d.collapsedSliceDims) (hsim : d.startIndexMap = [a0]) (hivd : d.indexVectorDim = 1)
    (hbd : ∀ y ∈ d.batchDims, y = b0) (j : t.Idx) (idx : IVec ⟨2, ![n, 1]⟩ w) (e : Fin n) (he : (j b0).val = e.val) :
    d.start j idx a0 = min (idx (ix2 e 0)).toInt.toNat (s.size a0 - 1) := by
  have hm : a0 ∈ d.startIndexMap := by rw [hsim]; exact List.mem_singleton.mpr rfl
  have hsl : d.sliceSizes a0 = 1 := d.slice_collapsed a0 hcoll
  have hlen : d.startIndexMap.length = 1 := by rw [hsim]; rfl
  have hsi : ∀ c : Fin d.startIndexMap.length, d.siIdx j c = ix2 e 0 := by
    intro c
    funext b
    match b with
    | ⟨0, _⟩ =>
      unfold GatherDims.siIdx
      rw [dif_neg (by rw [hivd]; exact Nat.zero_ne_one)]
      unfold GatherDims.siCoord
      apply Fin.ext
      simp only [Fin.val_cast]
      rw [hbd _ (List.getElem_mem _)]
      exact he
    | ⟨1, _⟩ =>
      unfold GatherDims.siIdx
      rw [dif_pos (by rw [hivd])]
      apply Fin.ext
      show c.val = 0
      have := c.isLt; omega
  unfold GatherDims.start
  rw [dif_pos hm, hsi, hsl]

/-! ## The slab gathers -/

/-- THE SLAB GATHER, RANK 3. The table [N × A × B] at an [n × 1] column of positions: operand axis 0 collapsed and
    start-indexed, axes 1 and 2 the offset axes (a whole [A × B] slab is the slice), no batching axes, the index
    vector on axis 1 of the positions. Result element (e, a, b) is the table at slab pos e — read SIGNED and CLAMPED
    into [0, N − 1] — and (a, b). -/
theorem gather_slab3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ix2 e 0)).toInt.toNat (N - 1), by omega⟩ a b) := by
  unfold Host.gather
  refine congrArg x (funext fun ax => Fin.ext ?_)
  have hb : ∀ a', a' ∉ d.operandBatchingDims := by intro a'; rw [hob]; exact List.not_mem_nil
  have hbd : ∀ y ∈ d.batchDims, y = 0 := by
    show ∀ y ∈ Shape.kept _ d.offsetDims, y = 0
    rw [hoff]; intro y hy; exact List.mem_singleton.1 hy
  have hsk : d.sKept = [1, 2] := by
    show Shape.kept _ (d.collapsedSliceDims ++ d.operandBatchingDims) = _; rw [hcoll, hob]; rfl
  match ax with
  | ⟨0, _⟩ =>
    have hk : (0 : Fin 3) ∉ d.sKept := by
      rw [hsk]; exact not_mem_of_val (by show (0 : ℕ) ∉ [1, 2]; decide)
    show d.start (ix3 e a b) idx 0 + d.batchCoord (ix3 e a b) 0 + d.offCoord (ix3 e a b) 0
      = min (idx (ix2 e 0)).toInt.toNat (N - 1)
    rw [GatherDims.batchCoord_eq_zero _ _ _ (hb 0), GatherDims.offCoord_eq_zero _ _ _ hk, Nat.add_zero]
    exact start_leading d 0 0 (by rw [hcoll]; exact List.mem_singleton.mpr rfl) hsim hivd hbd _ idx e rfl
  | ⟨1, _⟩ =>
    have hk : (1 : Fin 3) ∈ d.sKept := by rw [hsk]; exact List.mem_cons_self
    have hm : (1 : Fin 3) ∉ d.startIndexMap := by
      rw [hsim]; exact not_mem_of_val (by show (1 : ℕ) ∉ [0]; decide)
    show d.start (ix3 e a b) idx 1 + d.batchCoord (ix3 e a b) 1 + d.offCoord (ix3 e a b) 1 = a.val
    rw [start_eq_zero d _ _ _ hm, GatherDims.batchCoord_eq_zero _ _ _ (hb 1),
      offCoord_eq d _ 1 0 1 hk (by rw [hsk]; rfl) (fun h => (List.getElem_of_eq hoff h).trans rfl)]
    show 0 + 0 + a.val = a.val
    omega
  | ⟨2, _⟩ =>
    have hk : (2 : Fin 3) ∈ d.sKept := by rw [hsk]; exact List.mem_cons_of_mem _ List.mem_cons_self
    have hm : (2 : Fin 3) ∉ d.startIndexMap := by
      rw [hsim]; exact not_mem_of_val (by show (2 : ℕ) ∉ [0]; decide)
    show d.start (ix3 e a b) idx 2 + d.batchCoord (ix3 e a b) 2 + d.offCoord (ix3 e a b) 2 = b.val
    rw [start_eq_zero d _ _ _ hm, GatherDims.batchCoord_eq_zero _ _ _ (hb 2),
      offCoord_eq d _ 2 1 2 hk (by rw [hsk]; rfl) (fun h => (List.getElem_of_eq hoff h).trans rfl)]
    show 0 + 0 + b.val = b.val
    omega

/-- THE SLAB GATHER, RANK 4. The table [N × A × B × C] at an [n × 1] column of positions: operand axis 0 collapsed and
    start-indexed, axes 1, 2 and 3 the offset axes, no batching axes, the index vector on axis 1 of the positions.
    Result element (e, a, b, c) is the table at slab pos e — read SIGNED and CLAMPED into [0, N − 1] — and (a, b, c). -/
theorem gather_slab4 {α : Type} {N A B C n w : Nat}
    (d : GatherDims ⟨4, ![N, A, B, C]⟩ ⟨2, ![n, 1]⟩ ⟨4, ![n, A, B, C]⟩)
    (hoff : d.offsetDims = [1, 2, 3]) (hcoll : d.collapsedSliceDims = [0]) (hob : d.operandBatchingDims = [])
    (hsim : d.startIndexMap = [0]) (hivd : d.indexVectorDim = 1)
    (x : (⟨4, ![N, A, B, C]⟩ : Shape).Idx → α) (idx : IVec ⟨2, ![n, 1]⟩ w) (e : Fin n) (a : Fin A) (b : Fin B) (c : Fin C)
    (hN : 0 < N) :
    Host.gather d x idx (ix4 e a b c) = x (ix4 ⟨min (idx (ix2 e 0)).toInt.toNat (N - 1), by omega⟩ a b c) := by
  unfold Host.gather
  refine congrArg x (funext fun ax => Fin.ext ?_)
  have hb : ∀ a', a' ∉ d.operandBatchingDims := by intro a'; rw [hob]; exact List.not_mem_nil
  have hbd : ∀ y ∈ d.batchDims, y = 0 := by
    show ∀ y ∈ Shape.kept _ d.offsetDims, y = 0
    rw [hoff]; intro y hy; exact List.mem_singleton.1 hy
  have hsk : d.sKept = [1, 2, 3] := by
    show Shape.kept _ (d.collapsedSliceDims ++ d.operandBatchingDims) = _; rw [hcoll, hob]; rfl
  match ax with
  | ⟨0, _⟩ =>
    have hk : (0 : Fin 4) ∉ d.sKept := by
      rw [hsk]; exact not_mem_of_val (by show (0 : ℕ) ∉ [1, 2, 3]; decide)
    show d.start (ix4 e a b c) idx 0 + d.batchCoord (ix4 e a b c) 0 + d.offCoord (ix4 e a b c) 0
      = min (idx (ix2 e 0)).toInt.toNat (N - 1)
    rw [GatherDims.batchCoord_eq_zero _ _ _ (hb 0), GatherDims.offCoord_eq_zero _ _ _ hk, Nat.add_zero]
    exact start_leading d 0 0 (by rw [hcoll]; exact List.mem_singleton.mpr rfl) hsim hivd hbd _ idx e rfl
  | ⟨1, _⟩ =>
    have hk : (1 : Fin 4) ∈ d.sKept := by rw [hsk]; exact List.mem_cons_self
    have hm : (1 : Fin 4) ∉ d.startIndexMap := by
      rw [hsim]; exact not_mem_of_val (by show (1 : ℕ) ∉ [0]; decide)
    show d.start (ix4 e a b c) idx 1 + d.batchCoord (ix4 e a b c) 1 + d.offCoord (ix4 e a b c) 1 = a.val
    rw [start_eq_zero d _ _ _ hm, GatherDims.batchCoord_eq_zero _ _ _ (hb 1),
      offCoord_eq d _ 1 0 1 hk (by rw [hsk]; rfl) (fun h => (List.getElem_of_eq hoff h).trans rfl)]
    show 0 + 0 + a.val = a.val
    omega
  | ⟨2, _⟩ =>
    have hk : (2 : Fin 4) ∈ d.sKept := by rw [hsk]; exact List.mem_cons_of_mem _ List.mem_cons_self
    have hm : (2 : Fin 4) ∉ d.startIndexMap := by
      rw [hsim]; exact not_mem_of_val (by show (2 : ℕ) ∉ [0]; decide)
    show d.start (ix4 e a b c) idx 2 + d.batchCoord (ix4 e a b c) 2 + d.offCoord (ix4 e a b c) 2 = b.val
    rw [start_eq_zero d _ _ _ hm, GatherDims.batchCoord_eq_zero _ _ _ (hb 2),
      offCoord_eq d _ 2 1 2 hk (by rw [hsk]; rfl) (fun h => (List.getElem_of_eq hoff h).trans rfl)]
    show 0 + 0 + b.val = b.val
    omega
  | ⟨3, _⟩ =>
    have hk : (3 : Fin 4) ∈ d.sKept := by
      rw [hsk]; exact List.mem_cons_of_mem _ (List.mem_cons_of_mem _ List.mem_cons_self)
    have hm : (3 : Fin 4) ∉ d.startIndexMap := by
      rw [hsim]; exact not_mem_of_val (by show (3 : ℕ) ∉ [0]; decide)
    show d.start (ix4 e a b c) idx 3 + d.batchCoord (ix4 e a b c) 3 + d.offCoord (ix4 e a b c) 3 = c.val
    rw [start_eq_zero d _ _ _ hm, GatherDims.batchCoord_eq_zero _ _ _ (hb 3),
      offCoord_eq d _ 3 2 3 hk (by rw [hsk]; rfl) (fun h => (List.getElem_of_eq hoff h).trans rfl)]
    show 0 + 0 + c.val = c.val
    omega

end Idealize.ShloMosaic.ScatterGather

end
-- ==== Proof.KHostW.lean ====
/-
  The four weight arrays the region reads, as the host operations before it build them: each is a gather of leading-axis
  slabs of an argument at the literal table (0, 1, 1, 2) of encoder numbers — wrapped where negative, which no entry is,
  and laid out as a [4 × 1] column of positions. Read at an index, edge type e's slab is encoder (0, 1, 1, 2) e's slab of
  the argument; the first layer's bias is then broadcast to [4 × 1 × 64].

  The last stretch of host operations (the one that holds the four gathers) is run over an arbitrary valuation of the
  buffers; the fifteen stretches before it and the first one enter only through what they leave in the four arguments
  (untouched) and in the table's buffer (the literal).
-/
import proofs.«421665_j70712341562148_1_alg».proof.Proof.KFrame
import proofs.«421665_j70712341562148_1_alg».proof.Proof.Spec
import proofs.«421665_j70712341562148_1_alg».proof.Proof.LibScatterGather
import proofs.«421665_j70712341562148_1_alg».proof.Proof.LibGatherSlab
import Idealize.ShloMosaic.Lib.StableHlo.Run
import Idealize.ShloMosaic.Lib.ValueIdx
import Idealize.ShloMosaic.Lib.Pipeline.Value

set_option maxRecDepth 16384

noncomputable section

namespace Cert.KernelIdeal.HandHost

open Cert.KernelIdeal Cert.KernelIdeal.Gen Cert.KernelIdeal.Hand Cert.EdgeMlp
open Idealize.ShloMosaic Idealize.ShloMosaic.TcCoe Idealize.ShloMosaic.ValueIdx Idealize.ShloMosaic.ScatterGather

/-! ## The column of start positions -/

/-- The table of encoder numbers as the program's first operation writes it. -/
def litC : IVec S4 32 := fun i => lit0 (S4.rowMajor i)

/-- The column of start positions the program builds from a table C of encoder numbers: a negative entry wrapped
    by the number of encoders, 3, then laid out as a [4 × 1] column. -/
def startCol (C : IVec S4 32) : IVec S4x1 32 :=
  broadcastInDim S4x1 ![0] bcast_S4_S4x1_0
    (select (cmpi .slt C (broadcastInDim S4 ![] bcast_S_S4 (constantI S_ 32 0#32)))
      (addi C (broadcastInDim S4 ![] bcast_S_S4 (constantI S_ 32 3#32))) C)

/-- Row e of the column: the table's entry e, plus 3 if it is negative. -/
theorem startCol_apply (C : IVec S4 32) (e : Fin 4) :
    startCol C (ix2 e 0)
      = Scalar.select (IntOp.cmpi .slt (C (ix1 e)) 0#32) (IntOp.addi (C (ix1 e)) 3#32) (C (ix1 e)) := by
  unfold startCol
  refine (broadcastInDim_apply _ _ _ (ix2 e 0) (ix1 e) (fun a => match a with | ⟨0, _⟩ => rfl)).trans ?_
  rfl

/-- The literal table's entry e is the e-th listed word. -/
theorem litC_apply (e : Fin 4) : litC (ix1 e) = lit0 e :=
  congrArg lit0 (Fin.ext (Shape.rowMajor_val_one (ix1 e)))

/-- THE SLAB EDGE TYPE e READS: the start position of row e, read signed and clamped into the three encoders, is
    encoder (0, 1, 1, 2) e. -/
theorem startRow (e : Fin 4) : min (startCol litC (ix2 e 0)).toInt.toNat (3 - 1) = (encOf e).val := by
  rw [startCol_apply, litC_apply]
  fin_cases e <;> decide

/-! ## The buffers after the stretches before the last -/

variable {F : FTy → Type} [FloatOps F] (m : (ℓ : Loc nD τ sig) → Buf (Elt F) ℓ)

/-- The buffers after the first sixteen stretches. -/
abbrev W (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))

/-- The buffers at region entry are the last stretch run over the buffers after the first sixteen. -/
theorem V_eq (c : Dev nD) (b : Ref sig .tc) :
    V m c b = StableHlo.after hostOps0_16 (W m c) (Proc.devRef .tc b) := by
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] ++ [hostOps0_16])) (fun b => m (c, b)) (Proc.devRef .tc b) = _
  rw [List.flatten_append, StableHlo.after_append, List.flatten_cons, List.flatten_nil, List.append_nil]

/-- None of the first sixteen stretches writes argument 6. -/
theorem W_arg6 (c : Dev nD) : W m c (Proc.devRef .tc main_arg6) = m ((c.tc : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- None of the first sixteen stretches writes argument 7. -/
theorem W_arg7 (c : Dev nD) : W m c (Proc.devRef .tc main_arg7) = m ((c.tc : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- None of the first sixteen stretches writes argument 8. -/
theorem W_arg8 (c : Dev nD) : W m c (Proc.devRef .tc main_arg8) = m ((c.tc : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- None of the first sixteen stretches writes argument 9. -/
theorem W_arg9 (c : Dev nD) : W m c (Proc.devRef .tc main_arg9) = m ((c.tc : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The table's buffer after the first sixteen stretches: the first operation writes the literal, no later one of
    them writes it again. -/
theorem W_c (c : Dev nD) : W m c (Proc.devRef .tc main_c) = (litC : IVec S4 32) := by
  dsimp only [W]
  rw [List.flatten_cons, StableHlo.after_append,
    StableHlo.after_of_forall_not_mem (b := Proc.devRef .tc main_c) _ _ (List.forall_iff_forall_mem.mp (by
      simp only [hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide)))]
  simp only [hostOps0]
  after_results
  rfl

/-! ## The last stretch, over any buffers: each weight array is a gather at the column of start positions -/

set_option maxHeartbeats 4000000 in
theorem after16_v39 (Wv : Valuation τ sig (Elt F)) :
    StableHlo.after hostOps0_16 Wv (Proc.devRef .tc main_v39)
      = (Host.gather gather_S3x128x64_S4x1_S4x128x64_12_0_n_n_0_1_112864 (Wv (Proc.devRef .tc main_arg6))
          (startCol (Wv (Proc.devRef .tc main_c))) : (⟨S4x128x64, .f32⟩ : BufTy).Contents (Elt F)) := by
  simp only [hostOps0_16]
  after_results
  rfl

set_option maxHeartbeats 4000000 in
theorem after16_v47 (Wv : Valuation τ sig (Elt F)) :
    StableHlo.after hostOps0_16 Wv (Proc.devRef .tc main_v47)
      = (broadcastInDim S4x1x64 ![0, 2] bcast_S4x64_S4x1x64_0_2 (Host.gather gather_S3x64_S4x1_S4x64_1_0_n_n_0_1_164 (Wv (Proc.devRef .tc main_arg7))
          (startCol (Wv (Proc.devRef .tc main_c)))) : (⟨S4x1x64, .f32⟩ : BufTy).Contents (Elt F)) := by
  simp only [hostOps0_16]
  after_results
  rfl

set_option maxHeartbeats 4000000 in
theorem after16_v54 (Wv : Valuation τ sig (Elt F)) :
    StableHlo.after hostOps0_16 Wv (Proc.devRef .tc main_v54)
      = (Host.gather gather_S3x3x64x64_S4x1_S4x3x64x64_123_0_n_n_0_1_136464 (Wv (Proc.devRef .tc main_arg8))
          (startCol (Wv (Proc.devRef .tc main_c))) : (⟨S4x3x64x64, .f32⟩ : BufTy).Contents (Elt F)) := by
  simp only [hostOps0_16]
  after_results
  rfl

set_option maxHeartbeats 4000000 in
theorem after16_v61 (Wv : Valuation τ sig (Elt F)) :
    StableHlo.after hostOps0_16 Wv (Proc.devRef .tc main_v61)
      = (Host.gather gather_S3x3x64_S4x1_S4x3x64_12_0_n_n_0_1_1364 (Wv (Proc.devRef .tc main_arg9))
          (startCol (Wv (Proc.devRef .tc main_c))) : (⟨S4x3x64, .f32⟩ : BufTy).Contents (Elt F)) := by
  simp only [hostOps0_16]
  after_results
  rfl

/-! ## The four arrays read at an index -/

/-- The first layer's weights of edge type e are encoder (0, 1, 1, 2) e's. -/
theorem wf4_apply (c : Dev nD) (e : Fin 4) (k : Fin 128) (o : Fin 64) :
    V m c main_v39 (ix3 e k o) = m ((c.tc : Thread nD τ).loc main_arg6) (ix3 (encOf e) k o) := by
  have h := congrFun ((V_eq m c main_v39).trans (after16_v39 (W m c))) (ix3 e k o)
  rw [W_arg6, W_c] at h
  refine h.trans ((gather_slab3 _ rfl rfl rfl rfl rfl _ _ e k o (by decide)).trans ?_)
  exact congrArg (fun r : Fin 3 => m ((c.tc : Thread nD τ).loc main_arg6) (ix3 r k o)) (Fin.ext (startRow e))

/-- The first layer's bias of edge type e, broadcast along a unit axis, is encoder (0, 1, 1, 2) e's. -/
theorem bf4_apply (c : Dev nD) (e : Fin 4) (o : Fin 64) :
    V m c main_v47 (ix3 e 0 o) = m ((c.tc : Thread nD τ).loc main_arg7) (ix2 (encOf e) o) := by
  have h := congrFun ((V_eq m c main_v47).trans (after16_v47 (W m c))) (ix3 e 0 o)
  rw [W_arg7, W_c] at h
  refine h.trans ((broadcastInDim_apply _ _ _ (ix3 e 0 o) (ix2 e o)
    (fun a => match a with | ⟨0, _⟩ => rfl | ⟨1, _⟩ => rfl)).trans ?_)
  refine (gather_rows _ rfl rfl rfl rfl rfl _ _ e o (by decide)).trans ?_
  exact congrArg (fun r : Fin 3 => m ((c.tc : Thread nD τ).loc main_arg7) (ix2 r o)) (Fin.ext (startRow e))

/-- The later layers' weights of edge type e are encoder (0, 1, 1, 2) e's. -/
theorem wr4_apply (c : Dev nD) (e : Fin 4) (l : Fin 3) (k o : Fin 64) :
    V m c main_v54 (ix4 e l k o) = m ((c.tc : Thread nD τ).loc main_arg8) (ix4 (encOf e) l k o) := by
  have h := congrFun ((V_eq m c main_v54).trans (after16_v54 (W m c))) (ix4 e l k o)
  rw [W_arg8, W_c] at h
  refine h.trans ((gather_slab4 _ rfl rfl rfl rfl rfl _ _ e l k o (by decide)).trans ?_)
  exact congrArg (fun r : Fin 3 => m ((c.tc : Thread nD τ).loc main_arg8) (ix4 r l k o)) (Fin.ext (startRow e))

/-- The later layers' biases of edge type e are encoder (0, 1, 1, 2) e's. -/
theorem br4_apply (c : Dev nD) (e : Fin 4) (l : Fin 3) (o : Fin 64) :
    V m c main_v61 (ix3 e l o) = m ((c.tc : Thread nD τ).loc main_arg9) (ix3 (encOf e) l o) := by
  have h := congrFun ((V_eq m c main_v61).trans (after16_v61 (W m c))) (ix3 e l o)
  rw [W_arg9, W_c] at h
  refine h.trans ((gather_slab3 _ rfl rfl rfl rfl rfl _ _ e l o (by decide)).trans ?_)
  exact congrArg (fun r : Fin 3 => m ((c.tc : Thread nD τ).loc main_arg9) (ix3 r l o)) (Fin.ext (startRow e))

end Cert.KernelIdeal.HandHost

end
-- ==== Proof.PreDecode.lean ====
/-
  The precondition, read back for the four edge-index tables.

  The printed precondition is a conjunction of ten "all entries satisfy ..." tests. The last four say, of each edge-index
  table a, that every entry w has 0 ≤ w and w < 200000 read as signed 32-bit words. A signed word in [0, 200000) has its
  top bit clear, so its unsigned value is its signed value: every entry, as an unsigned word, is below 200000.
-/
import proofs.«421665_j70712341562148_1_alg».proof.Pre_finite_inputs
import proofs.«421665_j70712341562148_1_alg».proof.Proof.Gen.Pre_finite_inputs
import proofs.«421665_j70712341562148_1_alg».proof.Proof.Spec
import Idealize.ShloMosaic.Lib.StableHlo.Predicate
import Idealize.ShloMosaic.Lib.ReduceAll

noncomputable section

namespace Cert.Pre_finite_inputs.Hand

open Cert.Pre_finite_inputs Cert.EdgeMlp Idealize.ShloMosaic

/-- The scalar shape has one index. -/
instance : Subsingleton S_.Idx := ⟨fun a b => funext fun d => d.elim0⟩

/-- A word that is at least 0 and below 200000 read signed is below 200000 read unsigned: were its top bit set, its
    signed value would be negative. -/
theorem toNat_lt_of_signed_range (w : BitVec 32) (h0 : IntOp.cmpi .sge w 0#32 = 1#1)
    (h1 : IntOp.cmpi .slt w 200000#32 = 1#1) : w.toNat < 200000 := by
  rw [IntOp.cmpi_sge] at h0
  rw [IntOp.cmpi_slt] at h1
  have e0 : (0#32 : BitVec 32).toInt = 0 := by decide
  have e1 : (200000#32 : BitVec 32).toInt = 200000 := by decide
  rw [e0] at h0
  rw [e1] at h1
  have hlt := w.isLt
  rw [BitVec.toInt_eq_toNat_cond] at h0 h1
  split at h0 <;> omega

/-- One conjunct: if the "and" over all entries of (0 ≤ a) ∧ (a < 200000) is 1, every entry of a is in range. -/
theorem inRange_of_all (a : IVec S2x500000 32) (init : IVec S_ 1)
    (hb : S_.BroadcastsInDim S2x500000 (![] : Fin 0 → Fin S2x500000.rank))
    (hr : S2x500000.ReducesTo [0, 1] S_) (hu : 0 < S_.numel)
    (h : Host.reduce IntOp.andi
          (andi (cmpi .sge a (broadcastInDim S2x500000 ![] hb (constantI S_ 32 0#32)))
                (cmpi .slt a (broadcastInDim S2x500000 ![] hb (constantI S_ 32 200000#32))))
          init hr hu ValueIdx.ix0 = 1#1) : InRange a := by
  intro i
  have e := Host.reduce_andi_all _ _ _ _ _ h i
  have e' : IntOp.andi (IntOp.cmpi .sge (a i) 0#32) (IntOp.cmpi .slt (a i) 200000#32) = 1#1 := e
  obtain ⟨h0, h1⟩ := IntOp.andi_eq_one.1 e'
  exact toNat_lt_of_signed_range _ h0 h1

/-- The precondition gives the index range of all four edge-index tables. -/
theorem inRange_of_pre (a0 a1 : FVec Ideal S200000x64 .f32) (a2 a3 a4 a5 : IVec S2x500000 32)
    (a6 : FVec Ideal S3x128x64 .f32) (a7 : FVec Ideal S3x64 .f32) (a8 : FVec Ideal S3x3x64x64 .f32)
    (a9 : FVec Ideal S3x3x64 .f32)
    (h : Cert.Pre_finite_inputs.fn (F := Ideal) a0 a1 a2 a3 a4 a5 a6 a7 a8 a9 = (fun _ => 1#1)) :
    InRange a2 ∧ InRange a3 ∧ InRange a4 ∧ InRange a5 := by
  have e := congrFun h ValueIdx.ix0
  dsimp only [fn, fn_part1, fn_part2, fn_part3] at e
  -- the outermost "and" splits off the test of the last table; then the third, the second, the first
  obtain ⟨e4, h5⟩ := IntOp.andi_eq_one.1 e
  obtain ⟨e3, h4⟩ := IntOp.andi_eq_one.1 e4
  obtain ⟨e2, h3⟩ := IntOp.andi_eq_one.1 e3
  obtain ⟨-, h2⟩ := IntOp.andi_eq_one.1 e2
  exact ⟨inRange_of_all a2 _ _ _ _ h2, inRange_of_all a3 _ _ _ _ h3, inRange_of_all a4 _ _ _ _ h4,
    inRange_of_all a5 _ _ _ _ h5⟩

end Cert.Pre_finite_inputs.Hand

end
-- ==== Proof.RefRun.lean ====
/-
  The reference program's run, read off its operations in five stretches.

  The program is a straight line of 277 host operations: four chains of 68 (one per edge type: gather the two node
  rows of every edge, concatenate them, four affine layers with max(·, 0) after the first three), then five more that
  stack the four [500000, 64] results. Each chain reads only arguments and writes only buffers of its own, so after
  the whole line the result buffer holds the stack of the four chains' values at the launch contents, and no argument
  has been written. What a stretch leaves in a buffer is computed over an arbitrary valuation of the buffers it reads;
  a buffer that no operation of a stretch writes keeps its contents through it.
-/
import proofs.«421665_j70712341562148_1_alg».proof.Proof.RefOps
import proofs.«421665_j70712341562148_1_alg».proof.Proof.RefRead
import Idealize.ShloMosaic.Lib.Pipeline.Frame
import Idealize.ShloMosaic.Lib.StableHlo.Run

noncomputable section

namespace Cert.ReferenceIdeal.HandRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## No operation allocates: each determines its results -/

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor

/-- The whole line, as the five stretches in order. -/
abbrev line : List (HloOp τ sig (Elt F)) := ops0 ++ ops1 ++ ops2 ++ ops3 ++ ops4

theorem line_sub : (line : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · rcases List.mem_append.mp h with h | h
          · exact List.forall_iff_forall_mem.mp ops0_sub op h
          · exact List.forall_iff_forall_mem.mp ops1_sub op h
        · exact List.forall_iff_forall_mem.mp ops2_sub op h
      · exact List.forall_iff_forall_mem.mp ops3_sub op h
    · exact List.forall_iff_forall_mem.mp ops4_sub op h

theorem line_fresh : ∀ op ∈ (line : List (HloOp τ sig (Elt F))), op.fresh = ∅ := fun op h => by
  rcases List.mem_append.mp h with h | h
  · rcases List.mem_append.mp h with h | h
    · rcases List.mem_append.mp h with h | h
      · rcases List.mem_append.mp h with h | h
        · exact List.forall_iff_forall_mem.mp ops0_fresh op h
        · exact List.forall_iff_forall_mem.mp ops1_fresh op h
      · exact List.forall_iff_forall_mem.mp ops2_fresh op h
    · exact List.forall_iff_forall_mem.mp ops3_fresh op h
  · exact List.forall_iff_forall_mem.mp ops4_fresh op h

/-! ## A buffer no operation of a stretch writes keeps its contents through it -/

/-- Closes `after ops V b = V b` for a literal stretch and a literal buffer none of its operations writes. -/
local macro "kept" : tactic => `(tactic| (
  refine StableHlo.after_of_forall_not_mem _ _ (List.forall_iff_forall_mem.mp ?_)
  simp only [List.Forall, StableHlo.nullary_writes, StableHlo.unary_writes, StableHlo.binary_writes, StableHlo.ternary_writes, StableHlo.quaternary_writes, StableHlo.nary_writes, StableHlo.reshape_writes, StableHlo.binaryIndexed_writes, Finset.mem_singleton]
  repeat' apply And.intro
  all_goals exact StableHlo.devRef_ne_of_ne (by decide)))

/-- The buffers the later stretches and the claim read back: the ten arguments and the first three chains' results. -/
abbrev argRefs : List (Ref sig .tc) := [main_arg0, main_arg1, main_arg2, main_arg3, main_arg4, main_arg5, main_arg6, main_arg7, main_arg8, main_arg9]

section Kept
variable (V : Valuation τ sig (Elt F))

theorem kept0_arg0 : after ops0 V (Proc.devRef .tc main_arg0) = V (Proc.devRef .tc main_arg0) := by kept
theorem kept0_arg1 : after ops0 V (Proc.devRef .tc main_arg1) = V (Proc.devRef .tc main_arg1) := by kept
theorem kept0_arg2 : after ops0 V (Proc.devRef .tc main_arg2) = V (Proc.devRef .tc main_arg2) := by kept
theorem kept0_arg3 : after ops0 V (Proc.devRef .tc main_arg3) = V (Proc.devRef .tc main_arg3) := by kept
theorem kept0_arg4 : after ops0 V (Proc.devRef .tc main_arg4) = V (Proc.devRef .tc main_arg4) := by kept
theorem kept0_arg5 : after ops0 V (Proc.devRef .tc main_arg5) = V (Proc.devRef .tc main_arg5) := by kept
theorem kept0_arg6 : after ops0 V (Proc.devRef .tc main_arg6) = V (Proc.devRef .tc main_arg6) := by kept
theorem kept0_arg7 : after ops0 V (Proc.devRef .tc main_arg7) = V (Proc.devRef .tc main_arg7) := by kept
theorem kept0_arg8 : after ops0 V (Proc.devRef .tc main_arg8) = V (Proc.devRef .tc main_arg8) := by kept
theorem kept0_arg9 : after ops0 V (Proc.devRef .tc main_arg9) = V (Proc.devRef .tc main_arg9) := by kept

theorem kept1_arg0 : after ops1 V (Proc.devRef .tc main_arg0) = V (Proc.devRef .tc main_arg0) := by kept
theorem kept1_arg1 : after ops1 V (Proc.devRef .tc main_arg1) = V (Proc.devRef .tc main_arg1) := by kept
theorem kept1_arg2 : after ops1 V (Proc.devRef .tc main_arg2) = V (Proc.devRef .tc main_arg2) := by kept
theorem kept1_arg3 : after ops1 V (Proc.devRef .tc main_arg3) = V (Proc.devRef .tc main_arg3) := by kept
theorem kept1_arg4 : after ops1 V (Proc.devRef .tc main_arg4) = V (Proc.devRef .tc main_arg4) := by kept
theorem kept1_arg5 : after ops1 V (Proc.devRef .tc main_arg5) = V (Proc.devRef .tc main_arg5) := by kept
theorem kept1_arg6 : after ops1 V (Proc.devRef .tc main_arg6) = V (Proc.devRef .tc main_arg6) := by kept
theorem kept1_arg7 : after ops1 V (Proc.devRef .tc main_arg7) = V (Proc.devRef .tc main_arg7) := by kept
theorem kept1_arg8 : after ops1 V (Proc.devRef .tc main_arg8) = V (Proc.devRef .tc main_arg8) := by kept
theorem kept1_arg9 : after ops1 V (Proc.devRef .tc main_arg9) = V (Proc.devRef .tc main_arg9) := by kept
theorem kept1_v57 : after ops1 V (Proc.devRef .tc main_v57) = V (Proc.devRef .tc main_v57) := by kept

theorem kept2_arg0 : after ops2 V (Proc.devRef .tc main_arg0) = V (Proc.devRef .tc main_arg0) := by kept
theorem kept2_arg1 : after ops2 V (Proc.devRef .tc main_arg1) = V (Proc.devRef .tc main_arg1) := by kept
theorem kept2_arg2 : after ops2 V (Proc.devRef .tc main_arg2) = V (Proc.devRef .tc main_arg2) := by kept
theorem kept2_arg3 : after ops2 V (Proc.devRef .tc main_arg3) = V (Proc.devRef .tc main_arg3) := by kept
theorem kept2_arg4 : after ops2 V (Proc.devRef .tc main_arg4) = V (Proc.devRef .tc main_arg4) := by kept
theorem kept2_arg5 : after ops2 V (Proc.devRef .tc main_arg5) = V (Proc.devRef .tc main_arg5) := by kept
theorem kept2_arg6 : after ops2 V (Proc.devRef .tc main_arg6) = V (Proc.devRef .tc main_arg6) := by kept
theorem kept2_arg7 : after ops2 V (Proc.devRef .tc main_arg7) = V (Proc.devRef .tc main_arg7) := by kept
theorem kept2_arg8 : after ops2 V (Proc.devRef .tc main_arg8) = V (Proc.devRef .tc main_arg8) := by kept
theorem kept2_arg9 : after ops2 V (Proc.devRef .tc main_arg9) = V (Proc.devRef .tc main_arg9) := by kept
theorem kept2_v57 : after ops2 V (Proc.devRef .tc main_v57) = V (Proc.devRef .tc main_v57) := by kept
theorem kept2_v115 : after ops2 V (Proc.devRef .tc main_v115) = V (Proc.devRef .tc main_v115) := by kept

theorem kept3_arg0 : after ops3 V (Proc.devRef .tc main_arg0) = V (Proc.devRef .tc main_arg0) := by kept
theorem kept3_arg1 : after ops3 V (Proc.devRef .tc main_arg1) = V (Proc.devRef .tc main_arg1) := by kept
theorem kept3_arg2 : after ops3 V (Proc.devRef .tc main_arg2) = V (Proc.devRef .tc main_arg2) := by kept
theorem kept3_arg3 : after ops3 V (Proc.devRef .tc main_arg3) = V (Proc.devRef .tc main_arg3) := by kept
theorem kept3_arg4 : after ops3 V (Proc.devRef .tc main_arg4) = V (Proc.devRef .tc main_arg4) := by kept
theorem kept3_arg5 : after ops3 V (Proc.devRef .tc main_arg5) = V (Proc.devRef .tc main_arg5) := by kept
theorem kept3_arg6 : after ops3 V (Proc.devRef .tc main_arg6) = V (Proc.devRef .tc main_arg6) := by kept
theorem kept3_arg7 : after ops3 V (Proc.devRef .tc main_arg7) = V (Proc.devRef .tc main_arg7) := by kept
theorem kept3_arg8 : after ops3 V (Proc.devRef .tc main_arg8) = V (Proc.devRef .tc main_arg8) := by kept
theorem kept3_arg9 : after ops3 V (Proc.devRef .tc main_arg9) = V (Proc.devRef .tc main_arg9) := by kept
theorem kept3_v57 : after ops3 V (Proc.devRef .tc main_v57) = V (Proc.devRef .tc main_v57) := by kept
theorem kept3_v115 : after ops3 V (Proc.devRef .tc main_v115) = V (Proc.devRef .tc main_v115) := by kept
theorem kept3_v173 : after ops3 V (Proc.devRef .tc main_v173) = V (Proc.devRef .tc main_v173) := by kept

theorem kept4_arg0 : after ops4 V (Proc.devRef .tc main_arg0) = V (Proc.devRef .tc main_arg0) := by kept
theorem kept4_arg1 : after ops4 V (Proc.devRef .tc main_arg1) = V (Proc.devRef .tc main_arg1) := by kept
theorem kept4_arg2 : after ops4 V (Proc.devRef .tc main_arg2) = V (Proc.devRef .tc main_arg2) := by kept
theorem kept4_arg3 : after ops4 V (Proc.devRef .tc main_arg3) = V (Proc.devRef .tc main_arg3) := by kept
theorem kept4_arg4 : after ops4 V (Proc.devRef .tc main_arg4) = V (Proc.devRef .tc main_arg4) := by kept
theorem kept4_arg5 : after ops4 V (Proc.devRef .tc main_arg5) = V (Proc.devRef .tc main_arg5) := by kept
theorem kept4_arg6 : after ops4 V (Proc.devRef .tc main_arg6) = V (Proc.devRef .tc main_arg6) := by kept
theorem kept4_arg7 : after ops4 V (Proc.devRef .tc main_arg7) = V (Proc.devRef .tc main_arg7) := by kept
theorem kept4_arg8 : after ops4 V (Proc.devRef .tc main_arg8) = V (Proc.devRef .tc main_arg8) := by kept
theorem kept4_arg9 : after ops4 V (Proc.devRef .tc main_arg9) = V (Proc.devRef .tc main_arg9) := by kept

end Kept

/-! ## What each chain leaves in its result buffer, over any valuation -/

set_option maxRecDepth 8192 in
set_option maxHeartbeats 40000000 in
theorem chain0 (V : Valuation τ sig (Elt F)) : after ops0 V (Proc.devRef .tc main_v57)
    = Read.val_main_v57 (F := F) (V (Proc.devRef .tc main_arg0)) (V (Proc.devRef .tc main_arg2)) (V (Proc.devRef .tc main_arg6)) (V (Proc.devRef .tc main_arg7)) (V (Proc.devRef .tc main_arg8)) (V (Proc.devRef .tc main_arg9)) := by
  after_results_simp <;> rfl

set_option maxRecDepth 8192 in
set_option maxHeartbeats 40000000 in
theorem chain1 (V : Valuation τ sig (Elt F)) : after ops1 V (Proc.devRef .tc main_v115)
    = Read.val_main_v115 (F := F) (V (Proc.devRef .tc main_arg0)) (V (Proc.devRef .tc main_arg1)) (V (Proc.devRef .tc main_arg3)) (V (Proc.devRef .tc main_arg6)) (V (Proc.devRef .tc main_arg7)) (V (Proc.devRef .tc main_arg8)) (V (Proc.devRef .tc main_arg9)) := by
  after_results_simp <;> rfl

set_option maxRecDepth 8192 in
set_option maxHeartbeats 40000000 in
theorem chain2 (V : Valuation τ sig (Elt F)) : after ops2 V (Proc.devRef .tc main_v173)
    = Read.val_main_v173 (F := F) (V (Proc.devRef .tc main_arg0)) (V (Proc.devRef .tc main_arg1)) (V (Proc.devRef .tc main_arg4)) (V (Proc.devRef .tc main_arg6)) (V (Proc.devRef .tc main_arg7)) (V (Proc.devRef .tc main_arg8)) (V (Proc.devRef .tc main_arg9)) := by
  after_results_simp <;> rfl

set_option maxRecDepth 8192 in
set_option maxHeartbeats 40000000 in
theorem chain3 (V : Valuation τ sig (Elt F)) : after ops3 V (Proc.devRef .tc main_v231)
    = Read.val_main_v231 (F := F) (V (Proc.devRef .tc main_arg1)) (V (Proc.devRef .tc main_arg5)) (V (Proc.devRef .tc main_arg6)) (V (Proc.devRef .tc main_arg7)) (V (Proc.devRef .tc main_arg8)) (V (Proc.devRef .tc main_arg9)) := by
  after_results_simp <;> rfl

/-- The last five operations: each chain's result given a leading unit axis, and the four stacked. -/
theorem stack (V : Valuation τ sig (Elt F)) : after ops4 V (Proc.devRef .tc main_v236)
    = concatenate S4x500000x64 0 [⟨S1x500000x64, broadcastInDim S1x500000x64 ![1, 2] bcast_S500000x64_S1x500000x64_1_2 (V (Proc.devRef .tc main_v57))⟩,
        ⟨S1x500000x64, broadcastInDim S1x500000x64 ![1, 2] bcast_S500000x64_S1x500000x64_1_2 (V (Proc.devRef .tc main_v115))⟩,
        ⟨S1x500000x64, broadcastInDim S1x500000x64 ![1, 2] bcast_S500000x64_S1x500000x64_1_2 (V (Proc.devRef .tc main_v173))⟩,
        ⟨S1x500000x64, broadcastInDim S1x500000x64 ![1, 2] bcast_S500000x64_S1x500000x64_1_2 (V (Proc.devRef .tc main_v231))⟩]
        concatenates_S1x500000x64_S1x500000x64_S1x500000x64_S1x500000x64_S4x500000x64_d0 := by
  after_results_simp <;> rfl

/-! ## The whole line -/

/-- After the whole line the result buffer holds the stack of the four chains' values at the contents the line started
    from: each chain reads arguments only, and no earlier stretch has written them. -/
theorem result (V : Valuation τ sig (Elt F)) : after line V (Proc.devRef .tc main_v236)
    = Read.val_main_v236 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold line
  rw [StableHlo.after_append, StableHlo.after_append, StableHlo.after_append, StableHlo.after_append, stack, chain3,
    kept3_v173, chain2, kept3_v115, kept2_v115, chain1, kept3_v57, kept2_v57, kept1_v57, chain0]
  simp only [kept0_arg0, kept0_arg1, kept0_arg2, kept0_arg3, kept0_arg4, kept0_arg5, kept0_arg6, kept0_arg7, kept0_arg8, kept0_arg9,
    kept1_arg0, kept1_arg1, kept1_arg2, kept1_arg3, kept1_arg4, kept1_arg5, kept1_arg6, kept1_arg7, kept1_arg8, kept1_arg9,
    kept2_arg0, kept2_arg1, kept2_arg2, kept2_arg3, kept2_arg4, kept2_arg5, kept2_arg6, kept2_arg7, kept2_arg8, kept2_arg9]
  rfl

theorem line_arg0 (V : Valuation τ sig (Elt F)) : after line V (Proc.devRef .tc main_arg0) = V (Proc.devRef .tc main_arg0) := by
  unfold line
  rw [StableHlo.after_append, StableHlo.after_append, StableHlo.after_append, StableHlo.after_append, kept4_arg0, kept3_arg0, kept2_arg0, kept1_arg0, kept0_arg0]
theorem line_arg1 (V : Valuation τ sig (Elt F)) : after line V (Proc.devRef .tc main_arg1) = V (Proc.devRef .tc main_arg1) := by
  unfold line
  rw [StableHlo.after_append, StableHlo.after_append, StableHlo.after_append, StableHlo.after_append, kept4_arg1, kept3_arg1, kept2_arg1, kept1_arg1, kept0_arg1]
theorem line_arg2 (V : Valuation τ sig (Elt F)) : after line V (Proc.devRef .tc main_arg2) = V (Proc.devRef .tc main_arg2) := by
  unfold line
  rw [StableHlo.after_append, StableHlo.after_append, StableHlo.after_append, StableHlo.after_append, kept4_arg2, kept3_arg2, kept2_arg2, kept1_arg2, kept0_arg2]
theorem line_arg3 (V : Valuation τ sig (Elt F)) : after line V (Proc.devRef .tc main_arg3) = V (Proc.devRef .tc main_arg3) := by
  unfold line
  rw [StableHlo.after_append, StableHlo.after_append, StableHlo.after_append, StableHlo.after_append, kept4_arg3, kept3_arg3, kept2_arg3, kept1_arg3, kept0_arg3]
theorem line_arg4 (V : Valuation τ sig (Elt F)) : after line V (Proc.devRef .tc main_arg4) = V (Proc.devRef .tc main_arg4) := by
  unfold line
  rw [StableHlo.after_append, StableHlo.after_append, StableHlo.after_append, StableHlo.after_append, kept4_arg4, kept3_arg4, kept2_arg4, kept1_arg4, kept0_arg4]
theorem line_arg5 (V : Valuation τ sig (Elt F)) : after line V (Proc.devRef .tc main_arg5) = V (Proc.devRef .tc main_arg5) := by
  unfold line
  rw [StableHlo.after_append, StableHlo.after_append, StableHlo.after_append, StableHlo.after_append, kept4_arg5, kept3_arg5, kept2_arg5, kept1_arg5, kept0_arg5]
theorem line_arg6 (V : Valuation τ sig (Elt F)) : after line V (Proc.devRef .tc main_arg6) = V (Proc.devRef .tc main_arg6) := by
  unfold line
  rw [StableHlo.after_append, StableHlo.after_append, StableHlo.after_append, StableHlo.after_append, kept4_arg6, kept3_arg6, kept2_arg6, kept1_arg6, kept0_arg6]
theorem line_arg7 (V : Valuation τ sig (Elt F)) : after line V (Proc.devRef .tc main_arg7) = V (Proc.devRef .tc main_arg7) := by
  unfold line
  rw [StableHlo.after_append, StableHlo.after_append, StableHlo.after_append, StableHlo.after_append, kept4_arg7, kept3_arg7, kept2_arg7, kept1_arg7, kept0_arg7]
theorem line_arg8 (V : Valuation τ sig (Elt F)) : after line V (Proc.devRef .tc main_arg8) = V (Proc.devRef .tc main_arg8) := by
  unfold line
  rw [StableHlo.after_append, StableHlo.after_append, StableHlo.after_append, StableHlo.after_append, kept4_arg8, kept3_arg8, kept2_arg8, kept1_arg8, kept0_arg8]
theorem line_arg9 (V : Valuation τ sig (Elt F)) : after line V (Proc.devRef .tc main_arg9) = V (Proc.devRef .tc main_arg9) := by
  unfold line
  rw [StableHlo.after_append, StableHlo.after_append, StableHlo.after_append, StableHlo.after_append, kept4_arg9, kept3_arg9, kept2_arg9, kept1_arg9, kept0_arg9]

set_option maxRecDepth 8192 in
/-- On every device, for any float values, from any memory with zero counters: every weakly fair execution of the
    reference terminates with its result buffer at the stack of the four chains' values of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236) = Read.val_main_v236 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v236).trans (result (launchContents m c)),
      (h c main_arg0).trans (line_arg0 (launchContents m c)),
      (h c main_arg1).trans (line_arg1 (launchContents m c)),
      (h c main_arg2).trans (line_arg2 (launchContents m c)),
      (h c main_arg3).trans (line_arg3 (launchContents m c)),
      (h c main_arg4).trans (line_arg4 (launchContents m c)),
      (h c main_arg5).trans (line_arg5 (launchContents m c)),
      (h c main_arg6).trans (line_arg6 (launchContents m c)),
      (h c main_arg7).trans (line_arg7 (launchContents m c)),
      (h c main_arg8).trans (line_arg8 (launchContents m c)),
      (h c main_arg9).trans (line_arg9 (launchContents m c))⟩)
    (run_seq scopedRefs_eq scopedSems_eq defs main (fun _ => line) main_eq (fun _ => line_sub) m ρ (hfresh := fun _ => line_fresh))

end Cert.ReferenceIdeal.HandRun

end
-- ==== Proof.RefX.lean ====
/-
  The reference's edge vectors read at an index.

  Per edge type the reference builds the [500000 × 128] array whose row r is the 128-vector of edge r: features 0..63
  are a row of the source node table, features 64..127 a row of the destination node table, the rows named by the
  two rows of that type's [2 × 500000] edge-index table. Each half is a row gather at a [500000 × 1] column of
  positions, every position p first replaced by p + 200000 where p is negative read signed; the gather reads the
  table at the position read signed and clamped into the table. Where every index word is below 200000 no position
  is negative, so the replacement keeps every position and each half is the table at the clamped row the index names:
  the array is the specification's edge vector, entry by entry.
-/
import proofs.«421665_j70712341562148_1_alg».proof.Proof.RefRead
import proofs.«421665_j70712341562148_1_alg».proof.Proof.Spec
import proofs.«421665_j70712341562148_1_alg».proof.Proof.LibScatterGather
import Idealize.ShloMosaic.Lib.StableHlo.Predicate
import Idealize.ShloMosaic.Lib.Pipeline.Value
import Idealize.ShloMosaic.Lib.ValueIdx

noncomputable section

namespace Cert.ReferenceIdeal.HandValue

open Cert.ReferenceIdeal Cert.ReferenceIdeal.Gen Idealize.ShloMosaic Idealize.ShloMosaic.ValueIdx
  Idealize.ShloMosaic.StableHlo Idealize.ShloMosaic.ScatterGather
open Cert.EdgeMlp (InRange rowOf xin)

/-! ## The wrapped start position -/

/-- A position word below 200000 is not negative read signed, so the wrap-around of negative positions keeps it. -/
theorem wrap_eq (w : BitVec 32) (hw : w.toNat < 200000) :
    Scalar.select (IntOp.cmpi .slt w 0#32) (IntOp.addi w 200000#32) w = w := by
  have hn : ¬ IntOp.cmpi .slt w 0#32 = 1#1 := by
    intro hlt
    have h0 : (0#32 : BitVec 32).toNat = 0 := rfl
    have := (Predicate.slt_iff_toNat (a := w) (b := 0#32) (by omega) (by decide)).1 hlt
    omega
  rw [eq_zero_of_ne_one hn, select_zero]

/-- Row o of a [2 × 500000] edge-index table as a vector of 500000 positions. -/
def rowCol (o : Nat) (hs : S2x500000.Slices ![o, 0] S1x500000) (ei : IVec S2x500000 32) : IVec S500000 32 :=
  shapeCast S500000 (extractStridedSlice S1x500000 ![o, 0] ei hs) shapeCasts_S1x500000_S500000

/-- Its entry r is the table's entry (o, r). -/
theorem rowCol_apply (o : Nat) (c : Fin 2) (hc : c.val = o) (hs : S2x500000.Slices ![o, 0] S1x500000)
    (ei : IVec S2x500000 32) (r : Fin 500000) : rowCol o hs ei (ix1 r) = ei (ix2 c r) := by
  unfold rowCol
  refine (shapeCast_apply _ shapeCasts_S1x500000_S500000 (ix1 r) (ix2 (0 : Fin 1) r) ?_).trans ?_
  · rewrite [Shape.rowMajor_val_two, Shape.rowMajor_val_one]
    show 0 * 500000 + r.val = r.val
    omega
  · exact extractStridedSlice_apply ![o, 0] ei hs (ix2 (0 : Fin 1) r) (ix2 c r) (fun a => match a with
      | ⟨0, _⟩ => by show c.val = o + 0; omega
      | ⟨1, _⟩ => by show r.val = 0 + r.val; omega)

/-- A vector of positions, each negative one moved up by the table's 200000 rows, as a [500000 × 1] column. -/
def wrapCol (col : IVec S500000 32) : IVec S500000x1 32 :=
  broadcastInDim S500000x1 ![0] bcast_S500000_S500000x1_0
    (select (cmpi .slt col (broadcastInDim S500000 ![] bcast_S_S500000 (constantI S_ 32 0#32)))
      (addi col (broadcastInDim S500000 ![] bcast_S_S500000 (constantI S_ 32 200000#32))) col)

/-- Where the position is below 200000 the column's entry (r, 0) is the position itself. -/
theorem wrapCol_apply (col : IVec S500000 32) (r : Fin 500000) (hw : (col (ix1 r)).toNat < 200000) :
    wrapCol col (ix2 r (0 : Fin 1)) = col (ix1 r) := by
  unfold wrapCol
  refine (broadcastInDim_apply _ bcast_S500000_S500000x1_0 _ (ix2 r (0 : Fin 1)) (ix1 r) (fun a => match a with
    | ⟨0, _⟩ => by show r.val = if (500000 : Nat) = 1 then 0 else r.val; rw [if_neg (by decide)])).trans ?_
  show Scalar.select (IntOp.cmpi .slt (col (ix1 r)) 0#32) (IntOp.addi (col (ix1 r)) 200000#32) (col (ix1 r)) = col (ix1 r)
  exact wrap_eq _ hw

/-! ## One row gather -/

/-- THE ROW GATHER OF A NODE TABLE at the wrapped row o of an in-range edge-index table: result element (r, f) is the
    table's row named by entry (o, r), column f. -/
theorem gather_row (x : FVec Ideal S200000x64 .f32) (o : Nat) (c : Fin 2) (hc : c.val = o)
    (hs : S2x500000.Slices ![o, 0] S1x500000) (ei : IVec S2x500000 32) (h : InRange ei) (r : Fin 500000) (f : Fin 64) :
    Host.gather gather_S200000x64_S500000x1_S500000x64_1_0_n_n_0_1_164 x (wrapCol (rowCol o hs ei)) (ix2 r f)
      = x (ix2 (rowOf (ei (ix2 c r))) f) := by
  have hcol : wrapCol (rowCol o hs ei) (ix2 r (0 : Fin 1)) = ei (ix2 c r) := by
    have e := rowCol_apply o c hc hs ei r
    rw [wrapCol_apply _ r (by rw [e]; exact h _), e]
  refine (gather_rows gather_S200000x64_S500000x1_S500000x64_1_0_n_n_0_1_164 rfl rfl rfl rfl rfl x
    (wrapCol (rowCol o hs ei)) r f (by decide)).trans ?_
  show x (ix2 (rowOf (wrapCol (rowCol o hs ei) (ix2 r (0 : Fin 1)))) f) = _
  rw [hcol]

/-! ## The two gathers side by side -/

/-- The concatenation along the feature axis of two [500000 × 64] arrays that read, in row r, the source table at the
    row entry (0, r) names and the destination table at the row entry (1, r) names, is the edge vector. -/
theorem concat_xin (a b : FVec Ideal S500000x64 .f32) (xs xd : FVec Ideal S200000x64 .f32) (ei : IVec S2x500000 32)
    (r : Fin 500000) (k : Fin 128)
    (ha : ∀ f : Fin 64, a (ix2 r f) = xs (ix2 (rowOf (ei (ix2 0 r))) f))
    (hb : ∀ f : Fin 64, b (ix2 r f) = xd (ix2 (rowOf (ei (ix2 1 r))) f)) :
    concatenate S500000x128 1 [⟨S500000x64, a⟩, ⟨S500000x64, b⟩] concatenates_S500000x64_S500000x64_S500000x128_d1 (ix2 r k)
      = xin xs xd ei r k := by
  unfold xin
  by_cases hk : k.val < 64
  · rw [dif_pos hk]
    exact (concatenate_pair_apply_left 1 a b concatenates_S500000x64_S500000x64_S500000x128_d1 (ix2 r k) rfl
      (ix2 r ⟨k.val, hk⟩) (fun c => match c with
        | ⟨0, _⟩ => rfl
        | ⟨1, _⟩ => rfl)).trans (ha _)
  · rw [dif_neg hk]
    exact (concatenate_pair_apply_right 1 a b concatenates_S500000x64_S500000x64_S500000x128_d1 (ix2 r k) rfl rfl
      (ix2 r ⟨k.val - 64, by omega⟩)
      (fun c hc => match c, hc with
        | ⟨0, _⟩, _ => rfl
        | ⟨1, _⟩, hc => absurd rfl hc)
      (by show k.val - 64 + 64 = k.val; omega)).trans (hb _)

/-! ## The four edge-vector arrays

Each edge type's array is the concatenation of a gather from its source table at row 0 of its edge-index table and a
gather from its destination table at row 1, every position wrapped. With b the first node table and e the second:
type 0 reads (b, b), type 1 (b, e), type 2 (e, b), type 3 (e, e). -/

/-- Edge type 0: sources and destinations both in the first node table. -/
theorem x0_apply (xb : FVec Ideal S200000x64 .f32) (ei : IVec S2x500000 32) (h : InRange ei)
    (r : Fin 500000) (k : Fin 128) :
    Read.val_main_v18 (F := Ideal) xb ei (ix2 r k) = xin xb xb ei r k :=
  concat_xin (Read.val_main_v8 (F := Ideal) xb ei) (Read.val_main_v17 (F := Ideal) xb ei) xb xb ei r k
    (fun f => gather_row xb 0 0 rfl slices_S2x500000_S1x500000_0_0 ei h r f)
    (fun f => gather_row xb 1 1 rfl slices_S2x500000_S1x500000_1_0 ei h r f)

/-- Edge type 1: sources in the first node table, destinations in the second. -/
theorem x1_apply (xb xe : FVec Ideal S200000x64 .f32) (ei : IVec S2x500000 32) (h : InRange ei)
    (r : Fin 500000) (k : Fin 128) :
    Read.val_main_v76 (F := Ideal) xb xe ei (ix2 r k) = xin xb xe ei r k :=
  concat_xin (Read.val_main_v66 (F := Ideal) xb ei) (Read.val_main_v75 (F := Ideal) xe ei) xb xe ei r k
    (fun f => gather_row xb 0 0 rfl slices_S2x500000_S1x500000_0_0 ei h r f)
    (fun f => gather_row xe 1 1 rfl slices_S2x500000_S1x500000_1_0 ei h r f)

/-- Edge type 2: sources in the second node table, destinations in the first. -/
theorem x2_apply (xb xe : FVec Ideal S200000x64 .f32) (ei : IVec S2x500000 32) (h : InRange ei)
    (r : Fin 500000) (k : Fin 128) :
    Read.val_main_v134 (F := Ideal) xb xe ei (ix2 r k) = xin xe xb ei r k :=
  concat_xin (Read.val_main_v124 (F := Ideal) xe ei) (Read.val_main_v133 (F := Ideal) xb ei) xe xb ei r k
    (fun f => gather_row xe 0 0 rfl slices_S2x500000_S1x500000_0_0 ei h r f)
    (fun f => gather_row xb 1 1 rfl slices_S2x500000_S1x500000_1_0 ei h r f)

/-- Edge type 3: sources and destinations both in the second node table. -/
theorem x3_apply (xe : FVec Ideal S200000x64 .f32) (ei : IVec S2x500000 32) (h : InRange ei)
    (r : Fin 500000) (k : Fin 128) :
    Read.val_main_v192 (F := Ideal) xe ei (ix2 r k) = xin xe xe ei r k :=
  concat_xin (Read.val_main_v182 (F := Ideal) xe ei) (Read.val_main_v191 (F := Ideal) xe ei) xe xe ei r k
    (fun f => gather_row xe 0 0 rfl slices_S2x500000_S1x500000_0_0 ei h r f)
    (fun f => gather_row xe 1 1 rfl slices_S2x500000_S1x500000_1_0 ei h r f)

end Cert.ReferenceIdeal.HandValue

end
-- ==== Proof.RefValue.lean ====
import proofs.«421665_j70712341562148_1_alg».proof.Proof.RefRead
import proofs.«421665_j70712341562148_1_alg».proof.Proof.RefX
import proofs.«421665_j70712341562148_1_alg».proof.Proof.Spec
import Idealize.ShloMosaic.Lib.Pipeline.Value
import Idealize.ShloMosaic.Lib.ValueIdx
import Idealize.ShloMosaic.PureOps.Ideal.Laws

/-!
  The reference program computes the specification's whole result.

  Per edge type the program slices that type's encoder out of the four weight arrays and sends the type's edge vectors
  through three layers u ↦ max (u·W + b) 0 and a last layer u ↦ u·W + b; then it stacks the four results.
  Read at an index, each weight or bias the program reaches through a slice, a reshape and (a bias) two broadcasts is
  the argument array at the encoder's index; each layer is the specification's layer; four layers are its row map; and
  the stack at (e, r, o) is type e's result at (r, o).
-/

noncomputable section

open scoped BigOperators

namespace Cert.ReferenceIdeal.HandValue

open Cert.ReferenceIdeal Cert.EdgeMlp Idealize.ShloMosaic Idealize.ShloMosaic.ValueIdx

/-! ## Four layers are the row map -/

/-- Stages H1, H2, H3, Y of [500000, 64] rows, each a layer of the one before (the first of the edge vectors X), the
    first three followed by max (·) 0: Y at (r, o) is the row map of X r at o. -/
theorem mlpRow_of_layers (X : Fin 500000 → Fin 128 → EReal) (H1 H2 H3 Y : S500000x64.Idx → EReal)
    (Wf : Fin 128 → Fin 64 → EReal) (bf : Fin 64 → EReal) (Wr : Fin 3 → Fin 64 → Fin 64 → EReal)
    (br : Fin 3 → Fin 64 → EReal)
    (h1 : ∀ r o, H1 (ix2 r o) = max (layer (X r) Wf bf o) 0)
    (h2 : ∀ r o, H2 (ix2 r o) = max (layer (fun k => H1 (ix2 r k)) (Wr 0) (br 0) o) 0)
    (h3 : ∀ r o, H3 (ix2 r o) = max (layer (fun k => H2 (ix2 r k)) (Wr 1) (br 1) o) 0)
    (h4 : ∀ r o, Y (ix2 r o) = layer (fun k => H3 (ix2 r k)) (Wr 2) (br 2) o) (r : Fin 500000) (o : Fin 64) :
    Y (ix2 r o) = mlpRow (X r) Wf bf Wr br o := by
  unfold mlpRow
  rw [h4]
  simp only [h3, h2, h1]

/-! The arguments: the two node tables, the four edge-index tables, and the four weight arrays. -/
variable (x0 x1 : FVec Ideal S200000x64 .f32) (x2 x3 x4 x5 : IVec S2x500000 32) (x6 : FVec Ideal S3x128x64 .f32)
  (x7 : FVec Ideal S3x64 .f32) (x8 : FVec Ideal S3x3x64x64 .f32) (x9 : FVec Ideal S3x3x64 .f32)

/-! ## Edge type 0: encoder 0 -/

namespace BB

/-- The first layer's weight, sliced out of the three encoders' and reshaped: entry (k, o) of encoder 0's. -/
theorem firstWeight (k : Fin 128) (o : Fin 64) : Read.val_main_v20 (F := Ideal) x6 (ix2 k o) = x6 (ix3 0 k o) := by
  rw [Read.val_main_v20_apply, Read.val_main_v19_apply]
  have hk := k.isLt
  have ho := o.isLt
  exact congrArg x6 (funext fun a => Fin.ext (by
    match a with
    | ⟨0, _⟩ => rfl
    | ⟨1, _⟩ => show (k.val * 64 + o.val) / 64 % 128 = k.val; omega
    | ⟨2, _⟩ => show (k.val * 64 + o.val) % 64 = o.val; omega))

/-- The first layer's bias, sliced, reshaped and broadcast over the rows: entry o of encoder 0's. -/
theorem firstBias (r : Fin 500000) (o : Fin 64) : Read.val_main_v29 (F := Ideal) x7 (ix2 r o) = x7 (ix2 0 o) := by
  rw [Read.val_main_v29_apply, Read.val_main_v28_apply, Read.val_main_v22_apply, Read.val_main_v21_apply]
  have ho := o.isLt
  exact congrArg x7 (funext fun a => Fin.ext (by
    match a with
    | ⟨0, _⟩ => rfl
    | ⟨1, _⟩ => show o.val % 64 = o.val; omega))

/-- The second layer's weight: entry (k, o) of encoder 0's later weight 0. -/
theorem restWeight0 (k o : Fin 64) : Read.val_main_v33 (F := Ideal) x8 (ix2 k o) = x8 (ix4 0 0 k o) := by
  rw [Read.val_main_v33_apply, Read.val_main_v32_apply, Read.val_main_v24_apply, Read.val_main_v23_apply]
  have hk := k.isLt
  have ho := o.isLt
  exact congrArg x8 (funext fun a => Fin.ext (by
    match a with
    | ⟨0, _⟩ => rfl
    | ⟨1, _⟩ =>
      show ((0 * 64 + (k.val * 64 + o.val) / 64 % 64) * 64 + (k.val * 64 + o.val) % 64) / 4096 % 3 = 0; omega
    | ⟨2, _⟩ =>
      show ((0 * 64 + (k.val * 64 + o.val) / 64 % 64) * 64 + (k.val * 64 + o.val) % 64) / 64 % 64 = k.val; omega
    | ⟨3, _⟩ =>
      show ((0 * 64 + (k.val * 64 + o.val) / 64 % 64) * 64 + (k.val * 64 + o.val) % 64) % 64 = o.val; omega))

/-- The third layer's weight: entry (k, o) of encoder 0's later weight 1. -/
theorem restWeight1 (k o : Fin 64) : Read.val_main_v42 (F := Ideal) x8 (ix2 k o) = x8 (ix4 0 1 k o) := by
  rw [Read.val_main_v42_apply, Read.val_main_v41_apply, Read.val_main_v24_apply, Read.val_main_v23_apply]
  have hk := k.isLt
  have ho := o.isLt
  exact congrArg x8 (funext fun a => Fin.ext (by
    match a with
    | ⟨0, _⟩ => rfl
    | ⟨1, _⟩ =>
      show ((1 * 64 + (k.val * 64 + o.val) / 64 % 64) * 64 + (k.val * 64 + o.val) % 64) / 4096 % 3 = 1; omega
    | ⟨2, _⟩ =>
      show ((1 * 64 + (k.val * 64 + o.val) / 64 % 64) * 64 + (k.val * 64 + o.val) % 64) / 64 % 64 = k.val; omega
    | ⟨3, _⟩ =>
      show ((1 * 64 + (k.val * 64 + o.val) / 64 % 64) * 64 + (k.val * 64 + o.val) % 64) % 64 = o.val; omega))

/-- The last layer's weight: entry (k, o) of encoder 0's later weight 2. -/
theorem restWeight2 (k o : Fin 64) : Read.val_main_v51 (F := Ideal) x8 (ix2 k o) = x8 (ix4 0 2 k o) := by
  rw [Read.val_main_v51_apply, Read.val_main_v50_apply, Read.val_main_v24_apply, Read.val_main_v23_apply]
  have hk := k.isLt
  have ho := o.isLt
  exact congrArg x8 (funext fun a => Fin.ext (by
    match a with
    | ⟨0, _⟩ => rfl
    | ⟨1, _⟩ =>
      show ((2 * 64 + (k.val * 64 + o.val) / 64 % 64) * 64 + (k.val * 64 + o.val) % 64) / 4096 % 3 = 2; omega
    | ⟨2, _⟩ =>
      show ((2 * 64 + (k.val * 64 + o.val) / 64 % 64) * 64 + (k.val * 64 + o.val) % 64) / 64 % 64 = k.val; omega
    | ⟨3, _⟩ =>
      show ((2 * 64 + (k.val * 64 + o.val) / 64 % 64) * 64 + (k.val * 64 + o.val) % 64) % 64 = o.val; omega))

/-- The second layer's bias over the rows: entry o of encoder 0's later bias 0. -/
theorem restBias0 (r : Fin 500000) (o : Fin 64) : Read.val_main_v38 (F := Ideal) x9 (ix2 r o) = x9 (ix3 0 0 o) := by
  rw [Read.val_main_v38_apply, Read.val_main_v37_apply, Read.val_main_v36_apply, Read.val_main_v35_apply,
    Read.val_main_v26_apply, Read.val_main_v25_apply]
  have ho := o.isLt
  exact congrArg x9 (funext fun a => Fin.ext (by
    match a with
    | ⟨0, _⟩ => rfl
    | ⟨1, _⟩ => show (0 * 64 + o.val % 64) / 64 % 3 = 0; omega
    | ⟨2, _⟩ => show (0 * 64 + o.val % 64) % 64 = o.val; omega))

/-- The third layer's bias over the rows: entry o of encoder 0's later bias 1. -/
theorem restBias1 (r : Fin 500000) (o : Fin 64) : Read.val_main_v47 (F := Ideal) x9 (ix2 r o) = x9 (ix3 0 1 o) := by
  rw [Read.val_main_v47_apply, Read.val_main_v46_apply, Read.val_main_v45_apply, Read.val_main_v44_apply,
    Read.val_main_v26_apply, Read.val_main_v25_apply]
  have ho := o.isLt
  exact congrArg x9 (funext fun a => Fin.ext (by
    match a with
    | ⟨0, _⟩ => rfl
    | ⟨1, _⟩ => show (1 * 64 + o.val % 64) / 64 % 3 = 1; omega
    | ⟨2, _⟩ => show (1 * 64 + o.val % 64) % 64 = o.val; omega))

/-- The last layer's bias over the rows: entry o of encoder 0's later bias 2. -/
theorem restBias2 (r : Fin 500000) (o : Fin 64) : Read.val_main_v56 (F := Ideal) x9 (ix2 r o) = x9 (ix3 0 2 o) := by
  rw [Read.val_main_v56_apply, Read.val_main_v55_apply, Read.val_main_v54_apply, Read.val_main_v53_apply,
    Read.val_main_v26_apply, Read.val_main_v25_apply]
  have ho := o.isLt
  exact congrArg x9 (funext fun a => Fin.ext (by
    match a with
    | ⟨0, _⟩ => rfl
    | ⟨1, _⟩ => show (2 * 64 + o.val % 64) / 64 % 3 = 2; omega
    | ⟨2, _⟩ => show (2 * 64 + o.val % 64) % 64 = o.val; omega))

/-- The constant each max (·) 0 compares with is zero. -/
theorem zero1 (i : S500000x64.Idx) : Read.val_main_call0_v0 (F := Ideal) i = (0 : EReal) := by
  rw [Read.val_main_call0_v0_apply, Read.val_main_call0_cst_apply]
  exact Ideal.ofBits_zero_f32
theorem zero2 (i : S500000x64.Idx) : Read.val_main_call1_v0 (F := Ideal) i = (0 : EReal) := by
  rw [Read.val_main_call1_v0_apply, Read.val_main_call1_cst_apply]
  exact Ideal.ofBits_zero_f32
theorem zero3 (i : S500000x64.Idx) : Read.val_main_call2_v0 (F := Ideal) i = (0 : EReal) := by
  rw [Read.val_main_call2_v0_apply, Read.val_main_call2_cst_apply]
  exact Ideal.ofBits_zero_f32

/-- Where each product reads its operands: term k of entry (r, o) is the row's entry k times the weight's (k, o). -/
theorem lhs1 (r : Fin 500000) (o : Fin 64) (k : Fin 128) : Read.lidx_main_v27 (ix2 r o) k = ix2 r k :=
  funext fun a => Fin.ext (by match a with | ⟨0, _⟩ => rfl | ⟨1, _⟩ => rfl)
theorem rhs1 (r : Fin 500000) (o : Fin 64) (k : Fin 128) : Read.ridx_main_v27 (ix2 r o) k = ix2 k o :=
  funext fun a => Fin.ext (by match a with | ⟨0, _⟩ => rfl | ⟨1, _⟩ => rfl)
theorem lhs2 (r : Fin 500000) (o k : Fin 64) : Read.lidx_main_v34 (ix2 r o) k = ix2 r k :=
  funext fun a => Fin.ext (by match a with | ⟨0, _⟩ => rfl | ⟨1, _⟩ => rfl)
theorem rhs2 (r : Fin 500000) (o k : Fin 64) : Read.ridx_main_v34 (ix2 r o) k = ix2 k o :=
  funext fun a => Fin.ext (by match a with | ⟨0, _⟩ => rfl | ⟨1, _⟩ => rfl)
theorem lhs3 (r : Fin 500000) (o k : Fin 64) : Read.lidx_main_v43 (ix2 r o) k = ix2 r k :=
  funext fun a => Fin.ext (by match a with | ⟨0, _⟩ => rfl | ⟨1, _⟩ => rfl)
theorem rhs3 (r : Fin 500000) (o k : Fin 64) : Read.ridx_main_v43 (ix2 r o) k = ix2 k o :=
  funext fun a => Fin.ext (by match a with | ⟨0, _⟩ => rfl | ⟨1, _⟩ => rfl)
theorem lhs4 (r : Fin 500000) (o k : Fin 64) : Read.lidx_main_v52 (ix2 r o) k = ix2 r k :=
  funext fun a => Fin.ext (by match a with | ⟨0, _⟩ => rfl | ⟨1, _⟩ => rfl)
theorem rhs4 (r : Fin 500000) (o k : Fin 64) : Read.ridx_main_v52 (ix2 r o) k = ix2 k o :=
  funext fun a => Fin.ext (by match a with | ⟨0, _⟩ => rfl | ⟨1, _⟩ => rfl)

/-- The first layer, after max (·) 0, of the type's edge vectors. -/
theorem layer1 (r : Fin 500000) (o : Fin 64) :
    Read.val_main_v31 (F := Ideal) x0 x2 x6 x7 (ix2 r o) =
      max (layer (fun k => Read.val_main_v18 (F := Ideal) x0 x2 (ix2 r k)) (fun k o' => x6 (ix3 0 k o'))
        (fun o' => x7 (ix2 0 o')) o) 0 := by
  rw [Read.val_main_v31_apply, Read.val_main_v30_apply, Read.val_main_v27_apply, zero1, firstBias]
  simp only [layer, Ideal.maximumf_def, Ideal.addf_def, lhs1, rhs1, firstWeight]

/-- The second layer, after max (·) 0. -/
theorem layer2 (r : Fin 500000) (o : Fin 64) :
    Read.val_main_v40 (F := Ideal) x0 x2 x6 x7 x8 x9 (ix2 r o) =
      max (layer (fun k => Read.val_main_v31 (F := Ideal) x0 x2 x6 x7 (ix2 r k)) (fun k o' => x8 (ix4 0 0 k o'))
        (fun o' => x9 (ix3 0 0 o')) o) 0 := by
  rw [Read.val_main_v40_apply, Read.val_main_v39_apply, Read.val_main_v34_apply, zero2, restBias0]
  simp only [layer, Ideal.maximumf_def, Ideal.addf_def, lhs2, rhs2, restWeight0]

/-- The third layer, after max (·) 0. -/
theorem layer3 (r : Fin 500000) (o : Fin 64) :
    Read.val_main_v49 (F := Ideal) x0 x2 x6 x7 x8 x9 (ix2 r o) =
      max (layer (fun k => Read.val_main_v40 (F := Ideal) x0 x2 x6 x7 x8 x9 (ix2 r k)) (fun k o' => x8 (ix4 0 1 k o'))
        (fun o' => x9 (ix3 0 1 o')) o) 0 := by
  rw [Read.val_main_v49_apply, Read.val_main_v48_apply, Read.val_main_v43_apply, zero3, restBias1]
  simp only [layer, Ideal.maximumf_def, Ideal.addf_def, lhs3, rhs3, restWeight1]

/-- The last layer. -/
theorem layer4 (r : Fin 500000) (o : Fin 64) :
    Read.val_main_v57 (F := Ideal) x0 x2 x6 x7 x8 x9 (ix2 r o) =
      layer (fun k => Read.val_main_v49 (F := Ideal) x0 x2 x6 x7 x8 x9 (ix2 r k)) (fun k o' => x8 (ix4 0 2 k o'))
        (fun o' => x9 (ix3 0 2 o')) o := by
  rw [Read.val_main_v57_apply, Read.val_main_v52_apply, restBias2]
  simp only [layer, Ideal.addf_def, lhs4, rhs4, restWeight2]

/-- Edge type 0's result at (r, o): the row map of the type's edge vector r under encoder 0. -/
theorem row (r : Fin 500000) (o : Fin 64) :
    Read.val_main_v57 (F := Ideal) x0 x2 x6 x7 x8 x9 (ix2 r o) =
      mlpRow (fun k => Read.val_main_v18 (F := Ideal) x0 x2 (ix2 r k)) (fun k o' => x6 (ix3 0 k o'))
        (fun o' => x7 (ix2 0 o')) (fun l k o' => x8 (ix4 0 l k o')) (fun l o' => x9 (ix3 0 l o')) o :=
  mlpRow_of_layers (fun r k => Read.val_main_v18 (F := Ideal) x0 x2 (ix2 r k))
    (Read.val_main_v31 (F := Ideal) x0 x2 x6 x7) (Read.val_main_v40 (F := Ideal) x0 x2 x6 x7 x8 x9)
    (Read.val_main_v49 (F := Ideal) x0 x2 x6 x7 x8 x9) (Read.val_main_v57 (F := Ideal) x0 x2 x6 x7 x8 x9)
    (fun k o' => x6 (ix3 0 k o')) (fun o' => x7 (ix2 0 o')) (fun l k o' => x8 (ix4 0 l k o'))
    (fun l o' => x9 (ix3 0 l o')) (layer1 x0 x2 x6 x7) (layer2 x0 x2 x6 x7 x8 x9) (layer3 x0 x2 x6 x7 x8 x9)
    (layer4 x0 x2 x6 x7 x8 x9) r o

end BB

/-! ## Edge type 1: encoder 1 -/

namespace BE

/-- The first layer's weight, sliced out of the three encoders' and reshaped: entry (k, o) of encoder 1's. -/
theorem firstWeight (k : Fin 128) (o : Fin 64) : Read.val_main_v78 (F := Ideal) x6 (ix2 k o) = x6 (ix3 1 k o) := by
  rw [Read.val_main_v78_apply, Read.val_main_v77_apply]
  have hk := k.isLt
  have ho := o.isLt
  exact congrArg x6 (funext fun a => Fin.ext (by
    match a with
    | ⟨0, _⟩ => rfl
    | ⟨1, _⟩ => show (k.val * 64 + o.val) / 64 % 128 = k.val; omega
    | ⟨2, _⟩ => show (k.val * 64 + o.val) % 64 = o.val; omega))

/-- The first layer's bias, sliced, reshaped and broadcast over the rows: entry o of encoder 1's. -/
theorem firstBias (r : Fin 500000) (o : Fin 64) : Read.val_main_v87 (F := Ideal) x7 (ix2 r o) = x7 (ix2 1 o) := by
  rw [Read.val_main_v87_apply, Read.val_main_v86_apply, Read.val_main_v80_apply, Read.val_main_v79_apply]
  have ho := o.isLt
  exact congrArg x7 (funext fun a => Fin.ext (by
    match a with
    | ⟨0, _⟩ => rfl
    | ⟨1, _⟩ => show o.val % 64 = o.val; omega))

/-- The second layer's weight: entry (k, o) of encoder 1's later weight 0. -/
theorem restWeight0 (k o : Fin 64) : Read.val_main_v91 (F := Ideal) x8 (ix2 k o) = x8 (ix4 1 0 k o) := by
  rw [Read.val_main_v91_apply, Read.val_main_v90_apply, Read.val_main_v82_apply, Read.val_main_v81_apply]
  have hk := k.isLt
  have ho := o.isLt
  exact congrArg x8 (funext fun a => Fin.ext (by
    match a with
    | ⟨0, _⟩ => rfl
    | ⟨1, _⟩ =>
      show ((0 * 64 + (k.val * 64 + o.val) / 64 % 64) * 64 + (k.val * 64 + o.val) % 64) / 4096 % 3 = 0; omega
    | ⟨2, _⟩ =>
      show ((0 * 64 + (k.val * 64 + o.val) / 64 % 64) * 64 + (k.val * 64 + o.val) % 64) / 64 % 64 = k.val; omega
    | ⟨3, _⟩ =>
      show ((0 * 64 + (k.val * 64 + o.val) / 64 % 64) * 64 + (k.val * 64 + o.val) % 64) % 64 = o.val; omega))

/-- The third layer's weight: entry (k, o) of encoder 1's later weight 1. -/
theorem restWeight1 (k o : Fin 64) : Read.val_main_v100 (F := Ideal) x8 (ix2 k o) = x8 (ix4 1 1 k o) := by
  rw [Read.val_main_v100_apply, Read.val_main_v99_apply, Read.val_main_v82_apply, Read.val_main_v81_apply]
  have hk := k.isLt
  have ho := o.isLt
  exact congrArg x8 (funext fun a => Fin.ext (by
    match a with
    | ⟨0, _⟩ => rfl
    | ⟨1, _⟩ =>
      show ((1 * 64 + (k.val * 64 + o.val) / 64 % 64) * 64 + (k.val * 64 + o.val) % 64) / 4096 % 3 = 1; omega
    | ⟨2, _⟩ =>
      show ((1 * 64 + (k.val * 64 + o.val) / 64 % 64) * 64 + (k.val * 64 + o.val) % 64) / 64 % 64 = k.val; omega
    | ⟨3, _⟩ =>
      show ((1 * 64 + (k.val * 64 + o.val) / 64 % 64) * 64 + (k.val * 64 + o.val) % 64) % 64 = o.val; omega))

/-- The last layer's weight: entry (k, o) of encoder 1's later weight 2. -/
theorem restWeight2 (k o : Fin 64) : Read.val_main_v109 (F := Ideal) x8 (ix2 k o) = x8 (ix4 1 2 k o) := by
  rw [Read.val_main_v109_apply, Read.val_main_v108_apply, Read.val_main_v82_apply, Read.val_main_v81_apply]
  have hk := k.isLt
  have ho := o.isLt
  exact congrArg x8 (funext fun a => Fin.ext (by
    match a with
    | ⟨0, _⟩ => rfl
    | ⟨1, _⟩ =>
      show ((2 * 64 + (k.val * 64 + o.val) / 64 % 64) * 64 + (k.val * 64 + o.val) % 64) / 4096 % 3 = 2; omega
    | ⟨2, _⟩ =>
      show ((2 * 64 + (k.val * 64 + o.val) / 64 % 64) * 64 + (k.val * 64 + o.val) % 64) / 64 % 64 = k.val; omega
    | ⟨3, _⟩ =>
      show ((2 * 64 + (k.val * 64 + o.val) / 64 % 64) * 64 + (k.val * 64 + o.val) % 64) % 64 = o.val; omega))

/-- The second layer's bias over the rows: entry o of encoder 1's later bias 0. -/
theorem restBias0 (r : Fin 500000) (o : Fin 64) : Read.val_main_v96 (F := Ideal) x9 (ix2 r o) = x9 (ix3 1 0 o) := by
  rw [Read.val_main_v96_apply, Read.val_main_v95_apply, Read.val_main_v94_apply, Read.val_main_v93_apply,
    Read.val_main_v84_apply, Read.val_main_v83_apply]
  have ho := o.isLt
  exact congrArg x9 (funext fun a => Fin.ext (by
    match a with
    | ⟨0, _⟩ => rfl
    | ⟨1, _⟩ => show (0 * 64 + o.val % 64) / 64 % 3 = 0; omega
    | ⟨2, _⟩ => show (0 * 64 + o.val % 64) % 64 = o.val; omega))

/-- The third layer's bias over the rows: entry o of encoder 1's later bias 1. -/
theorem restBias1 (r : Fin 500000) (o : Fin 64) : Read.val_main_v105 (F := Ideal) x9 (ix2 r o) = x9 (ix3 1 1 o) := by
  rw [Read.val_main_v105_apply, Read.val_main_v104_apply, Read.val_main_v103_apply, Read.val_main_v102_apply,
    Read.val_main_v84_apply, Read.val_main_v83_apply]
  have ho := o.isLt
  exact congrArg x9 (funext fun a => Fin.ext (by
    match a with
    | ⟨0, _⟩ => rfl
    | ⟨1, _⟩ => show (1 * 64 + o.val % 64) / 64 % 3 = 1; omega
    | ⟨2, _⟩ => show (1 * 64 + o.val % 64) % 64 = o.val; omega))

/-- The last layer's bias over the rows: entry o of encoder 1's later bias 2. -/
theorem restBias2 (r : Fin 500000) (o : Fin 64) : Read.val_main_v114 (F := Ideal) x9 (ix2 r o) = x9 (ix3 1 2 o) := by
  rw [Read.val_main_v114_apply, Read.val_main_v113_apply, Read.val_main_v112_apply, Read.val_main_v111_apply,
    Read.val_main_v84_apply, Read.val_main_v83_apply]
  have ho := o.isLt
  exact congrArg x9 (funext fun a => Fin.ext (by
    match a with
    | ⟨0, _⟩ => rfl
    | ⟨1, _⟩ => show (2 * 64 + o.val % 64) / 64 % 3 = 2; omega
    | ⟨2, _⟩ => show (2 * 64 + o.val % 64) % 64 = o.val; omega))

/-- The constant each max (·) 0 compares with is zero. -/
theorem zero1 (i : S500000x64.Idx) : Read.val_main_call3_v0 (F := Ideal) i = (0 : EReal) := by
  rw [Read.val_main_call3_v0_apply, Read.val_main_call3_cst_apply]
  exact Ideal.ofBits_zero_f32
theorem zero2 (i : S500000x64.Idx) : Read.val_main_call4_v0 (F := Ideal) i = (0 : EReal) := by
  rw [Read.val_main_call4_v0_apply, Read.val_main_call4_cst_apply]
  exact Ideal.ofBits_zero_f32
theorem zero3 (i : S500000x64.Idx) : Read.val_main_call5_v0 (F := Ideal) i = (0 : EReal) := by
  rw [Read.val_main_call5_v0_apply, Read.val_main_call5_cst_apply]
  exact Ideal.ofBits_zero_f32

/-- Where each product reads its operands: term k of entry (r, o) is the row's entry k times the weight's (k, o). -/
theorem lhs1 (r : Fin 500000) (o : Fin 64) (k : Fin 128) : Read.lidx_main_v85 (ix2 r o) k = ix2 r k :=
  funext fun a => Fin.ext (by match a with | ⟨0, _⟩ => rfl | ⟨1, _⟩ => rfl)
theorem rhs1 (r : Fin 500000) (o : Fin 64) (k : Fin 128) : Read.ridx_main_v85 (ix2 r o) k = ix2 k o :=
  funext fun a => Fin.ext (by match a with | ⟨0, _⟩ => rfl | ⟨1, _⟩ => rfl)
theorem lhs2 (r : Fin 500000) (o k : Fin 64) : Read.lidx_main_v92 (ix2 r o) k = ix2 r k :=
  funext fun a => Fin.ext (by match a with | ⟨0, _⟩ => rfl | ⟨1, _⟩ => rfl)
theorem rhs2 (r : Fin 500000) (o k : Fin 64) : Read.ridx_main_v92 (ix2 r o) k = ix2 k o :=
  funext fun a => Fin.ext (by match a with | ⟨0, _⟩ => rfl | ⟨1, _⟩ => rfl)
theorem lhs3 (r : Fin 500000) (o k : Fin 64) : Read.lidx_main_v101 (ix2 r o) k = ix2 r k :=
  funext fun a => Fin.ext (by match a with | ⟨0, _⟩ => rfl | ⟨1, _⟩ => rfl)
theorem rhs3 (r : Fin 500000) (o k : Fin 64) : Read.ridx_main_v101 (ix2 r o) k = ix2 k o :=
  funext fun a => Fin.ext (by match a with | ⟨0, _⟩ => rfl | ⟨1, _⟩ => rfl)
theorem lhs4 (r : Fin 500000) (o k : Fin 64) : Read.lidx_main_v110 (ix2 r o) k = ix2 r k :=
  funext fun a => Fin.ext (by match a with | ⟨0, _⟩ => rfl | ⟨1, _⟩ => rfl)
theorem rhs4 (r : Fin 500000) (o k : Fin 64) : Read.ridx_main_v110 (ix2 r o) k = ix2 k o :=
  funext fun a => Fin.ext (by match a with | ⟨0, _⟩ => rfl | ⟨1, _⟩ => rfl)

/-- The first layer, after max (·) 0, of the type's edge vectors. -/
theorem layer1 (r : Fin 500000) (o : Fin 64) :
    Read.val_main_v89 (F := Ideal) x0 x1 x3 x6 x7 (ix2 r o) =
      max (layer (fun k => Read.val_main_v76 (F := Ideal) x0 x1 x3 (ix2 r k)) (fun k o' => x6 (ix3 1 k o'))
        (fun o' => x7 (ix2 1 o')) o) 0 := by
  rw [Read.val_main_v89_apply, Read.val_main_v88_apply, Read.val_main_v85_apply, zero1, firstBias]
  simp only [layer, Ideal.maximumf_def, Ideal.addf_def, lhs1, rhs1, firstWeight]

/-- The second layer, after max (·) 0. -/
theorem layer2 (r : Fin 500000) (o : Fin 64) :
    Read.val_main_v98 (F := Ideal) x0 x1 x3 x6 x7 x8 x9 (ix2 r o) =
      max (layer (fun k => Read.val_main_v89 (F := Ideal) x0 x1 x3 x6 x7 (ix2 r k)) (fun k o' => x8 (ix4 1 0 k o'))
        (fun o' => x9 (ix3 1 0 o')) o) 0 := by
  rw [Read.val_main_v98_apply, Read.val_main_v97_apply, Read.val_main_v92_apply, zero2, restBias0]
  simp only [layer, Ideal.maximumf_def, Ideal.addf_def, lhs2, rhs2, restWeight0]

/-- The third layer, after max (·) 0. -/
theorem layer3 (r : Fin 500000) (o : Fin 64) :
    Read.val_main_v107 (F := Ideal) x0 x1 x3 x6 x7 x8 x9 (ix2 r o) =
      max (layer (fun k => Read.val_main_v98 (F := Ideal) x0 x1 x3 x6 x7 x8 x9 (ix2 r k))
        (fun k o' => x8 (ix4 1 1 k o')) (fun o' => x9 (ix3 1 1 o')) o) 0 := by
  rw [Read.val_main_v107_apply, Read.val_main_v106_apply, Read.val_main_v101_apply, zero3, restBias1]
  simp only [layer, Ideal.maximumf_def, Ideal.addf_def, lhs3, rhs3, restWeight1]

/-- The last layer. -/
theorem layer4 (r : Fin 500000) (o : Fin 64) :
    Read.val_main_v115 (F := Ideal) x0 x1 x3 x6 x7 x8 x9 (ix2 r o) =
      layer (fun k => Read.val_main_v107 (F := Ideal) x0 x1 x3 x6 x7 x8 x9 (ix2 r k)) (fun k o' => x8 (ix4 1 2 k o'))
        (fun o' => x9 (ix3 1 2 o')) o := by
  rw [Read.val_main_v115_apply, Read.val_main_v110_apply, restBias2]
  simp only [layer, Ideal.addf_def, lhs4, rhs4, restWeight2]

/-- Edge type 1's result at (r, o): the row map of the type's edge vector r under encoder 1. -/
theorem row (r : Fin 500000) (o : Fin 64) :
    Read.val_main_v115 (F := Ideal) x0 x1 x3 x6 x7 x8 x9 (ix2 r o) =
      mlpRow (fun k => Read.val_main_v76 (F := Ideal) x0 x1 x3 (ix2 r k)) (fun k o' => x6 (ix3 1 k o'))
        (fun o' => x7 (ix2 1 o')) (fun l k o' => x8 (ix4 1 l k o')) (fun l o' => x9 (ix3 1 l o')) o :=
  mlpRow_of_layers (fun r k => Read.val_main_v76 (F := Ideal) x0 x1 x3 (ix2 r k))
    (Read.val_main_v89 (F := Ideal) x0 x1 x3 x6 x7) (Read.val_main_v98 (F := Ideal) x0 x1 x3 x6 x7 x8 x9)
    (Read.val_main_v107 (F := Ideal) x0 x1 x3 x6 x7 x8 x9) (Read.val_main_v115 (F := Ideal) x0 x1 x3 x6 x7 x8 x9)
    (fun k o' => x6 (ix3 1 k o')) (fun o' => x7 (ix2 1 o')) (fun l k o' => x8 (ix4 1 l k o'))
    (fun l o' => x9 (ix3 1 l o')) (layer1 x0 x1 x3 x6 x7) (layer2 x0 x1 x3 x6 x7 x8 x9)
    (layer3 x0 x1 x3 x6 x7 x8 x9) (layer4 x0 x1 x3 x6 x7 x8 x9) r o

end BE

/-! ## Edge type 2: encoder 1 again -/

namespace EB

/-- The first layer's weight, sliced out of the three encoders' and reshaped: entry (k, o) of encoder 1's. -/
theorem firstWeight (k : Fin 128) (o : Fin 64) : Read.val_main_v136 (F := Ideal) x6 (ix2 k o) = x6 (ix3 1 k o) := by
  rw [Read.val_main_v136_apply, Read.val_main_v135_apply]
  have hk := k.isLt
  have ho := o.isLt
  exact congrArg x6 (funext fun a => Fin.ext (by
    match a with
    | ⟨0, _⟩ => rfl
    | ⟨1, _⟩ => show (k.val * 64 + o.val) / 64 % 128 = k.val; omega
    | ⟨2, _⟩ => show (k.val * 64 + o.val) % 64 = o.val; omega))

/-- The first layer's bias, sliced, reshaped and broadcast over the rows: entry o of encoder 1's. -/
theorem firstBias (r : Fin 500000) (o : Fin 64) : Read.val_main_v145 (F := Ideal) x7 (ix2 r o) = x7 (ix2 1 o) := by
  rw [Read.val_main_v145_apply, Read.val_main_v144_apply, Read.val_main_v138_apply, Read.val_main_v137_apply]
  have ho := o.isLt
  exact congrArg x7 (funext fun a => Fin.ext (by
    match a with
    | ⟨0, _⟩ => rfl
    | ⟨1, _⟩ => show o.val % 64 = o.val; omega))

/-- The second layer's weight: entry (k, o) of encoder 1's later weight 0. -/
theorem restWeight0 (k o : Fin 64) : Read.val_main_v149 (F := Ideal) x8 (ix2 k o) = x8 (ix4 1 0 k o) := by
  rw [Read.val_main_v149_apply, Read.val_main_v148_apply, Read.val_main_v140_apply, Read.val_main_v139_apply]
  have hk := k.isLt
  have ho := o.isLt
  exact congrArg x8 (funext fun a => Fin.ext (by
    match a with
    | ⟨0, _⟩ => rfl
    | ⟨1, _⟩ =>
      show ((0 * 64 + (k.val * 64 + o.val) / 64 % 64) * 64 + (k.val * 64 + o.val) % 64) / 4096 % 3 = 0; omega
    | ⟨2, _⟩ =>
      show ((0 * 64 + (k.val * 64 + o.val) / 64 % 64) * 64 + (k.val * 64 + o.val) % 64) / 64 % 64 = k.val; omega
    | ⟨3, _⟩ =>
      show ((0 * 64 + (k.val * 64 + o.val) / 64 % 64) * 64 + (k.val * 64 + o.val) % 64) % 64 = o.val; omega))

/-- The third layer's weight: entry (k, o) of encoder 1's later weight 1. -/
theorem restWeight1 (k o : Fin 64) : Read.val_main_v158 (F := Ideal) x8 (ix2 k o) = x8 (ix4 1 1 k o) := by
  rw [Read.val_main_v158_apply, Read.val_main_v157_apply, Read.val_main_v140_apply, Read.val_main_v139_apply]
  have hk := k.isLt
  have ho := o.isLt
  exact congrArg x8 (funext fun a => Fin.ext (by
    match a with
    | ⟨0, _⟩ => rfl
    | ⟨1, _⟩ =>
      show ((1 * 64 + (k.val * 64 + o.val) / 64 % 64) * 64 + (k.val * 64 + o.val) % 64) / 4096 % 3 = 1; omega
    | ⟨2, _⟩ =>
      show ((1 * 64 + (k.val * 64 + o.val) / 64 % 64) * 64 + (k.val * 64 + o.val) % 64) / 64 % 64 = k.val; omega
    | ⟨3, _⟩ =>
      show ((1 * 64 + (k.val * 64 + o.val) / 64 % 64) * 64 + (k.val * 64 + o.val) % 64) % 64 = o.val; omega))

/-- The last layer's weight: entry (k, o) of encoder 1's later weight 2. -/
theorem restWeight2 (k o : Fin 64) : Read.val_main_v167 (F := Ideal) x8 (ix2 k o) = x8 (ix4 1 2 k o) := by
  rw [Read.val_main_v167_apply, Read.val_main_v166_apply, Read.val_main_v140_apply, Read.val_main_v139_apply]
  have hk := k.isLt
  have ho := o.isLt
  exact congrArg x8 (funext fun a => Fin.ext (by
    match a with
    | ⟨0, _⟩ => rfl
    | ⟨1, _⟩ =>
      show ((2 * 64 + (k.val * 64 + o.val) / 64 % 64) * 64 + (k.val * 64 + o.val) % 64) / 4096 % 3 = 2; omega
    | ⟨2, _⟩ =>
      show ((2 * 64 + (k.val * 64 + o.val) / 64 % 64) * 64 + (k.val * 64 + o.val) % 64) / 64 % 64 = k.val; omega
    | ⟨3, _⟩ =>
      show ((2 * 64 + (k.val * 64 + o.val) / 64 % 64) * 64 + (k.val * 64 + o.val) % 64) % 64 = o.val; omega))

/-- The second layer's bias over the rows: entry o of encoder 1's later bias 0. -/
theorem restBias0 (r : Fin 500000) (o : Fin 64) : Read.val_main_v154 (F := Ideal) x9 (ix2 r o) = x9 (ix3 1 0 o) := by
  rw [Read.val_main_v154_apply, Read.val_main_v153_apply, Read.val_main_v152_apply, Read.val_main_v151_apply,
    Read.val_main_v142_apply, Read.val_main_v141_apply]
  have ho := o.isLt
  exact congrArg x9 (funext fun a => Fin.ext (by
    match a with
    | ⟨0, _⟩ => rfl
    | ⟨1, _⟩ => show (0 * 64 + o.val % 64) / 64 % 3 = 0; omega
    | ⟨2, _⟩ => show (0 * 64 + o.val % 64) % 64 = o.val; omega))

/-- The third layer's bias over the rows: entry o of encoder 1's later bias 1. -/
theorem restBias1 (r : Fin 500000) (o : Fin 64) : Read.val_main_v163 (F := Ideal) x9 (ix2 r o) = x9 (ix3 1 1 o) := by
  rw [Read.val_main_v163_apply, Read.val_main_v162_apply, Read.val_main_v161_apply, Read.val_main_v160_apply,
    Read.val_main_v142_apply, Read.val_main_v141_apply]
  have ho := o.isLt
  exact congrArg x9 (funext fun a => Fin.ext (by
    match a with
    | ⟨0, _⟩ => rfl
    | ⟨1, _⟩ => show (1 * 64 + o.val % 64) / 64 % 3 = 1; omega
    | ⟨2, _⟩ => show (1 * 64 + o.val % 64) % 64 = o.val; omega))

/-- The last layer's bias over the rows: entry o of encoder 1's later bias 2. -/
theorem restBias2 (r : Fin 500000) (o : Fin 64) : Read.val_main_v172 (F := Ideal) x9 (ix2 r o) = x9 (ix3 1 2 o) := by
  rw [Read.val_main_v172_apply, Read.val_main_v171_apply, Read.val_main_v170_apply, Read.val_main_v169_apply,
    Read.val_main_v142_apply, Read.val_main_v141_apply]
  have ho := o.isLt
  exact congrArg x9 (funext fun a => Fin.ext (by
    match a with
    | ⟨0, _⟩ => rfl
    | ⟨1, _⟩ => show (2 * 64 + o.val % 64) / 64 % 3 = 2; omega
    | ⟨2, _⟩ => show (2 * 64 + o.val % 64) % 64 = o.val; omega))

/-- The constant each max (·) 0 compares with is zero. -/
theorem zero1 (i : S500000x64.Idx) : Read.val_main_call6_v0 (F := Ideal) i = (0 : EReal) := by
  rw [Read.val_main_call6_v0_apply, Read.val_main_call6_cst_apply]
  exact Ideal.ofBits_zero_f32
theorem zero2 (i : S500000x64.Idx) : Read.val_main_call7_v0 (F := Ideal) i = (0 : EReal) := by
  rw [Read.val_main_call7_v0_apply, Read.val_main_call7_cst_apply]
  exact Ideal.ofBits_zero_f32
theorem zero3 (i : S500000x64.Idx) : Read.val_main_call8_v0 (F := Ideal) i = (0 : EReal) := by
  rw [Read.val_main_call8_v0_apply, Read.val_main_call8_cst_apply]
  exact Ideal.ofBits_zero_f32

/-- Where each product reads its operands: term k of entry (r, o) is the row's entry k times the weight's (k, o). -/
theorem lhs1 (r : Fin 500000) (o : Fin 64) (k : Fin 128) : Read.lidx_main_v143 (ix2 r o) k = ix2 r k :=
  funext fun a => Fin.ext (by match a with | ⟨0, _⟩ => rfl | ⟨1, _⟩ => rfl)
theorem rhs1 (r : Fin 500000) (o : Fin 64) (k : Fin 128) : Read.ridx_main_v143 (ix2 r o) k = ix2 k o :=
  funext fun a => Fin.ext (by match a with | ⟨0, _⟩ => rfl | ⟨1, _⟩ => rfl)
theorem lhs2 (r : Fin 500000) (o k : Fin 64) : Read.lidx_main_v150 (ix2 r o) k = ix2 r k :=
  funext fun a => Fin.ext (by match a with | ⟨0, _⟩ => rfl | ⟨1, _⟩ => rfl)
theorem rhs2 (r : Fin 500000) (o k : Fin 64) : Read.ridx_main_v150 (ix2 r o) k = ix2 k o :=
  funext fun a => Fin.ext (by match a with | ⟨0, _⟩ => rfl | ⟨1, _⟩ => rfl)
theorem lhs3 (r : Fin 500000) (o k : Fin 64) : Read.lidx_main_v159 (ix2 r o) k = ix2 r k :=
  funext fun a => Fin.ext (by match a with | ⟨0, _⟩ => rfl | ⟨1, _⟩ => rfl)
theorem rhs3 (r : Fin 500000) (o k : Fin 64) : Read.ridx_main_v159 (ix2 r o) k = ix2 k o :=
  funext fun a => Fin.ext (by match a with | ⟨0, _⟩ => rfl | ⟨1, _⟩ => rfl)
theorem lhs4 (r : Fin 500000) (o k : Fin 64) : Read.lidx_main_v168 (ix2 r o) k = ix2 r k :=
  funext fun a => Fin.ext (by match a with | ⟨0, _⟩ => rfl | ⟨1, _⟩ => rfl)
theorem rhs4 (r : Fin 500000) (o k : Fin 64) : Read.ridx_main_v168 (ix2 r o) k = ix2 k o :=
  funext fun a => Fin.ext (by match a with | ⟨0, _⟩ => rfl | ⟨1, _⟩ => rfl)

/-- The first layer, after max (·) 0, of the type's edge vectors. -/
theorem layer1 (r : Fin 500000) (o : Fin 64) :
    Read.val_main_v147 (F := Ideal) x0 x1 x4 x6 x7 (ix2 r o) =
      max (layer (fun k => Read.val_main_v134 (F := Ideal) x0 x1 x4 (ix2 r k)) (fun k o' => x6 (ix3 1 k o'))
        (fun o' => x7 (ix2 1 o')) o) 0 := by
  rw [Read.val_main_v147_apply, Read.val_main_v146_apply, Read.val_main_v143_apply, zero1, firstBias]
  simp only [layer, Ideal.maximumf_def, Ideal.addf_def, lhs1, rhs1, firstWeight]

/-- The second layer, after max (·) 0. -/
theorem layer2 (r : Fin 500000) (o : Fin 64) :
    Read.val_main_v156 (F := Ideal) x0 x1 x4 x6 x7 x8 x9 (ix2 r o) =
      max (layer (fun k => Read.val_main_v147 (F := Ideal) x0 x1 x4 x6 x7 (ix2 r k)) (fun k o' => x8 (ix4 1 0 k o'))
        (fun o' => x9 (ix3 1 0 o')) o) 0 := by
  rw [Read.val_main_v156_apply, Read.val_main_v155_apply, Read.val_main_v150_apply, zero2, restBias0]
  simp only [layer, Ideal.maximumf_def, Ideal.addf_def, lhs2, rhs2, restWeight0]

/-- The third layer, after max (·) 0. -/
theorem layer3 (r : Fin 500000) (o : Fin 64) :
    Read.val_main_v165 (F := Ideal) x0 x1 x4 x6 x7 x8 x9 (ix2 r o) =
      max (layer (fun k => Read.val_main_v156 (F := Ideal) x0 x1 x4 x6 x7 x8 x9 (ix2 r k))
        (fun k o' => x8 (ix4 1 1 k o')) (fun o' => x9 (ix3 1 1 o')) o) 0 := by
  rw [Read.val_main_v165_apply, Read.val_main_v164_apply, Read.val_main_v159_apply, zero3, restBias1]
  simp only [layer, Ideal.maximumf_def, Ideal.addf_def, lhs3, rhs3, restWeight1]

/-- The last layer. -/
theorem layer4 (r : Fin 500000) (o : Fin 64) :
    Read.val_main_v173 (F := Ideal) x0 x1 x4 x6 x7 x8 x9 (ix2 r o) =
      layer (fun k => Read.val_main_v165 (F := Ideal) x0 x1 x4 x6 x7 x8 x9 (ix2 r k)) (fun k o' => x8 (ix4 1 2 k o'))
        (fun o' => x9 (ix3 1 2 o')) o := by
  rw [Read.val_main_v173_apply, Read.val_main_v168_apply, restBias2]
  simp only [layer, Ideal.addf_def, lhs4, rhs4, restWeight2]

/-- Edge type 2's result at (r, o): the row map of the type's edge vector r under encoder 1. -/
theorem row (r : Fin 500000) (o : Fin 64) :
    Read.val_main_v173 (F := Ideal) x0 x1 x4 x6 x7 x8 x9 (ix2 r o) =
      mlpRow (fun k => Read.val_main_v134 (F := Ideal) x0 x1 x4 (ix2 r k)) (fun k o' => x6 (ix3 1 k o'))
        (fun o' => x7 (ix2 1 o')) (fun l k o' => x8 (ix4 1 l k o')) (fun l o' => x9 (ix3 1 l o')) o :=
  mlpRow_of_layers (fun r k => Read.val_main_v134 (F := Ideal) x0 x1 x4 (ix2 r k))
    (Read.val_main_v147 (F := Ideal) x0 x1 x4 x6 x7) (Read.val_main_v156 (F := Ideal) x0 x1 x4 x6 x7 x8 x9)
    (Read.val_main_v165 (F := Ideal) x0 x1 x4 x6 x7 x8 x9) (Read.val_main_v173 (F := Ideal) x0 x1 x4 x6 x7 x8 x9)
    (fun k o' => x6 (ix3 1 k o')) (fun o' => x7 (ix2 1 o')) (fun l k o' => x8 (ix4 1 l k o'))
    (fun l o' => x9 (ix3 1 l o')) (layer1 x0 x1 x4 x6 x7) (layer2 x0 x1 x4 x6 x7 x8 x9)
    (layer3 x0 x1 x4 x6 x7 x8 x9) (layer4 x0 x1 x4 x6 x7 x8 x9) r o

end EB

/-! ## Edge type 3: encoder 2 -/

namespace EE

/-- The first layer's weight, sliced out of the three encoders' and reshaped: entry (k, o) of encoder 2's. -/
theorem firstWeight (k : Fin 128) (o : Fin 64) : Read.val_main_v194 (F := Ideal) x6 (ix2 k o) = x6 (ix3 2 k o) := by
  rw [Read.val_main_v194_apply, Read.val_main_v193_apply]
  have hk := k.isLt
  have ho := o.isLt
  exact congrArg x6 (funext fun a => Fin.ext (by
    match a with
    | ⟨0, _⟩ => rfl
    | ⟨1, _⟩ => show (k.val * 64 + o.val) / 64 % 128 = k.val; omega
    | ⟨2, _⟩ => show (k.val * 64 + o.val) % 64 = o.val; omega))

/-- The first layer's bias, sliced, reshaped and broadcast over the rows: entry o of encoder 2's. -/
theorem firstBias (r : Fin 500000) (o : Fin 64) : Read.val_main_v203 (F := Ideal) x7 (ix2 r o) = x7 (ix2 2 o) := by
  rw [Read.val_main_v203_apply, Read.val_main_v202_apply, Read.val_main_v196_apply, Read.val_main_v195_apply]
  have ho := o.isLt
  exact congrArg x7 (funext fun a => Fin.ext (by
    match a with
    | ⟨0, _⟩ => rfl
    | ⟨1, _⟩ => show o.val % 64 = o.val; omega))

/-- The second layer's weight: entry (k, o) of encoder 2's later weight 0. -/
theorem restWeight0 (k o : Fin 64) : Read.val_main_v207 (F := Ideal) x8 (ix2 k o) = x8 (ix4 2 0 k o) := by
  rw [Read.val_main_v207_apply, Read.val_main_v206_apply, Read.val_main_v198_apply, Read.val_main_v197_apply]
  have hk := k.isLt
  have ho := o.isLt
  exact congrArg x8 (funext fun a => Fin.ext (by
    match a with
    | ⟨0, _⟩ => rfl
    | ⟨1, _⟩ =>
      show ((0 * 64 + (k.val * 64 + o.val) / 64 % 64) * 64 + (k.val * 64 + o.val) % 64) / 4096 % 3 = 0; omega
    | ⟨2, _⟩ =>
      show ((0 * 64 + (k.val * 64 + o.val) / 64 % 64) * 64 + (k.val * 64 + o.val) % 64) / 64 % 64 = k.val; omega
    | ⟨3, _⟩ =>
      show ((0 * 64 + (k.val * 64 + o.val) / 64 % 64) * 64 + (k.val * 64 + o.val) % 64) % 64 = o.val; omega))

/-- The third layer's weight: entry (k, o) of encoder 2's later weight 1. -/
theorem restWeight1 (k o : Fin 64) : Read.val_main_v216 (F := Ideal) x8 (ix2 k o) = x8 (ix4 2 1 k o) := by
  rw [Read.val_main_v216_apply, Read.val_main_v215_apply, Read.val_main_v198_apply, Read.val_main_v197_apply]
  have hk := k.isLt
  have ho := o.isLt
  exact congrArg x8 (funext fun a => Fin.ext (by
    match a with
    | ⟨0, _⟩ => rfl
    | ⟨1, _⟩ =>
      show ((1 * 64 + (k.val * 64 + o.val) / 64 % 64) * 64 + (k.val * 64 + o.val) % 64) / 4096 % 3 = 1; omega
    | ⟨2, _⟩ =>
      show ((1 * 64 + (k.val * 64 + o.val) / 64 % 64) * 64 + (k.val * 64 + o.val) % 64) / 64 % 64 = k.val; omega
    | ⟨3, _⟩ =>
      show ((1 * 64 + (k.val * 64 + o.val) / 64 % 64) * 64 + (k.val * 64 + o.val) % 64) % 64 = o.val; omega))

/-- The last layer's weight: entry (k, o) of encoder 2's later weight 2. -/
theorem restWeight2 (k o : Fin 64) : Read.val_main_v225 (F := Ideal) x8 (ix2 k o) = x8 (ix4 2 2 k o) := by
  rw [Read.val_main_v225_apply, Read.val_main_v224_apply, Read.val_main_v198_apply, Read.val_main_v197_apply]
  have hk := k.isLt
  have ho := o.isLt
  exact congrArg x8 (funext fun a => Fin.ext (by
    match a with
    | ⟨0, _⟩ => rfl
    | ⟨1, _⟩ =>
      show ((2 * 64 + (k.val * 64 + o.val) / 64 % 64) * 64 + (k.val * 64 + o.val) % 64) / 4096 % 3 = 2; omega
    | ⟨2, _⟩ =>
      show ((2 * 64 + (k.val * 64 + o.val) / 64 % 64) * 64 + (k.val * 64 + o.val) % 64) / 64 % 64 = k.val; omega
    | ⟨3, _⟩ =>
      show ((2 * 64 + (k.val * 64 + o.val) / 64 % 64) * 64 + (k.val * 64 + o.val) % 64) % 64 = o.val; omega))

/-- The second layer's bias over the rows: entry o of encoder 2's later bias 0. -/
theorem restBias0 (r : Fin 500000) (o : Fin 64) : Read.val_main_v212 (F := Ideal) x9 (ix2 r o) = x9 (ix3 2 0 o) := by
  rw [Read.val_main_v212_apply, Read.val_main_v211_apply, Read.val_main_v210_apply, Read.val_main_v209_apply,
    Read.val_main_v200_apply, Read.val_main_v199_apply]
  have ho := o.isLt
  exact congrArg x9 (funext fun a => Fin.ext (by
    match a with
    | ⟨0, _⟩ => rfl
    | ⟨1, _⟩ => show (0 * 64 + o.val % 64) / 64 % 3 = 0; omega
    | ⟨2, _⟩ => show (0 * 64 + o.val % 64) % 64 = o.val; omega))

/-- The third layer's bias over the rows: entry o of encoder 2's later bias 1. -/
theorem restBias1 (r : Fin 500000) (o : Fin 64) : Read.val_main_v221 (F := Ideal) x9 (ix2 r o) = x9 (ix3 2 1 o) := by
  rw [Read.val_main_v221_apply, Read.val_main_v220_apply, Read.val_main_v219_apply, Read.val_main_v218_apply,
    Read.val_main_v200_apply, Read.val_main_v199_apply]
  have ho := o.isLt
  exact congrArg x9 (funext fun a => Fin.ext (by
    match a with
    | ⟨0, _⟩ => rfl
    | ⟨1, _⟩ => show (1 * 64 + o.val % 64) / 64 % 3 = 1; omega
    | ⟨2, _⟩ => show (1 * 64 + o.val % 64) % 64 = o.val; omega))

/-- The last layer's bias over the rows: entry o of encoder 2's later bias 2. -/
theorem restBias2 (r : Fin 500000) (o : Fin 64) : Read.val_main_v230 (F := Ideal) x9 (ix2 r o) = x9 (ix3 2 2 o) := by
  rw [Read.val_main_v230_apply, Read.val_main_v229_apply, Read.val_main_v228_apply, Read.val_main_v227_apply,
    Read.val_main_v200_apply, Read.val_main_v199_apply]
  have ho := o.isLt
  exact congrArg x9 (funext fun a => Fin.ext (by
    match a with
    | ⟨0, _⟩ => rfl
    | ⟨1, _⟩ => show (2 * 64 + o.val % 64) / 64 % 3 = 2; omega
    | ⟨2, _⟩ => show (2 * 64 + o.val % 64) % 64 = o.val; omega))

/-- The constant each max (·) 0 compares with is zero. -/
theorem zero1 (i : S500000x64.Idx) : Read.val_main_call9_v0 (F := Ideal) i = (0 : EReal) := by
  rw [Read.val_main_call9_v0_apply, Read.val_main_call9_cst_apply]
  exact Ideal.ofBits_zero_f32
theorem zero2 (i : S500000x64.Idx) : Read.val_main_call10_v0 (F := Ideal) i = (0 : EReal) := by
  rw [Read.val_main_call10_v0_apply, Read.val_main_call10_cst_apply]
  exact Ideal.ofBits_zero_f32
theorem zero3 (i : S500000x64.Idx) : Read.val_main_call11_v0 (F := Ideal) i = (0 : EReal) := by
  rw [Read.val_main_call11_v0_apply, Read.val_main_call11_cst_apply]
  exact Ideal.ofBits_zero_f32

/-- Where each product reads its operands: term k of entry (r, o) is the row's entry k times the weight's (k, o). -/
theorem lhs1 (r : Fin 500000) (o : Fin 64) (k : Fin 128) : Read.lidx_main_v201 (ix2 r o) k = ix2 r k :=
  funext fun a => Fin.ext (by match a with | ⟨0, _⟩ => rfl | ⟨1, _⟩ => rfl)
theorem rhs1 (r : Fin 500000) (o : Fin 64) (k : Fin 128) : Read.ridx_main_v201 (ix2 r o) k = ix2 k o :=
  funext fun a => Fin.ext (by match a with | ⟨0, _⟩ => rfl | ⟨1, _⟩ => rfl)
theorem lhs2 (r : Fin 500000) (o k : Fin 64) : Read.lidx_main_v208 (ix2 r o) k = ix2 r k :=
  funext fun a => Fin.ext (by match a with | ⟨0, _⟩ => rfl | ⟨1, _⟩ => rfl)
theorem rhs2 (r : Fin 500000) (o k : Fin 64) : Read.ridx_main_v208 (ix2 r o) k = ix2 k o :=
  funext fun a => Fin.ext (by match a with | ⟨0, _⟩ => rfl | ⟨1, _⟩ => rfl)
theorem lhs3 (r : Fin 500000) (o k : Fin 64) : Read.lidx_main_v217 (ix2 r o) k = ix2 r k :=
  funext fun a => Fin.ext (by match a with | ⟨0, _⟩ => rfl | ⟨1, _⟩ => rfl)
theorem rhs3 (r : Fin 500000) (o k : Fin 64) : Read.ridx_main_v217 (ix2 r o) k = ix2 k o :=
  funext fun a => Fin.ext (by match a with | ⟨0, _⟩ => rfl | ⟨1, _⟩ => rfl)
theorem lhs4 (r : Fin 500000) (o k : Fin 64) : Read.lidx_main_v226 (ix2 r o) k = ix2 r k :=
  funext fun a => Fin.ext (by match a with | ⟨0, _⟩ => rfl | ⟨1, _⟩ => rfl)
theorem rhs4 (r : Fin 500000) (o k : Fin 64) : Read.ridx_main_v226 (ix2 r o) k = ix2 k o :=
  funext fun a => Fin.ext (by match a with | ⟨0, _⟩ => rfl | ⟨1, _⟩ => rfl)

/-- The first layer, after max (·) 0, of the type's edge vectors. -/
theorem layer1 (r : Fin 500000) (o : Fin 64) :
    Read.val_main_v205 (F := Ideal) x1 x5 x6 x7 (ix2 r o) =
      max (layer (fun k => Read.val_main_v192 (F := Ideal) x1 x5 (ix2 r k)) (fun k o' => x6 (ix3 2 k o'))
        (fun o' => x7 (ix2 2 o')) o) 0 := by
  rw [Read.val_main_v205_apply, Read.val_main_v204_apply, Read.val_main_v201_apply, zero1, firstBias]
  simp only [layer, Ideal.maximumf_def, Ideal.addf_def, lhs1, rhs1, firstWeight]

/-- The second layer, after max (·) 0. -/
theorem layer2 (r : Fin 500000) (o : Fin 64) :
    Read.val_main_v214 (F := Ideal) x1 x5 x6 x7 x8 x9 (ix2 r o) =
      max (layer (fun k => Read.val_main_v205 (F := Ideal) x1 x5 x6 x7 (ix2 r k)) (fun k o' => x8 (ix4 2 0 k o'))
        (fun o' => x9 (ix3 2 0 o')) o) 0 := by
  rw [Read.val_main_v214_apply, Read.val_main_v213_apply, Read.val_main_v208_apply, zero2, restBias0]
  simp only [layer, Ideal.maximumf_def, Ideal.addf_def, lhs2, rhs2, restWeight0]

/-- The third layer, after max (·) 0. -/
theorem layer3 (r : Fin 500000) (o : Fin 64) :
    Read.val_main_v223 (F := Ideal) x1 x5 x6 x7 x8 x9 (ix2 r o) =
      max (layer (fun k => Read.val_main_v214 (F := Ideal) x1 x5 x6 x7 x8 x9 (ix2 r k)) (fun k o' => x8 (ix4 2 1 k o'))
        (fun o' => x9 (ix3 2 1 o')) o) 0 := by
  rw [Read.val_main_v223_apply, Read.val_main_v222_apply, Read.val_main_v217_apply, zero3, restBias1]
  simp only [layer, Ideal.maximumf_def, Ideal.addf_def, lhs3, rhs3, restWeight1]

/-- The last layer. -/
theorem layer4 (r : Fin 500000) (o : Fin 64) :
    Read.val_main_v231 (F := Ideal) x1 x5 x6 x7 x8 x9 (ix2 r o) =
      layer (fun k => Read.val_main_v223 (F := Ideal) x1 x5 x6 x7 x8 x9 (ix2 r k)) (fun k o' => x8 (ix4 2 2 k o'))
        (fun o' => x9 (ix3 2 2 o')) o := by
  rw [Read.val_main_v231_apply, Read.val_main_v226_apply, restBias2]
  simp only [layer, Ideal.addf_def, lhs4, rhs4, restWeight2]

/-- Edge type 3's result at (r, o): the row map of the type's edge vector r under encoder 2. -/
theorem row (r : Fin 500000) (o : Fin 64) :
    Read.val_main_v231 (F := Ideal) x1 x5 x6 x7 x8 x9 (ix2 r o) =
      mlpRow (fun k => Read.val_main_v192 (F := Ideal) x1 x5 (ix2 r k)) (fun k o' => x6 (ix3 2 k o'))
        (fun o' => x7 (ix2 2 o')) (fun l k o' => x8 (ix4 2 l k o')) (fun l o' => x9 (ix3 2 l o')) o :=
  mlpRow_of_layers (fun r k => Read.val_main_v192 (F := Ideal) x1 x5 (ix2 r k))
    (Read.val_main_v205 (F := Ideal) x1 x5 x6 x7) (Read.val_main_v214 (F := Ideal) x1 x5 x6 x7 x8 x9)
    (Read.val_main_v223 (F := Ideal) x1 x5 x6 x7 x8 x9) (Read.val_main_v231 (F := Ideal) x1 x5 x6 x7 x8 x9)
    (fun k o' => x6 (ix3 2 k o')) (fun o' => x7 (ix2 2 o')) (fun l k o' => x8 (ix4 2 l k o'))
    (fun l o' => x9 (ix3 2 l o')) (layer1 x1 x5 x6 x7) (layer2 x1 x5 x6 x7 x8 x9) (layer3 x1 x5 x6 x7 x8 x9)
    (layer4 x1 x5 x6 x7 x8 x9) r o

end EE

/-! ## The stack of the four results -/

/-- The stack at (0, r, o) is edge type 0's result at (r, o). -/
theorem stack0 (r : Fin 500000) (o : Fin 64) :
    Read.val_main_v236 (F := Ideal) x0 x1 x2 x3 x4 x5 x6 x7 x8 x9 (ix3 0 r o) =
      Read.val_main_v57 (F := Ideal) x0 x2 x6 x7 x8 x9 (ix2 r o) := by
  unfold Read.val_main_v236
  refine Eq.trans (concatenate_apply_piece (t := S4x500000x64) _ _ _ (ix3 0 r o) 0 (by show (0 : Nat) < 4; decide) S1x500000x64
    (Read.val_main_v232 (F := Ideal) x0 x2 x6 x7 x8 x9) (by rfl) (by rfl) 0 (by rfl) (ix3 0 r o) ?_ (by rfl)) ?_
  · intro b hb
    match b with
    | ⟨0, _⟩ => exact absurd rfl hb
    | ⟨1, _⟩ => rfl
    | ⟨2, _⟩ => rfl
  · rw [Read.val_main_v232_apply]
    exact congrArg _ (funext fun a => Fin.ext (by match a with | ⟨0, _⟩ => rfl | ⟨1, _⟩ => rfl))

/-- The stack at (1, r, o) is edge type 1's result at (r, o). -/
theorem stack1 (r : Fin 500000) (o : Fin 64) :
    Read.val_main_v236 (F := Ideal) x0 x1 x2 x3 x4 x5 x6 x7 x8 x9 (ix3 1 r o) =
      Read.val_main_v115 (F := Ideal) x0 x1 x3 x6 x7 x8 x9 (ix2 r o) := by
  unfold Read.val_main_v236
  refine Eq.trans (concatenate_apply_piece (t := S4x500000x64) _ _ _ (ix3 1 r o) 1 (by show (1 : Nat) < 4; decide) S1x500000x64
    (Read.val_main_v233 (F := Ideal) x0 x1 x3 x6 x7 x8 x9) (by rfl) (by rfl) 1 (by rfl) (ix3 0 r o) ?_ (by rfl)) ?_
  · intro b hb
    match b with
    | ⟨0, _⟩ => exact absurd rfl hb
    | ⟨1, _⟩ => rfl
    | ⟨2, _⟩ => rfl
  · rw [Read.val_main_v233_apply]
    exact congrArg _ (funext fun a => Fin.ext (by match a with | ⟨0, _⟩ => rfl | ⟨1, _⟩ => rfl))

/-- The stack at (2, r, o) is edge type 2's result at (r, o). -/
theorem stack2 (r : Fin 500000) (o : Fin 64) :
    Read.val_main_v236 (F := Ideal) x0 x1 x2 x3 x4 x5 x6 x7 x8 x9 (ix3 2 r o) =
      Read.val_main_v173 (F := Ideal) x0 x1 x4 x6 x7 x8 x9 (ix2 r o) := by
  unfold Read.val_main_v236
  refine Eq.trans (concatenate_apply_piece (t := S4x500000x64) _ _ _ (ix3 2 r o) 2 (by show (2 : Nat) < 4; decide) S1x500000x64
    (Read.val_main_v234 (F := Ideal) x0 x1 x4 x6 x7 x8 x9) (by rfl) (by rfl) 2 (by rfl) (ix3 0 r o) ?_ (by rfl)) ?_
  · intro b hb
    match b with
    | ⟨0, _⟩ => exact absurd rfl hb
    | ⟨1, _⟩ => rfl
    | ⟨2, _⟩ => rfl
  · rw [Read.val_main_v234_apply]
    exact congrArg _ (funext fun a => Fin.ext (by match a with | ⟨0, _⟩ => rfl | ⟨1, _⟩ => rfl))

/-- The stack at (3, r, o) is edge type 3's result at (r, o). -/
theorem stack3 (r : Fin 500000) (o : Fin 64) :
    Read.val_main_v236 (F := Ideal) x0 x1 x2 x3 x4 x5 x6 x7 x8 x9 (ix3 3 r o) =
      Read.val_main_v231 (F := Ideal) x1 x5 x6 x7 x8 x9 (ix2 r o) := by
  unfold Read.val_main_v236
  refine Eq.trans (concatenate_apply_piece (t := S4x500000x64) _ _ _ (ix3 3 r o) 3 (by show (3 : Nat) < 4; decide) S1x500000x64
    (Read.val_main_v235 (F := Ideal) x1 x5 x6 x7 x8 x9) (by rfl) (by rfl) 3 (by rfl) (ix3 0 r o) ?_ (by rfl)) ?_
  · intro b hb
    match b with
    | ⟨0, _⟩ => exact absurd rfl hb
    | ⟨1, _⟩ => rfl
    | ⟨2, _⟩ => rfl
  · rw [Read.val_main_v235_apply]
    exact congrArg _ (funext fun a => Fin.ext (by match a with | ⟨0, _⟩ => rfl | ⟨1, _⟩ => rfl))

/-! ## The whole result -/

/-- The program's last stage is the specification's result of its ten arguments, the edge-index tables in range:
    at (e, r, o) the stack is type e's result, that is the row map of the type's edge vector r, and the edge vector
    is the specification's (source features, then destination features, of the nodes the tables name). -/
theorem res_eq (h2 : InRange x2) (h3 : InRange x3) (h4 : InRange x4) (h5 : InRange x5) :
    Read.val_main_v236 (F := Ideal) x0 x1 x2 x3 x4 x5 x6 x7 x8 x9 = G x0 x1 ![x2, x3, x4, x5] x6 x7 x8 x9 := by
  funext j
  obtain ⟨e, r, o, rfl⟩ : ∃ (e : Fin 4) (r : Fin 500000) (o : Fin 64), j = ix3 e r o := ⟨j 0, j 1, j 2, eq_ix3 j⟩
  match e with
  | ⟨0, _⟩ =>
    exact (stack0 x0 x1 x2 x3 x4 x5 x6 x7 x8 x9 r o).trans ((BB.row x0 x2 x6 x7 x8 x9 r o).trans
      (congrArg (fun x => mlpRow x _ _ _ _ o) (funext fun k => x0_apply x0 x2 h2 r k)))
  | ⟨1, _⟩ =>
    exact (stack1 x0 x1 x2 x3 x4 x5 x6 x7 x8 x9 r o).trans ((BE.row x0 x1 x3 x6 x7 x8 x9 r o).trans
      (congrArg (fun x => mlpRow x _ _ _ _ o) (funext fun k => x1_apply x0 x1 x3 h3 r k)))
  | ⟨2, _⟩ =>
    exact (stack2 x0 x1 x2 x3 x4 x5 x6 x7 x8 x9 r o).trans ((EB.row x0 x1 x4 x6 x7 x8 x9 r o).trans
      (congrArg (fun x => mlpRow x _ _ _ _ o) (funext fun k => x2_apply x0 x1 x4 h4 r k)))
  | ⟨3, _⟩ =>
    exact (stack3 x0 x1 x2 x3 x4 x5 x6 x7 x8 x9 r o).trans ((EE.row x1 x5 x6 x7 x8 x9 r o).trans
      (congrArg (fun x => mlpRow x _ _ _ _ o) (funext fun k => x3_apply x1 x5 h5 r k)))

end Cert.ReferenceIdeal.HandValue

end
-- ==== Proof.lean ====
/-
  The certificate's five claims.

  Both programs, at the extended reals, send edge r of type e to the four-layer map of its 128-vector (source node's
  features, destination node's features) with encoder (0,1,1,2)(e)'s weights: Cert.EdgeMlp.G. The blocked program gathers
  with a fill for indices outside the node table, the reference with a clamp; under the precondition that every edge
  index names a node the fill is never taken and the wrap of negative indices is the identity, so the two gathers agree.
  The blocked region's result is G because each grid point's block is a function of one block of rows only (no sum
  crosses a block), and the layers are sums and maxima in the same order on both sides: no law of the extended reals
  beyond reading both sides at an index is used, and finiteness of the float inputs is not used.
  The three frames: the two blocked programs' by the region's run (proof data: what each point writes back), the
  reference's by its run (read off its operations in five stretches) with the result dropped. The idealization changed no operation, so preserves is trivial.
-/
import proofs.«421665_j70712341562148_1_alg».proof.Defs
import proofs.«421665_j70712341562148_1_alg».proof.Proof.Gen.Kernel
import proofs.«421665_j70712341562148_1_alg».proof.Proof.Gen.KernelIdeal
import proofs.«421665_j70712341562148_1_alg».proof.Proof.Gen.ReferenceIdeal
import proofs.«421665_j70712341562148_1_alg».proof.Proof.Gen.Pre_finite_inputs
import proofs.«421665_j70712341562148_1_alg».proof.Proof.Spec
import proofs.«421665_j70712341562148_1_alg».proof.Proof.KFrame
import proofs.«421665_j70712341562148_1_alg».proof.Proof.KFrameBits
import proofs.«421665_j70712341562148_1_alg».proof.Proof.KValue
import proofs.«421665_j70712341562148_1_alg».proof.Proof.KHostX
import proofs.«421665_j70712341562148_1_alg».proof.Proof.KHostW
import proofs.«421665_j70712341562148_1_alg».proof.Proof.PreDecode
import proofs.«421665_j70712341562148_1_alg».proof.Proof.RefRun
import proofs.«421665_j70712341562148_1_alg».proof.Proof.RefValue
import Idealize.ShloMosaic.Adequacy
import Idealize.ShloMosaic.Init

noncomputable section

namespace Cert.Proof

open Idealize.ShloMosaic Idealize.ShloMosaic.TcCoe Idealize.SL.Sem Cert.EdgeMlp

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Under the precondition every edge-index table of the blocked program's memory names nodes only. -/
theorem ranges (m : (ℓ : Loc Cert.KernelIdeal.nD Cert.KernelIdeal.τ Cert.KernelIdeal.sig) → Buf (Elt Ideal) ℓ) (hpre : Cert.Pre_KernelIdeal m) (c : Dev Cert.KernelIdeal.nD) :
    InRange (m ((c.tc : Thread Cert.KernelIdeal.nD Cert.KernelIdeal.τ).loc Cert.KernelIdeal.main_arg2)) ∧ InRange (m ((c.tc : Thread Cert.KernelIdeal.nD Cert.KernelIdeal.τ).loc Cert.KernelIdeal.main_arg3)) ∧ InRange (m ((c.tc : Thread Cert.KernelIdeal.nD Cert.KernelIdeal.τ).loc Cert.KernelIdeal.main_arg4)) ∧ InRange (m ((c.tc : Thread Cert.KernelIdeal.nD Cert.KernelIdeal.τ).loc Cert.KernelIdeal.main_arg5)) :=
  Cert.Pre_finite_inputs.Hand.inRange_of_pre _ _ _ _ _ _ _ _ _ _ (hpre c)

theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ![m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5)]
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · -- the blocked program: the region's run names the result array; read each operand array as its gathered argument
    refine (θ_run Cert.KernelIdeal.defs _ _).mono (fun r h c => ?_) (Cert.KernelIdeal.Hand.run_main (F := Ideal) m ρ)
    obtain ⟨h2, h3, h4, h5⟩ := ranges m hpre c
    refine ⟨?_,
      ((h c).2 _ (Pipeline.mem_restRefs_of Cert.KernelIdeal.main_arg0 (by decide) (by decide))).trans (Cert.KernelIdeal.Hand.V_main_arg0 m c),
      ((h c).2 _ (Pipeline.mem_restRefs_of Cert.KernelIdeal.main_arg1 (by decide) (by decide))).trans (Cert.KernelIdeal.Hand.V_main_arg1 m c),
      ((h c).2 _ (Pipeline.mem_restRefs_of Cert.KernelIdeal.main_arg2 (by decide) (by decide))).trans (Cert.KernelIdeal.Hand.V_main_arg2 m c),
      ((h c).2 _ (Pipeline.mem_restRefs_of Cert.KernelIdeal.main_arg3 (by decide) (by decide))).trans (Cert.KernelIdeal.Hand.V_main_arg3 m c),
      ((h c).2 _ (Pipeline.mem_restRefs_of Cert.KernelIdeal.main_arg4 (by decide) (by decide))).trans (Cert.KernelIdeal.Hand.V_main_arg4 m c),
      ((h c).2 _ (Pipeline.mem_restRefs_of Cert.KernelIdeal.main_arg5 (by decide) (by decide))).trans (Cert.KernelIdeal.Hand.V_main_arg5 m c),
      ((h c).2 _ (Pipeline.mem_restRefs_of Cert.KernelIdeal.main_arg6 (by decide) (by decide))).trans (Cert.KernelIdeal.Hand.V_main_arg6 m c),
      ((h c).2 _ (Pipeline.mem_restRefs_of Cert.KernelIdeal.main_arg7 (by decide) (by decide))).trans (Cert.KernelIdeal.Hand.V_main_arg7 m c),
      ((h c).2 _ (Pipeline.mem_restRefs_of Cert.KernelIdeal.main_arg8 (by decide) (by decide))).trans (Cert.KernelIdeal.Hand.V_main_arg8 m c),
      ((h c).2 _ (Pipeline.mem_restRefs_of Cert.KernelIdeal.main_arg9 (by decide) (by decide))).trans (Cert.KernelIdeal.Hand.V_main_arg9 m c)⟩
    refine ((h c).1 5).trans ((Cert.KernelIdeal.HandValue.final5 m c).trans ?_)
    exact regionOut_eq_G (Cert.KernelIdeal.HandHost.xcat_apply m c h2 h3 h4 h5) (Cert.KernelIdeal.HandHost.wf4_apply m c)
      (Cert.KernelIdeal.HandHost.bf4_apply m c) (Cert.KernelIdeal.HandHost.wr4_apply m c) (Cert.KernelIdeal.HandHost.br4_apply m c)
  · -- the reference: its run's result term is G of its own arguments, which agree with the blocked program's
    refine (θ_run Cert.ReferenceIdeal.defs _ _).mono (fun r h c => ⟨(h c).1.trans ?_, (h c).2⟩)
      (Cert.ReferenceIdeal.HandRun.run (F := Ideal) m' ρ')
    obtain ⟨h2, h3, h4, h5⟩ := ranges m hpre c
    obtain ⟨e0, e1, e2, e3, e4, e5, e6, e7, e8, e9⟩ := hagree c
    rw [e0, e1, e2, e3, e4, e5, e6, e7, e8, e9]
    exact Cert.ReferenceIdeal.HandValue.res_eq _ _ _ _ _ _ _ _ _ _ h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
